-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048x2048 .f32) (main_arg5 : FVec F S2048x2048 .f32) (main_arg6 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  main_v33

def fn {F : FTy → Type} [FloatOps F] (main_arg0 : FVec F S4096x2048 .f32) (main_arg1 : FVec F S2048x2048 .f32) (main_arg2 : FVec F S2048x2048 .f32) (main_arg3 : FVec F S2048x2048 .f32) (main_arg4 : FVec F S2048x2048 .f32) (main_arg5 : FVec F S2048x2048 .f32) (main_arg6 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_v13 main_v16
-- ==== Kernel.lean ====
abbrev S4096x2048 : Shape := ⟨2, ![4096, 2048]⟩
abbrev S2048x2048 : Shape := ⟨2, ![2048, 2048]⟩
abbrev S2048 : Shape := ⟨1, ![2048]⟩
abbrev S512x2048 : Shape := ⟨2, ![512, 2048]⟩
abbrev S_ : Shape := ⟨0, ![]⟩
abbrev S512x256 : Shape := ⟨2, ![512, 256]⟩
abbrev S256x2048 : Shape := ⟨2, ![256, 2048]⟩
abbrev S1x2048 : Shape := ⟨2, ![1, 2048]⟩
abbrev S2048x1 : Shape := ⟨2, ![2048, 1]⟩

abbrev nBuf : Space → Nat
  | .hbm => 44
  | .vmem => 18
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048, .f32⟩
  | .hbm, ⟨7, _⟩ => ⟨S4096x2048, .bf16⟩
  | .hbm, ⟨8, _⟩ => ⟨S2048x2048, .bf16⟩
  | .hbm, ⟨9, _⟩ => ⟨S4096x2048, .f32⟩
  | .hbm, ⟨10, _⟩ => ⟨S_, .f32⟩
  | .hbm, ⟨11, _⟩ => ⟨S2048, .f32⟩
  | .hbm, ⟨12, _⟩ => ⟨S_, .f32⟩
  | .hbm, ⟨13, _⟩ => ⟨S2048, .f32⟩
  | .hbm, ⟨14, _⟩ => ⟨S2048, .f32⟩
  | .hbm, ⟨15, _⟩ => ⟨S_, .f32⟩
  | .hbm, ⟨16, _⟩ => ⟨S2048, .f32⟩
  | .hbm, ⟨17, _⟩ => ⟨S_, .f32⟩
  | .hbm, ⟨18, _⟩ => ⟨S2048, .f32⟩
  | .hbm, ⟨19, _⟩ => ⟨S2048, .f32⟩
  | .hbm, ⟨20, _⟩ => ⟨S2048x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x1, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | .hbm, ⟨37, _⟩ => ⟨S_, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x2048, .bf16⟩
  | .hbm, ⟨42, _⟩ => ⟨S1x2048, .f32⟩
  | .hbm, ⟨43, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x256, .f32⟩
  | .local _ .vmem, ⟨6, _⟩ => ⟨S512x256, .f32⟩
  | .local _ .vmem, ⟨7, _⟩ => ⟨S512x2048, .bf16⟩
  | .local _ .vmem, ⟨8, _⟩ => ⟨S512x2048, .bf16⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S512x2048, .bf16⟩
  | .local _ .vmem, ⟨13, _⟩ => ⟨S512x2048, .bf16⟩
  | .local _ .vmem, ⟨14, _⟩ => ⟨S2048x2048, .bf16⟩
  | .local _ .vmem, ⟨15, _⟩ => ⟨S1x2048, .f32⟩
  | .local _ .vmem, ⟨16, _⟩ => ⟨S512x2048, .f32⟩
  | .local _ .vmem, ⟨17, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  reducesTo_S4096x2048_S2048_d0 : S4096x2048.ReducesTo [0] S2048
  h_S_ : 0 < S_.numel
  bcast_S_S2048 : S_.BroadcastsInDim S2048 (![] : Fin 0 → Fin S2048.rank)
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S512x256_S512x256_0_0 : ∀ a, (![0, 0] : Fin 2 → Nat) a + S512x256.size a ≤ S512x256.size a
  h_S512x256 : 0 < S512x256.numel
  shapeCasts_S512x256_S512x256 : S512x256.ShapeCasts S512x256
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  bcast_S2048_S2048x1_0 : S2048.BroadcastsInDim S2048x1 (![0] : Fin 1 → Fin S2048x1.rank)
  bcast_S2048x1_S2048x2048_0_1 : S2048x1.BroadcastsInDim S2048x2048 (![0, 1] : Fin 2 → Fin S2048x2048.rank)
  bcast_S_S2048x2048 : S_.BroadcastsInDim S2048x2048 (![] : Fin 0 → Fin S2048x2048.rank)
  shapeCasts_S2048_S1x2048 : S2048.ShapeCasts S1x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  dot_S512x2048_S2048x2048_S512x2048_1_1_0_0_n_n_wf : DotDims.WF S512x2048 S2048x2048 S512x2048 [1] [1] [0] [0] [] []
  dot_S512x256_S512x2048_S256x2048_0_0_1_1_n_n_wf : DotDims.WF S512x256 S512x2048 S256x2048 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .bf16 = 32 ∨ (Rect.block (s := S4096x2048) S512x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S4096x2048.size a
  hwx0_2 : ∀ i : grid0.Coords, EltTy.bits .f32 = 32 ∨ (Rect.block (s := S4096x2048) S512x2048.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S4096x2048.size a
  hwx1_0 : ∀ i : grid1.Coords, EltTy.bits .f32 = 32 ∨ (Rect.block (s := S4096x2048) S512x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S4096x2048.size a
  hwx1_1 : ∀ i : grid1.Coords, EltTy.bits .bf16 = 32 ∨ (Rect.block (s := S4096x2048) S512x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x2048.size a ≤ S2048x2048.size a
  hwx1_2 : ∀ i : grid1.Coords, EltTy.bits .f32 = 32 ∨ (Rect.block (s := S2048x2048) S256x2048.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2048.size a ≤ S4096x2048.size a
  hwx2_0 : ∀ i : grid2.Coords, EltTy.bits .bf16 = 32 ∨ (Rect.block (s := S4096x2048) S512x2048.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2048x2048.size a ≤ S2048x2048.size a
  hwx2_1 : ∀ i : grid2.Coords, EltTy.bits .bf16 = 32 ∨ (Rect.block (s := S2048x2048) S2048x2048.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x2048.size a ≤ S1x2048.size a
  hwx2_2 : ∀ i : grid2.Coords, EltTy.bits .f32 = 32 ∨ (Rect.block (s := S1x2048) S1x2048.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x2048.size a ≤ S4096x2048.size a
  hwx2_3 : ∀ i : grid2.Coords, EltTy.bits .f32 = 32 ∨ (Rect.block (s := S4096x2048) S512x2048.size (cc2_transform_3 i) (hinb2_3 i)).WholeWords (EltTy.packing .f32)

variable [Facts₀]

def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf
def dot_S512x256_S512x2048_S256x2048_0_0_1_1_n_n : DotDims S512x256 S512x2048 S256x2048 where
  lhsContracting := [0]
  rhsContracting := [0]
  lhsNonContracting := [1]
  rhsNonContracting := [1]
  lhsBatch := []
  rhsBatch := []
  wf := dot_S512x256_S512x2048_S256x2048_0_0_1_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S256x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v0) S512x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S2048x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v28) S1x2048.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v29) S512x2048.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩
abbrev S1x2048 : Shape := ⟨2, ![1, 2048]⟩
abbrev S2048x1 : Shape := ⟨2, ![2048, 1]⟩
abbrev S2048x4096 : Shape := ⟨2, ![2048, 4096]⟩

abbrev nBuf : Space → Nat
  | .hbm => 46
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S4096x2048, .f32⟩
  | .hbm, ⟨9, _⟩ => ⟨S_, .f32⟩
  | .hbm, ⟨10, _⟩ => ⟨S2048, .f32⟩
  | .hbm, ⟨11, _⟩ => ⟨S_, .f32⟩
  | .hbm, ⟨12, _⟩ => ⟨S2048, .f32⟩
  | .hbm, ⟨13, _⟩ => ⟨S2048, .f32⟩
  | .hbm, ⟨14, _⟩ => ⟨S1x2048, .f32⟩
  | .hbm, ⟨15, _⟩ => ⟨S2048x2048, .f32⟩
  | .hbm, ⟨16, _⟩ => ⟨S2048x2048, .f32⟩
  | .hbm, ⟨17, _⟩ => ⟨S_, .f32⟩
  | .hbm, ⟨18, _⟩ => ⟨S2048, .f32⟩
  | .hbm, ⟨19, _⟩ => ⟨S_, .f32⟩
  | .hbm, ⟨20, _⟩ => ⟨S2048, .f32⟩
  | .hbm, ⟨21, _⟩ => ⟨S2048, .f32⟩
  | .hbm, ⟨22, _⟩ => ⟨S2048x1, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x4096, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | .hbm, ⟨37, _⟩ => ⟨S_, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S4096x2048, .f32⟩
  | .hbm, ⟨43, _⟩ => ⟨S1x2048, .f32⟩
  | .hbm, ⟨44, _⟩ => ⟨S4096x2048, .f32⟩
  | .hbm, ⟨45, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]

class Facts₀ : Prop where
  transposes_S2048x2048_S2048x2048_1_0 : S2048x2048.Transposes [1, 0] S2048x2048
  reducesTo_S4096x2048_S2048_d0 : S4096x2048.ReducesTo [0] S2048
  h_S_ : 0 < S_.numel
  bcast_S_S2048 : S_.BroadcastsInDim S2048 (![] : Fin 0 → Fin S2048.rank)
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  bcast_S2048_S2048x1_0 : S2048.BroadcastsInDim S2048x1 (![0] : Fin 1 → Fin S2048x1.rank)
  bcast_S2048x1_S2048x2048_0_1 : S2048x1.BroadcastsInDim S2048x2048 (![0, 1] : Fin 2 → Fin S2048x2048.rank)
  transposes_S4096x2048_S2048x4096_1_0 : S4096x2048.Transposes [1, 0] S2048x4096
  bcast_S_S2048x2048 : S_.BroadcastsInDim S2048x2048 (![] : Fin 0 → Fin S2048x2048.rank)
  bcast_S1x2048_S4096x2048_0_1 : S1x2048.BroadcastsInDim S4096x2048 (![0, 1] : Fin 2 → Fin S4096x2048.rank)
  dot_S4096x2048_S2048x2048_S4096x2048_1_0_0_1_n_n_wf : DotDims.WF S4096x2048 S2048x2048 S4096x2048 [1] [0] [0] [1] [] []
  dot_S2048x4096_S4096x2048_S2048x2048_1_0_0_1_n_n_wf : DotDims.WF S2048x4096 S4096x2048 S2048x2048 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf
def dot_S2048x4096_S4096x2048_S2048x2048_1_0_0_1_n_n : DotDims S2048x4096 S4096x2048 S2048x2048 where
  lhsContracting := [1]
  rhsContracting := [0]
  lhsNonContracting := [0]
  rhsNonContracting := [1]
  lhsBatch := []
  rhsBatch := []
  wf := dot_S2048x4096_S4096x2048_S2048x2048_1_0_0_1_n_n_wf

class Facts : Prop extends Facts₀ where

variable [Facts]
-- ==== Proof.Spec.lean ====
/-
  The mathematics of the Hebbian linear layer, with no program in sight: over the extended reals, the
  batch matrix `x` (4096 × 2048), the weight-shaped matrices `wa wb wc wd w` (2048 × 2048) and the bias row.

    y₀      = x · wᵀ                                   (row r of x against row o of w)
    x̄ i     = (0 + Σ_b x b i) / 4096 ,  ȳ o = (0 + Σ_b y₀ b o) / 4096
    G o i   = Σ_b y₀ b o · x b i                        (the batch axis contracted)
    w' o i  = κ · w o i + η · (((x̄ i · wa o i + ȳ o · wb o i) + T o i) + wd o i)
    out r o = Σ_i x r i · w' o i + bias o

  where the correlation term `T o i` is spelt in two ways: `G o i · (wc o i / 4096)` and
  `(G o i · wc o i) / 4096`. Division by the real 4096 is multiplication by its reciprocal on every extended
  real, and multiplication of extended reals is associative, so the two spellings are one function — with no
  finiteness assumed.
-/
import Idealize.ShloMosaic.PureOps.Ideal
import Idealize.ShloMosaic.Lib.ValueIdx

noncomputable section

namespace Hebb

open Idealize.ShloMosaic Idealize.ShloMosaic.ValueIdx
open scoped BigOperators

/-- batch × features -/
abbrev SBI : Shape := ⟨2, ![4096, 2048]⟩
/-- out-features × in-features -/
abbrev SOI : Shape := ⟨2, ![2048, 2048]⟩
/-- one row of features -/
abbrev SI : Shape := ⟨1, ![2048]⟩

/-- The literals the two programs share, kept as their bit patterns. -/
abbrev cZero : EReal := Ideal.ofBits .f32 0x00000000#32
abbrev cBatch : EReal := Ideal.ofBits .f32 0x45800000#32
abbrev cKeep : EReal := Ideal.ofBits .f32 0x3F7FBE77#32
abbrev cEta : EReal := Ideal.ofBits .f32 0x3A83126F#32

/-- `4096.0` denotes the real 4096. -/
theorem cBatch_eq : cBatch = ((4096 : ℝ) : EReal) := by
  simp [cBatch, Ideal.ofBits, Ideal.ieee, -EReal.coe_mul]; norm_num

/-- `x · wᵀ`: entry (r, o) is row r of `x` against row o of `w`. -/
def mmT (x : SBI.Idx → EReal) (w : SOI.Idx → EReal) : SBI.Idx → EReal :=
  fun i => ∑ k : Fin 2048, x (ix2 (i 0) k) * w (ix2 (i 1) k)

/-- `yᵀ · x`: entry (o, i) contracts the batch axis. -/
def gram (y x : SBI.Idx → EReal) : SOI.Idx → EReal :=
  fun i => ∑ b : Fin 4096, y (ix2 b (i 0)) * x (ix2 b (i 1))

/-- The mean of column `j` over the batch, as both programs spell it: a sum from zero, divided by 4096. -/
def colMean (x : SBI.Idx → EReal) (j : Fin 2048) : EReal :=
  Ideal.div (cZero + ∑ b : Fin 4096, x (ix2 b j)) cBatch

/-- The updated weight with the correlation term spelt `G · (wc / 4096)`. -/
def newWeightL (x : SBI.Idx → EReal) (wa wb wc wd w : SOI.Idx → EReal) : SOI.Idx → EReal := fun i =>
  cKeep * w i + cEta * (((colMean x (i 1) * wa i + colMean (mmT x w) (i 0) * wb i)
    + gram (mmT x w) x i * Ideal.div (wc i) cBatch) + wd i)

/-- The updated weight with the correlation term spelt `(G · wc) / 4096`. -/
def newWeightR (x : SBI.Idx → EReal) (wa wb wc wd w : SOI.Idx → EReal) : SOI.Idx → EReal := fun i =>
  cKeep * w i + cEta * (((colMean x (i 1) * wa i + colMean (mmT x w) (i 0) * wb i)
    + Ideal.div (gram (mmT x w) x i * wc i) cBatch) + wd i)

/-- `g · (c / 4096) = (g · c) / 4096` on the extended reals: division by a nonzero real is multiplication by its
    reciprocal, and multiplication is associative. -/
theorem mul_div_batch (g c : EReal) : g * Ideal.div c cBatch = Ideal.div (g * c) cBatch := by
  rw [cBatch_eq, Ideal.div_coe (by norm_num : (4096 : ℝ) ≠ 0), Ideal.div_coe (by norm_num : (4096 : ℝ) ≠ 0), mul_assoc]

/-- The two spellings of the updated weight are one function. -/
theorem newWeightL_eq_R (x : SBI.Idx → EReal) (wa wb wc wd w : SOI.Idx → EReal) :
    newWeightL x wa wb wc wd w = newWeightR x wa wb wc wd w := by
  funext i
  simp only [newWeightL, newWeightR, mul_div_batch]

/-- The layer's output from an updated weight: `x · w'ᵀ + bias`. -/
def outOf (x : SBI.Idx → EReal) (w' : SOI.Idx → EReal) (bias : SI.Idx → EReal) : SBI.Idx → EReal :=
  fun i => mmT x w' i + bias (ix1 (i 1))

end Hebb

end
-- ==== Proof.RefValue.lean ====
/-
  The reference's result, read at an index: the reference program's composed term is the layer's output with the
  correlation term spelt `(G · wc) / 4096`.

  The stages, in the order of the mathematics: the pre-activations `y₀ = x · wᵀ`; the two column means (a sum over
  the batch from zero, divided by 4096); the batch-contracted product `G = y₀ᵀ · x`; the updated weight
  `w' = κ · w + η · (((x̄ ⊗ · wa + ȳ ⊗ · wb) + (G · wc) / 4096) + wd)`; the output `x · w'ᵀ + bias`. Each stage is an
  equation between whole arrays; a transpose swaps two coordinates, a broadcast forgets the coordinate it repeats.
-/
import proofs.«109148_j43121471652136_1_alg».proof.Proof.Gen.ReferenceIdeal.Run
import proofs.«109148_j43121471652136_1_alg».proof.Proof.Gen.ReferenceIdeal.Read
import proofs.«109148_j43121471652136_1_alg».proof.Proof.Spec

noncomputable section

namespace Cert.ReferenceIdeal.RefValue

open Idealize.ShloMosaic Idealize.ShloMosaic.ValueIdx Idealize.ShloMosaic.TcCoe Idealize.SL.Sem
open Cert.ReferenceIdeal Cert.ReferenceIdeal.Gen Cert.ReferenceIdeal.Read
open scoped BigOperators

/-! ## The stages, as whole arrays -/

/-- The pre-activations: the first contraction, of `x` against the transposed weight, is `x · wᵀ`: entry (r, o) pairs
    row r of `x` with row o of `w` (the transpose swaps the weight's two coordinates back). -/
theorem preact_eq (x : FVec Ideal S4096x2048 .f32) (w : FVec Ideal S2048x2048 .f32) :
    val_main_v1 (F := Ideal) x w = Hebb.mmT x w := by
  funext p
  rw [val_main_v1_apply]
  show _ = ∑ k : Fin 2048, x (ix2 (p 0) k) * w (ix2 (p 1) k)
  refine Finset.sum_congr rfl fun k _ => ?_
  rw [val_main_v0_apply,
    show lidx_main_v1 p k = ix2 (p 0) k from
      funext fun a => Fin.ext (by match a with | ⟨0, _⟩ => rfl | ⟨1, _⟩ => rfl),
    show idx_main_v0 (ridx_main_v1 p k) = ix2 (p 1) k from
      funext fun a => Fin.ext (by match a with | ⟨0, _⟩ => rfl | ⟨1, _⟩ => rfl)]
  rfl

/-- The mean of a column of `x`: the sum over the batch from the constant zero, divided by the constant 4096. -/
theorem meanIn_eq (x : FVec Ideal S4096x2048 .f32) (l : S2048.Idx) :
    val_main_v4 (F := Ideal) x l = Hebb.colMean x (l 0) := by
  rw [val_main_v4_apply, val_main_v2_apply, val_main_v3_apply, val_main_cst_apply, val_main_cst_0_apply]
  show Ideal.div (Hebb.cZero + ∑ b : Fin 4096, x (idx_main_v2 l b)) Hebb.cBatch
    = Ideal.div (Hebb.cZero + ∑ b : Fin 4096, x (ix2 b (l 0))) Hebb.cBatch
  refine congrArg (fun s => Ideal.div (Hebb.cZero + s) Hebb.cBatch) (Finset.sum_congr rfl fun b _ => ?_)
  exact congrArg x (funext fun a => Fin.ext (by match a with | ⟨0, _⟩ => rfl | ⟨1, _⟩ => rfl))

/-- The mean of a column of the pre-activations, spelt the same way. -/
theorem meanOut_eq (x : FVec Ideal S4096x2048 .f32) (w : FVec Ideal S2048x2048 .f32) (l : S2048.Idx) :
    val_main_v10 (F := Ideal) x w l = Hebb.colMean (Hebb.mmT x w) (l 0) := by
  rw [val_main_v10_apply, val_main_v8_apply, val_main_v9_apply, val_main_cst_1_apply, val_main_cst_2_apply, preact_eq]
  show Ideal.div (Hebb.cZero + ∑ b : Fin 4096, Hebb.mmT x w (idx_main_v8 l b)) Hebb.cBatch
    = Ideal.div (Hebb.cZero + ∑ b : Fin 4096, Hebb.mmT x w (ix2 b (l 0))) Hebb.cBatch
  refine congrArg (fun s => Ideal.div (Hebb.cZero + s) Hebb.cBatch) (Finset.sum_congr rfl fun b _ => ?_)
  exact congrArg (Hebb.mmT x w) (funext fun a => Fin.ext (by match a with | ⟨0, _⟩ => rfl | ⟨1, _⟩ => rfl))

/-- The correlation: the second contraction, of the transposed pre-activations against `x`, contracts the batch
    axis: entry (o, i) is `Σ_b y₀ b o · x b i`. -/
theorem corr_eq (x : FVec Ideal S4096x2048 .f32) (w : FVec Ideal S2048x2048 .f32) :
    val_main_v16 (F := Ideal) x w = Hebb.gram (Hebb.mmT x w) x := by
  funext j
  rw [val_main_v16_apply]
  show _ = ∑ b : Fin 4096, Hebb.mmT x w (ix2 b (j 0)) * x (ix2 b (j 1))
  refine Finset.sum_congr rfl fun b _ => ?_
  rw [val_main_v15_apply, preact_eq,
    show idx_main_v15 (lidx_main_v16 j b) = ix2 b (j 0) from
      funext fun a => Fin.ext (by match a with | ⟨0, _⟩ => rfl | ⟨1, _⟩ => rfl),
    show ridx_main_v16 j b = ix2 b (j 1) from
      funext fun a => Fin.ext (by match a with | ⟨0, _⟩ => rfl | ⟨1, _⟩ => rfl)]
  rfl

/-- The updated weight: the elementwise stages, entry by entry, with the row of input means broadcast down the
    rows, the column of output means broadcast along the columns, and the three scalars broadcast everywhere. -/
theorem weight_eq (x : FVec Ideal S4096x2048 .f32) (wa wb wc wd w : FVec Ideal S2048x2048 .f32) :
    val_main_v26 (F := Ideal) x wa wb wc wd w = Hebb.newWeightR x wa wb wc wd w := by
  funext j
  rw [val_main_v26_apply, val_main_v23_apply, val_main_v22_apply, val_main_cst_4_apply,
    val_main_v25_apply, val_main_v24_apply, val_main_cst_5_apply,
    val_main_v21_apply, val_main_v20_apply, val_main_v14_apply,
    val_main_v7_apply, val_main_v6_apply, val_main_v5_apply, meanIn_eq,
    val_main_v13_apply, val_main_v12_apply, val_main_v11_apply, meanOut_eq,
    val_main_v19_apply, val_main_v17_apply, corr_eq, val_main_v18_apply, val_main_cst_3_apply]
  rfl

/-! ## The result -/

/-- the reference run's result term, at Ideal, is the layer's output with the correlation term spelt (G·wc)/4096 -/
theorem result_eq (x : FVec Ideal Cert.ReferenceIdeal.S4096x2048 .f32) (wa wb wc wd w : FVec Ideal Cert.ReferenceIdeal.S2048x2048 .f32) (bias : FVec Ideal Cert.ReferenceIdeal.S2048 .f32) :
    addf (Host.dotGeneral dot_S4096x2048_S2048x2048_S4096x2048_1_0_0_1_n_n none x (transpose S2048x2048 [1, 0] (addf (mulf (broadcastInDim S2048x2048 ![] bcast_S_S2048x2048 (constant S_ .f32 0x3F7FBE77#32)) w) (mulf (broadcastInDim S2048x2048 ![] bcast_S_S2048x2048 (constant S_ .f32 0x3A83126F#32)) (addf (addf (addf (mulf (broadcastInDim S2048x2048 ![0, 1] bcast_S1x2048_S2048x2048_0_1 (broadcastInDim S1x2048 ![1] bcast_S2048_S1x2048_1 (Host.divf (Host.reduceAdd x (constant S_ .f32 0x00000000#32) reducesTo_S4096x2048_S2048_d0 h_S_) (broadcastInDim S2048 ![] bcast_S_S2048 (constant S_ .f32 0x45800000#32))))) wa) (mulf (broadcastInDim S2048x2048 ![0, 1] bcast_S2048x1_S2048x2048_0_1 (broadcastInDim S2048x1 ![0] bcast_S2048_S2048x1_0 (Host.divf (Host.reduceAdd (Host.dotGeneral dot_S4096x2048_S2048x2048_S4096x2048_1_0_0_1_n_n none x (transpose S2048x2048 [1, 0] w transposes_S2048x2048_S2048x2048_1_0)) (constant S_ .f32 0x00000000#32) reducesTo_S4096x2048_S2048_d0 h_S_) (broadcastInDim S2048 ![] bcast_S_S2048 (constant S_ .f32 0x45800000#32))))) wb)) (Host.divf (mulf (Host.dotGeneral dot_S2048x4096_S4096x2048_S2048x2048_1_0_0_1_n_n none (transpose S2048x4096 [1, 0] (Host.dotGeneral dot_S4096x2048_S2048x2048_S4096x2048_1_0_0_1_n_n none x (transpose S2048x2048 [1, 0] w transposes_S2048x2048_S2048x2048_1_0)) transposes_S4096x2048_S2048x4096_1_0) x) wc) (broadcastInDim S2048x2048 ![] bcast_S_S2048x2048 (constant S_ .f32 0x45800000#32)))) wd))) transposes_S2048x2048_S2048x2048_1_0)) (broadcastInDim S4096x2048 ![0, 1] bcast_S1x2048_S4096x2048_0_1 (broadcastInDim S1x2048 ![1] bcast_S2048_S1x2048_1 bias))
      = Hebb.outOf x (Hebb.newWeightR x wa wb wc wd w) bias := by
  rw [val_main_v31_eq]
  funext i
  rw [val_main_v31_apply, val_main_v28_apply, val_main_v30_apply, val_main_v29_apply]
  show _ = (∑ k : Fin 2048, x (ix2 (i 0) k) * Hebb.newWeightR x wa wb wc wd w (ix2 (i 1) k)) + bias (ix1 (i 1))
  refine congrArg₂ (· + ·) (Finset.sum_congr rfl fun k _ => ?_) ?_
  · rw [val_main_v27_apply, weight_eq,
      show lidx_main_v28 i k = ix2 (i 0) k from
        funext fun a => Fin.ext (by match a with | ⟨0, _⟩ => rfl | ⟨1, _⟩ => rfl),
      show idx_main_v27 (ridx_main_v28 i k) = ix2 (i 1) k from
        funext fun a => Fin.ext (by match a with | ⟨0, _⟩ => rfl | ⟨1, _⟩ => rfl)]
    rfl
  · exact congrArg bias (funext fun a => Fin.ext (by match a with | ⟨0, _⟩ => rfl))

/-- the reference's run with its result named by the specification -/
theorem run_spec (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc main_v31) = Hebb.outOf (m ((c.tc : Thread Cert.ReferenceIdeal.nD Cert.ReferenceIdeal.τ).loc main_arg0)) (Hebb.newWeightR (m ((c.tc : Thread Cert.ReferenceIdeal.nD Cert.ReferenceIdeal.τ).loc main_arg0)) (m ((c.tc : Thread Cert.ReferenceIdeal.nD Cert.ReferenceIdeal.τ).loc main_arg1)) (m ((c.tc : Thread Cert.ReferenceIdeal.nD Cert.ReferenceIdeal.τ).loc main_arg2)) (m ((c.tc : Thread Cert.ReferenceIdeal.nD Cert.ReferenceIdeal.τ).loc main_arg3)) (m ((c.tc : Thread Cert.ReferenceIdeal.nD Cert.ReferenceIdeal.τ).loc main_arg4)) (m ((c.tc : Thread Cert.ReferenceIdeal.nD Cert.ReferenceIdeal.τ).loc main_arg5))) (m ((c.tc : Thread Cert.ReferenceIdeal.nD Cert.ReferenceIdeal.τ).loc main_arg6))
      ∧ r.2.mem ((c.tc : Thread Cert.ReferenceIdeal.nD Cert.ReferenceIdeal.τ).loc main_arg0) = m ((c.tc : Thread Cert.ReferenceIdeal.nD Cert.ReferenceIdeal.τ).loc main_arg0)
      ∧ r.2.mem ((c.tc : Thread Cert.ReferenceIdeal.nD Cert.ReferenceIdeal.τ).loc main_arg1) = m ((c.tc : Thread Cert.ReferenceIdeal.nD Cert.ReferenceIdeal.τ).loc main_arg1)
      ∧ r.2.mem ((c.tc : Thread Cert.ReferenceIdeal.nD Cert.ReferenceIdeal.τ).loc main_arg2) = m ((c.tc : Thread Cert.ReferenceIdeal.nD Cert.ReferenceIdeal.τ).loc main_arg2)
      ∧ r.2.mem ((c.tc : Thread Cert.ReferenceIdeal.nD Cert.ReferenceIdeal.τ).loc main_arg3) = m ((c.tc : Thread Cert.ReferenceIdeal.nD Cert.ReferenceIdeal.τ).loc main_arg3)
      ∧ r.2.mem ((c.tc : Thread Cert.ReferenceIdeal.nD Cert.ReferenceIdeal.τ).loc main_arg4) = m ((c.tc : Thread Cert.ReferenceIdeal.nD Cert.ReferenceIdeal.τ).loc main_arg4)
      ∧ r.2.mem ((c.tc : Thread Cert.ReferenceIdeal.nD Cert.ReferenceIdeal.τ).loc main_arg5) = m ((c.tc : Thread Cert.ReferenceIdeal.nD Cert.ReferenceIdeal.τ).loc main_arg5)
      ∧ r.2.mem ((c.tc : Thread Cert.ReferenceIdeal.nD Cert.ReferenceIdeal.τ).loc main_arg6) = m ((c.tc : Thread Cert.ReferenceIdeal.nD Cert.ReferenceIdeal.τ).loc main_arg6) :=
  (θ_run (Cert.ReferenceIdeal.defs (F := Ideal)) _ _).mono
    (fun _ h c => ⟨((h c).1).trans (result_eq _ _ _ _ _ _ _), (h c).2⟩)
    (Cert.ReferenceIdeal.Value.run (F := Ideal) m ρ)

end Cert.ReferenceIdeal.RefValue

end
-- ==== Proof.K.Reg0.lean ====
/-
  The first matrix product's region, `y₀ = x · wᵀ` over eight blocks of 512 rows, at any contents `V` of the
  core's buffers when the region is entered. At every grid point the body loads the point's block of `x`
  (512 × 2048) and the whole of `w` (2048 × 2048, fetched once and left in place), and stores their product
  over the output's block: one store covering the block, so what the body leaves there is that product, whatever
  the block held before. Nothing is carried from point to point; the region's invariant is the scoped buffers at
  some contents beside the generator register.
-/
import proofs.«109148_j43121471652136_1_alg».proof.Proof.Gen.Kernel.Launch
import proofs.«109148_j43121471652136_1_alg».proof.Proof.Gen.Kernel.Skeleton
import proofs.«109148_j43121471652136_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of `x` is in its staging buffer at every point: fetched there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole of `w` is in its staging buffer at every point: fetched at the first, and its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_x : Rect S512x2048 := Rect.unit (s := S512x2048) ![0, 0] S512x2048.size inb_S512x2048_S512x2048_0_0
abbrev r0_w : Rect S2048x2048 := Rect.unit (s := S2048x2048) ![0, 0] S2048x2048.size inb_S2048x2048_S2048x2048_0_0

/-- What the body leaves in the output's staging buffer: the product of the two loaded blocks, stored over the whole block. -/
def out0_2 (x0 : Vec F S512x2048 .bf16) (x1 : Vec F S2048x2048 .bf16) : Vec F S512x2048 .f32 :=
  View.canon [⟨r0_x, k0_pay1 (View.ld x0 r0_x) (View.ld x1 r0_w)⟩]

/-- The one store covers the block. -/
theorem cover0_2 (p0 : Vec F S512x2048 .f32) (y : S512x2048.Idx) :
    ∃ pc ∈ ([⟨r0_x, p0⟩] : List (View.Piece (Elt F) S512x2048 .f32)), y ∈ pc.1.set :=
  View.cover_of_tiled [⟨r0_x, p0⟩] S512x2048.size (by rfl) y

/-! ## The body's triple -/

set_option maxHeartbeats 1000000 in
/-- On whole staging memrefs, the inputs' at contents `x0`, `x1` and the output's at anything, the body runs to the
    continuation holding the inputs' as they were and the output's at `out0_2 x0 x1`. -/
theorem sound_kernel0 (c : Dev nD) (E : Set ℕ) (i : grid0.Coords) (arg1 : Memref sig .tc .vmem S512x2048 .bf16) (harg1 : arg1.IsWhole) (arg2 : Memref sig .tc .vmem S2048x2048 .bf16) (harg2 : arg2.IsWhole) (arg3 : Memref sig .tc .vmem S512x2048 .f32) (harg3 : arg3.IsWhole)
    (x0 : Vec F S512x2048 .bf16) (x1 : Vec F S2048x2048 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__k1_kernel i arg1 harg1 arg2 harg2 arg3 harg3) K := by
  simp only [cc0__k1_kernel_eq_skeleton]; unfold cc0__k1_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- The arrays as the region finds them; after the body at point `t` each input's buffer at its block and the
    output's at the product of the two; the invariant the scoped buffers and the register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1Runs.lean ====
/-
  The Gram region, `G = y₀ᵀ · x`: a grid of 8 × 8 points, `t = 8·o + b`, the block of 256 output rows `o` outermost
  and the batch block `b` of 512 rows innermost. The body keeps a running sum in a scratch buffer (256 × 2048):
  at `b = 0` it first stores zeros there; at every point it adds the product of the point's two blocks onto it; at
  `b = 7` it copies the sum to the output's block, which the pipeline writes back only there. What this module
  holds is shared by the three cases of the body's two conditionals (`b = 0`; `0 < b < 7`; `b = 7`): the
  conditions in closed form over the grid, where the output's window is idle, the memrefs the body is called
  with, and the region's class invariant with the scratch buffer named.
-/
import proofs.«109148_j43121471652136_1_alg».proof.Proof.Gen.Kernel.Launch
import proofs.«109148_j43121471652136_1_alg».proof.Proof.Gen.Kernel.Skeleton
import proofs.«109148_j43121471652136_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of `y₀` (512 × 256 at block (b, o)) is in its staging buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The block of `x` (512 × 2048 at block (b, 0)) is in its staging buffer at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, in closed form over the grid -/

/-- "This is the first batch block": the body's first conditional, from the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last batch block": the body's second conditional. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Off the last batch block the body stores nothing into the output's buffer, and the pipeline does not write it back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- On the last batch block the output's window is live. -/
theorem liveAt1_2 : ∀ t : Fin cfg1.N, cond1_1 (grid1.coords t) → cfg1.idle 2 (grid1.coords t) = false := by decide +kernel

/-! ## The memrefs the body is called with -/

/-- One staging buffer of the output's window, through which its contents are stated (the choice does not matter). -/
abbrev VO1_2 : View sig .tc .vmem S256x2048 .f32 := (Memref.whole cc1_stg2_0 : Memref sig .tc .vmem S256x2048 .f32).view
abbrev ms1_0 (t : Fin cfg1.N) : Memref sig .tc .vmem S512x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x2048 .f32 := win1_2.stage (cfg1.slots t 2)
abbrev hs1_2 (t : Fin cfg1.N) : (ms1_2 t).IsWhole := hstage1_2 ((cfg1.slots t 2).cast nbuf1_2)
/-- The running sum's buffer: a whole scoped buffer of the kernel's own, passed beside the windows. -/
abbrev scM1_0 : Memref sig .tc .vmem S256x2048 .f32 := Memref.whole cc1_scratch0
abbrev VS1_0 : View sig .tc .vmem S256x2048 .f32 := scM1_0.view

end Cert.Kernel.Hand

end
-- ==== Proof.K.Reg1RunA.lean ====
/-
  The Gram region's body at a FIRST batch block (`b = 0`, not the last): zeros stored over the running sum, then the
  product of the point's two blocks added onto it. The output's buffer is not touched.
-/
import proofs.«109148_j43121471652136_1_alg».proof.Proof.Gen.Kernel.Launch
import proofs.«109148_j43121471652136_1_alg».proof.Proof.Gen.Kernel.Skeleton
import proofs.«109148_j43121471652136_1_alg».proof.Proof.Gen.Kernel.Points
import proofs.«109148_j43121471652136_1_alg».proof.Proof.K.Reg1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the running sum's buffer (last first; none in the output's), WITH the proof
    that on whole memrefs — the inputs' at `x0`, `x1`, the output's at `xi2` handed back untouched, the running sum's at
    anything — the body runs to the continuation holding the inputs' as they were and the running sum's with those pieces written. -/
noncomputable def kernelRun1_A (c : Dev nD) (i : grid1.Coords) (arg2 : Memref sig .tc .vmem S512x256 .f32) (harg2 : arg2.IsWhole) (arg3 : Memref sig .tc .vmem S512x2048 .bf16) (harg3 : arg3.IsWhole) (arg4 : Memref sig .tc .vmem S256x2048 .f32) (harg4 : arg4.IsWhole) (arg5 : Memref sig .tc .vmem S256x2048 .f32) (harg5 : arg5.IsWhole) (hc0 : cond1_0 i) (hc1 : ¬cond1_1 i)
    (x0 : Vec F S512x256 .f32) (x1 : Vec F S512x2048 .bf16) :
    Σ' (L2 : List (View.Piece (Elt F) S256x2048 .f32)), { LS0 : List (View.Piece (Elt F) S256x2048 .f32) //
      ∀ (xi2 : Vec F S256x2048 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__k2_kernel i arg2 harg2 arg3 harg3 arg4 harg4 arg5 harg5) K } := by
  refine ⟨[], ?_, fun xi2 E K => ?run⟩
  case run =>
    simp only [cc1__k2_kernel_eq_skeleton]; unfold cc1__k2_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.Reg1RunB.lean ====
/-
  The Gram region's body at a MIDDLE batch block (`0 < b < 7`): the product of the point's two blocks added onto the
  running sum the point before left. The output's buffer is not touched.
-/
import proofs.«109148_j43121471652136_1_alg».proof.Proof.Gen.Kernel.Launch
import proofs.«109148_j43121471652136_1_alg».proof.Proof.Gen.Kernel.Skeleton
import proofs.«109148_j43121471652136_1_alg».proof.Proof.Gen.Kernel.Points
import proofs.«109148_j43121471652136_1_alg».proof.Proof.K.Reg1RunA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- As the first-block run, the running sum's buffer entered at the contents `xs0` the point before left. -/
noncomputable def kernelRun1_B (c : Dev nD) (i : grid1.Coords) (arg2 : Memref sig .tc .vmem S512x256 .f32) (harg2 : arg2.IsWhole) (arg3 : Memref sig .tc .vmem S512x2048 .bf16) (harg3 : arg3.IsWhole) (arg4 : Memref sig .tc .vmem S256x2048 .f32) (harg4 : arg4.IsWhole) (arg5 : Memref sig .tc .vmem S256x2048 .f32) (harg5 : arg5.IsWhole) (hc0 : ¬cond1_0 i) (hc1 : ¬cond1_1 i)
    (x0 : Vec F S512x256 .f32) (x1 : Vec F S512x2048 .bf16) (xs0 : Vec F S256x2048 .f32) :
    Σ' (L2 : List (View.Piece (Elt F) S256x2048 .f32)), { LS0 : List (View.Piece (Elt F) S256x2048 .f32) //
      ∀ (xi2 : Vec F S256x2048 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__k2_kernel i arg2 harg2 arg3 harg3 arg4 harg4 arg5 harg5) K } := by
  refine ⟨[], ?_, fun xi2 E K => ?run⟩
  case run =>
    simp only [cc1__k2_kernel_eq_skeleton]; unfold cc1__k2_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2
    obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.Reg1RunC.lean ====
/-
  The Gram region's body at a LAST batch block (`b = 7`): the product of the point's two blocks added onto the running
  sum, and the sum then copied over the output's block.
-/
import proofs.«109148_j43121471652136_1_alg».proof.Proof.Gen.Kernel.Launch
import proofs.«109148_j43121471652136_1_alg».proof.Proof.Gen.Kernel.Skeleton
import proofs.«109148_j43121471652136_1_alg».proof.Proof.Gen.Kernel.Points
import proofs.«109148_j43121471652136_1_alg».proof.Proof.K.Reg1RunB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- As the middle-block run, the output's buffer entered at anything and left with the pieces `L2` written. -/
noncomputable def kernelRun1_C (c : Dev nD) (i : grid1.Coords) (arg2 : Memref sig .tc .vmem S512x256 .f32) (harg2 : arg2.IsWhole) (arg3 : Memref sig .tc .vmem S512x2048 .bf16) (harg3 : arg3.IsWhole) (arg4 : Memref sig .tc .vmem S256x2048 .f32) (harg4 : arg4.IsWhole) (arg5 : Memref sig .tc .vmem S256x2048 .f32) (harg5 : arg5.IsWhole) (hc0 : ¬cond1_0 i) (hc1 : cond1_1 i)
    (x0 : Vec F S512x256 .f32) (x1 : Vec F S512x2048 .bf16) (xs0 : Vec F S256x2048 .f32) :
    Σ' (L2 : List (View.Piece (Elt F) S256x2048 .f32)), { LS0 : List (View.Piece (Elt F) S256x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__k2_kernel i arg2 harg2 arg3 harg3 arg4 harg4 arg5 harg5) K } := by
  refine ⟨?_, ?_, fun E K => ?run⟩
  case run =>
    simp only [cc1__k2_kernel_eq_skeleton]; unfold cc1__k2_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1
    obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.K.Reg1Outs.lean ====
/-
  What each case of the Gram region's body leaves in the running sum's buffer and in the output's buffer: the
  pieces its run found, read back. Every case's stores into the running sum cover it; the last-block case's one
  store into the output's buffer covers that; the other cases store nothing there (a placeholder nothing consults:
  the window is idle at those points and not written back).
-/
import proofs.«109148_j43121471652136_1_alg».proof.Proof.Gen.Kernel.Launch
import proofs.«109148_j43121471652136_1_alg».proof.Proof.Gen.Kernel.Skeleton
import proofs.«109148_j43121471652136_1_alg».proof.Proof.Gen.Kernel.Points
import proofs.«109148_j43121471652136_1_alg».proof.Proof.K.Reg1RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- First block: nothing stored into the output's buffer. -/
def out1_A_2 (c : Dev nD) (i : grid1.Coords) (arg2 : Memref sig .tc .vmem S512x256 .f32) (harg2 : arg2.IsWhole) (arg3 : Memref sig .tc .vmem S512x2048 .bf16) (harg3 : arg3.IsWhole) (arg4 : Memref sig .tc .vmem S256x2048 .f32) (harg4 : arg4.IsWhole) (arg5 : Memref sig .tc .vmem S256x2048 .f32) (harg5 : arg5.IsWhole) (hc0 : cond1_0 i) (hc1 : ¬cond1_1 i) (x0 : Vec F S512x256 .f32) (x1 : Vec F S512x2048 .bf16) : Vec F S256x2048 .f32 :=
  VO1_2.read (Elt F) (VO1_2.writes (Elt F) VO1_2.junk (kernelRun1_A c i arg2 harg2 arg3 harg3 arg4 harg4 arg5 harg5 hc0 hc1 x0 x1).1)
/-- First block: the stores into the running sum cover it. -/
theorem scover1_A_0 (c : Dev nD) (i : grid1.Coords) (arg2 : Memref sig .tc .vmem S512x256 .f32) (harg2 : arg2.IsWhole) (arg3 : Memref sig .tc .vmem S512x2048 .bf16) (harg3 : arg3.IsWhole) (arg4 : Memref sig .tc .vmem S256x2048 .f32) (harg4 : arg4.IsWhole) (arg5 : Memref sig .tc .vmem S256x2048 .f32) (harg5 : arg5.IsWhole) (hc0 : cond1_0 i) (hc1 : ¬cond1_1 i) (x0 : Vec F S512x256 .f32) (x1 : Vec F S512x2048 .bf16) (y : S256x2048.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S256x2048.size (by sl_kernel_rfl) y
/-- First block: what is left in the running sum. -/
def sout1_A_0 (c : Dev nD) (i : grid1.Coords) (arg2 : Memref sig .tc .vmem S512x256 .f32) (harg2 : arg2.IsWhole) (arg3 : Memref sig .tc .vmem S512x2048 .bf16) (harg3 : arg3.IsWhole) (arg4 : Memref sig .tc .vmem S256x2048 .f32) (harg4 : arg4.IsWhole) (arg5 : Memref sig .tc .vmem S256x2048 .f32) (harg5 : arg5.IsWhole) (hc0 : cond1_0 i) (hc1 : ¬cond1_1 i) (x0 : Vec F S512x256 .f32) (x1 : Vec F S512x2048 .bf16) : Vec F S256x2048 .f32 :=
  VS1_0.read (Elt F) (VS1_0.writes (Elt F) VS1_0.junk (kernelRun1_A c i arg2 harg2 arg3 harg3 arg4 harg4 arg5 harg5 hc0 hc1 x0 x1).2.1)

/-- Middle block: nothing stored into the output's buffer. -/
def out1_B_2 (c : Dev nD) (i : grid1.Coords) (arg2 : Memref sig .tc .vmem S512x256 .f32) (harg2 : arg2.IsWhole) (arg3 : Memref sig .tc .vmem S512x2048 .bf16) (harg3 : arg3.IsWhole) (arg4 : Memref sig .tc .vmem S256x2048 .f32) (harg4 : arg4.IsWhole) (arg5 : Memref sig .tc .vmem S256x2048 .f32) (harg5 : arg5.IsWhole) (hc0 : ¬cond1_0 i) (hc1 : ¬cond1_1 i) (x0 : Vec F S512x256 .f32) (x1 : Vec F S512x2048 .bf16) (xs0 : Vec F S256x2048 .f32) : Vec F S256x2048 .f32 :=
  VO1_2.read (Elt F) (VO1_2.writes (Elt F) VO1_2.junk (kernelRun1_B c i arg2 harg2 arg3 harg3 arg4 harg4 arg5 harg5 hc0 hc1 x0 x1 xs0).1)
theorem scover1_B_0 (c : Dev nD) (i : grid1.Coords) (arg2 : Memref sig .tc .vmem S512x256 .f32) (harg2 : arg2.IsWhole) (arg3 : Memref sig .tc .vmem S512x2048 .bf16) (harg3 : arg3.IsWhole) (arg4 : Memref sig .tc .vmem S256x2048 .f32) (harg4 : arg4.IsWhole) (arg5 : Memref sig .tc .vmem S256x2048 .f32) (harg5 : arg5.IsWhole) (hc0 : ¬cond1_0 i) (hc1 : ¬cond1_1 i) (x0 : Vec F S512x256 .f32) (x1 : Vec F S512x2048 .bf16) (xs0 : Vec F S256x2048 .f32) (y : S256x2048.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S256x2048.size (by sl_kernel_rfl) y
def sout1_B_0 (c : Dev nD) (i : grid1.Coords) (arg2 : Memref sig .tc .vmem S512x256 .f32) (harg2 : arg2.IsWhole) (arg3 : Memref sig .tc .vmem S512x2048 .bf16) (harg3 : arg3.IsWhole) (arg4 : Memref sig .tc .vmem S256x2048 .f32) (harg4 : arg4.IsWhole) (arg5 : Memref sig .tc .vmem S256x2048 .f32) (harg5 : arg5.IsWhole) (hc0 : ¬cond1_0 i) (hc1 : ¬cond1_1 i) (x0 : Vec F S512x256 .f32) (x1 : Vec F S512x2048 .bf16) (xs0 : Vec F S256x2048 .f32) : Vec F S256x2048 .f32 :=
  VS1_0.read (Elt F) (VS1_0.writes (Elt F) VS1_0.junk (kernelRun1_B c i arg2 harg2 arg3 harg3 arg4 harg4 arg5 harg5 hc0 hc1 x0 x1 xs0).2.1)

/-- Last block: the one store into the output's buffer covers it. -/
theorem cover1_C_2 (c : Dev nD) (i : grid1.Coords) (arg2 : Memref sig .tc .vmem S512x256 .f32) (harg2 : arg2.IsWhole) (arg3 : Memref sig .tc .vmem S512x2048 .bf16) (harg3 : arg3.IsWhole) (arg4 : Memref sig .tc .vmem S256x2048 .f32) (harg4 : arg4.IsWhole) (arg5 : Memref sig .tc .vmem S256x2048 .f32) (harg5 : arg5.IsWhole) (hc0 : ¬cond1_0 i) (hc1 : cond1_1 i) (x0 : Vec F S512x256 .f32) (x1 : Vec F S512x2048 .bf16) (xs0 : Vec F S256x2048 .f32) (y : S256x2048.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S256x2048.size (by sl_kernel_rfl) y
def out1_C_2 (c : Dev nD) (i : grid1.Coords) (arg2 : Memref sig .tc .vmem S512x256 .f32) (harg2 : arg2.IsWhole) (arg3 : Memref sig .tc .vmem S512x2048 .bf16) (harg3 : arg3.IsWhole) (arg4 : Memref sig .tc .vmem S256x2048 .f32) (harg4 : arg4.IsWhole) (arg5 : Memref sig .tc .vmem S256x2048 .f32) (harg5 : arg5.IsWhole) (hc0 : ¬cond1_0 i) (hc1 : cond1_1 i) (x0 : Vec F S512x256 .f32) (x1 : Vec F S512x2048 .bf16) (xs0 : Vec F S256x2048 .f32) : Vec F S256x2048 .f32 :=
  VO1_2.read (Elt F) (VO1_2.writes (Elt F) VO1_2.junk (kernelRun1_C c i arg2 harg2 arg3 harg3 arg4 harg4 arg5 harg5 hc0 hc1 x0 x1 xs0).1)
theorem scover1_C_0 (c : Dev nD) (i : grid1.Coords) (arg2 : Memref sig .tc .vmem S512x256 .f32) (harg2 : arg2.IsWhole) (arg3 : Memref sig .tc .vmem S512x2048 .bf16) (harg3 : arg3.IsWhole) (arg4 : Memref sig .tc .vmem S256x2048 .f32) (harg4 : arg4.IsWhole) (arg5 : Memref sig .tc .vmem S256x2048 .f32) (harg5 : arg5.IsWhole) (hc0 : ¬cond1_0 i) (hc1 : cond1_1 i) (x0 : Vec F S512x256 .f32) (x1 : Vec F S512x2048 .bf16) (xs0 : Vec F S256x2048 .f32) (y : S256x2048.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S256x2048.size (by sl_kernel_rfl) y
def sout1_C_0 (c : Dev nD) (i : grid1.Coords) (arg2 : Memref sig .tc .vmem S512x256 .f32) (harg2 : arg2.IsWhole) (arg3 : Memref sig .tc .vmem S512x2048 .bf16) (harg3 : arg3.IsWhole) (arg4 : Memref sig .tc .vmem S256x2048 .f32) (harg4 : arg4.IsWhole) (arg5 : Memref sig .tc .vmem S256x2048 .f32) (harg5 : arg5.IsWhole) (hc0 : ¬cond1_0 i) (hc1 : cond1_1 i) (x0 : Vec F S512x256 .f32) (x1 : Vec F S512x2048 .bf16) (xs0 : Vec F S256x2048 .f32) : Vec F S256x2048 .f32 :=
  VS1_0.read (Elt F) (VS1_0.writes (Elt F) VS1_0.junk (kernelRun1_C c i arg2 harg2 arg3 harg3 arg4 harg4 arg5 harg5 hc0 hc1 x0 x1 xs0).2.1)

end Cert.Kernel.Hand

end
-- ==== Proof.K.Reg1.lean ====
/-
  The Gram region's proof data and body obligation, at any contents `V` of the core's buffers when the region is
  entered: what the output's buffer and the running sum hold after each of the 64 points, the invariant that carries
  the running sum from a point to the next, and the obligation case by case.
-/
import proofs.«109148_j43121471652136_1_alg».proof.Proof.Gen.Kernel.Launch
import proofs.«109148_j43121471652136_1_alg».proof.Proof.Gen.Kernel.Skeleton
import proofs.«109148_j43121471652136_1_alg».proof.Proof.Gen.Kernel.Points
import proofs.«109148_j43121471652136_1_alg».proof.Proof.K.Reg1Outs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three kinds of point -/

/-- A first batch block (`b = 0`): nothing stored in the output's buffer; the running sum restarted from zeros with the
    point's product added. -/
def resetAt1 (c : Dev nD) (t : Fin cfg1.N) (h0 : t.val % 8 = 0) (h1 : ¬t.val % 8 = 7) : Vec F S256x2048 .f32 × Vec F S256x2048 .f32 :=
  (out1_A_2 c (grid1.coords t) (ms1_0 t) (hs1_0 t) (ms1_1 t) (hs1_1 t) (ms1_2 t) (hs1_2 t) scM1_0 (Memref.isWhole_whole _)
      ((hcond1_0 t).mpr h0) (fun h => h1 ((hcond1_1 t).mp h)) (iblk1 V c 0 t) (iblk1 V c 1 t),
   sout1_A_0 c (grid1.coords t) (ms1_0 t) (hs1_0 t) (ms1_1 t) (hs1_1 t) (ms1_2 t) (hs1_2 t) scM1_0 (Memref.isWhole_whole _)
      ((hcond1_0 t).mpr h0) (fun h => h1 ((hcond1_1 t).mp h)) (iblk1 V c 0 t) (iblk1 V c 1 t))

/-- A middle batch block (`0 < b < 7`): nothing stored in the output's buffer; the point's product added onto the
    running sum `xs` the point before left. -/
def stepAt1 (c : Dev nD) (t : Fin cfg1.N) (h0 : ¬t.val % 8 = 0) (h1 : ¬t.val % 8 = 7) (xs : Vec F S256x2048 .f32) :
    Vec F S256x2048 .f32 × Vec F S256x2048 .f32 :=
  (out1_B_2 c (grid1.coords t) (ms1_0 t) (hs1_0 t) (ms1_1 t) (hs1_1 t) (ms1_2 t) (hs1_2 t) scM1_0 (Memref.isWhole_whole _)
      (fun h => h0 ((hcond1_0 t).mp h)) (fun h => h1 ((hcond1_1 t).mp h)) (iblk1 V c 0 t) (iblk1 V c 1 t) xs,
   sout1_B_0 c (grid1.coords t) (ms1_0 t) (hs1_0 t) (ms1_1 t) (hs1_1 t) (ms1_2 t) (hs1_2 t) scM1_0 (Memref.isWhole_whole _)
      (fun h => h0 ((hcond1_0 t).mp h)) (fun h => h1 ((hcond1_1 t).mp h)) (iblk1 V c 0 t) (iblk1 V c 1 t) xs)

/-- A last batch block (`b = 7`): the product added onto the running sum `xs`, and the sum copied over the output's buffer. -/
def flushAt1 (c : Dev nD) (t : Fin cfg1.N) (h0 : ¬t.val % 8 = 0) (h1 : t.val % 8 = 7) (xs : Vec F S256x2048 .f32) :
    Vec F S256x2048 .f32 × Vec F S256x2048 .f32 :=
  (out1_C_2 c (grid1.coords t) (ms1_0 t) (hs1_0 t) (ms1_1 t) (hs1_1 t) (ms1_2 t) (hs1_2 t) scM1_0 (Memref.isWhole_whole _)
      (fun h => h0 ((hcond1_0 t).mp h)) ((hcond1_1 t).mpr h1) (iblk1 V c 0 t) (iblk1 V c 1 t) xs,
   sout1_C_0 c (grid1.coords t) (ms1_0 t) (hs1_0 t) (ms1_1 t) (hs1_1 t) (ms1_2 t) (hs1_2 t) scM1_0 (Memref.isWhole_whole _)
      (fun h => h0 ((hcond1_0 t).mp h)) ((hcond1_1 t).mpr h1) (iblk1 V c 0 t) (iblk1 V c 1 t) xs)

/-! ## What the buffers hold after each point -/

/-- What the output's staging buffer and the running sum hold after the body at position `n` (the pair, in that order): by
    recursion on the position, the kind of point read off `n % 8`, a later block's sum taken over what position `n - 1`
    left. No position is both a first and a last batch block. -/
def outsAt1 (c : Dev nD) : (n : ℕ) → n < cfg1.N → Vec F S256x2048 .f32 × Vec F S256x2048 .f32
  | 0, hn => resetAt1 V c ⟨0, hn⟩ (Nat.zero_mod _) (fun h => absurd h (by decide : ¬(0 % 8 = 7)))
  | n + 1, hn =>
    if h0 : (n + 1) % 8 = 0 then
      if h1 : (n + 1) % 8 = 7 then
        False.elim (by omega)
      else
        resetAt1 V c ⟨n + 1, hn⟩ h0 h1
    else
      if h1 : (n + 1) % 8 = 7 then
        flushAt1 V c ⟨n + 1, hn⟩ h0 h1 (outsAt1 c n (Nat.lt_of_succ_lt hn)).2
      else
        stepAt1 V c ⟨n + 1, hn⟩ h0 h1 (outsAt1 c n (Nat.lt_of_succ_lt hn)).2

/-- At a first batch block. -/
theorem outsAt1_A (c : Dev nD) (t : Fin cfg1.N) (h0 : t.val % 8 = 0) (h1 : ¬t.val % 8 = 7) :
    outsAt1 V c t.val t.isLt = resetAt1 V c t h0 h1 := by
  obtain ⟨n, hn⟩ := t
  cases n with
  | zero => exact rfl
  | succ n => exact (dif_pos h0).trans ((dif_neg h1).trans rfl)

/-- At a middle batch block, over what the point before left. -/
theorem outsAt1_B (c : Dev nD) (t : Fin cfg1.N) (h0 : ¬t.val % 8 = 0) (h1 : ¬t.val % 8 = 7) :
    outsAt1 V c t.val t.isLt
      = stepAt1 V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

/-- At a last batch block, over what the point before left. -/
theorem outsAt1_C (c : Dev nD) (t : Fin cfg1.N) (h0 : ¬t.val % 8 = 0) (h1 : t.val % 8 = 7) :
    outsAt1 V c t.val t.isLt
      = flushAt1 V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-! ## The invariant -/

/-- The core's scoped buffers that are neither a staging buffer of this region nor the running sum's: the other
    regions' staging buffers, each at some contents, carried unopened. -/
abbrev others1 (c : Dev nD) : sProp 𝕄 :=
  Pipeline.scopedRestBut (Ix := Unit) (Name := ℕ) (U := UR sig nD τ) (Lvl := ℕ) (Val := Elt F) spec1 c [cc1_scratch0]

/-- The class's invariant with the running sum's buffer named: that buffer owned at some contents, the other scoped
    buffers, the generator register at some state. -/
theorem PhiA1_eq (c : Dev nD) :
    (Pipeline.ΦA spec1 c : sProp 𝕄)
      = iprop(iprop((∃ d, owns (c : Thread nD τ) scM1_0 fullShare d) ∗ others1 (F := F) c) ∗ (∃ r, prngReg c r)) := by
  unfold Pipeline.ΦA
  rw [Pipeline.scopedRest_split_of_list spec1 c [cc1_scratch0] (by decide) (by decide)]
  simp only [bigSepL_singleton, scM1_0, owns_whole]; try rfl

/-- The invariant before position `n`: before the first point the class's; afterwards the running sum's buffer at what the
    point before left, the other scoped buffers at some contents, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ others1 (F := F) c) ∗ (∃ r, prngReg c r))

theorem PhiS1_zero (c : Dev nD) (n : ℕ) (h : n ≤ cfg1.N) (hz : n = 0) : PhiS1 V c n h = Pipeline.ΦA spec1 c := by
  subst hz; rfl

/-- After point `n`: the running sum at that point's contents. -/
theorem PhiS1_succ (c : Dev nD) (n : ℕ) (hn : n < cfg1.N) :
    PhiS1 V c (n + 1) hn
      = iprop(iprop(owns (c : Thread nD τ) scM1_0 fullShare ((outsAt1 V c n hn).2) ∗ others1 (F := F) c) ∗ (∃ r, prngReg c r)) := rfl

/-- Before a point that is not the first: the running sum at what the point before left. -/
theorem PhiS1_pos (c : Dev nD) (n : ℕ) (h : n ≤ cfg1.N) (hz : n ≠ 0) :
    PhiS1 V c n h
      = iprop(iprop(owns (c : Thread nD τ) scM1_0 fullShare ((outsAt1 V c (n - 1) (by omega)).2) ∗ others1 (F := F) c) ∗ (∃ r, prngReg c r)) := by
  cases n with
  | zero => exact absurd rfl hz
  | succ n => rfl

/-! ## The region's proof data -/

/-- The arrays as the region finds them; after the body at point `t` each input's buffer at its block and the output's at
    `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold their blocks. `t % 8` says which kind of point this is. At a first
    batch block the running sum's buffer is taken at anything (the class's invariant at the very first point, what the point
    before left at a later one) and the output's buffer handed back as found, its window idle; at a middle block the
    running sum is taken at what the point before left, the output's buffer again handed back; at a last block the
    output's buffer is taken at anything and left covered by the copy. In every case the stores into the running sum
    cover it, so it is left at the case's contents whatever it held; the other scoped buffers, the generator register
    and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 64 := lt_of_lt_of_eq t.isLt (show cfg1.N = 64 from N_1)
  by_cases h0 : t.val % 8 = 0
  · by_cases h1 : t.val % 8 = 7
    · exfalso; omega
    · -- a first batch block
      rw [Dat.leavesExact_idle (dat1 V c) 2 t (idleAt1_2 t (fun h => h1 ((hcond1_1 t).mp h))) (noFlush1_2 t (fun h => h1 ((hcond1_1 t).mp h)))]
      rw [outsAt1_A V c t h0 h1]
      unfold resetAt1 sout1_A_0; (try dsimp only)
      by_cases hz : t.val = 0
      · rw [PhiS1_castSucc V c t, PhiS1_zero V c _ _ hz, PhiA1_eq]
        iintro ⟨⟨⟨HS0, Hr⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_A_0 c _ _ _ _ _ _ _ _ _ _ _ _ _)
            iexact Hr
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HS0, Hr⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_A_0 c _ _ _ _ _ _ _ _ _ _ _ _ _)
            iexact Hr
          iexact Hg
        isplitl [Ho]; · iexact Ho
        isplitl [H0]; · iexact H0
        isplitl [H1]; · iexact H1
        iexists _; iexact H2
  · have hz : t.val ≠ 0 := fun hz => h0 (by rw [hz])
    by_cases h1 : t.val % 8 = 7
    · -- a last batch block
      rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold flushAt1 out1_C_2 sout1_C_0; (try dsimp only)
      rw [PhiS1_castSucc V c t, PhiS1_pos V c _ _ hz]
      iintro ⟨⟨⟨HS0, Hr⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_C_0 c _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · -- a middle batch block
      rw [Dat.leavesExact_idle (dat1 V c) 2 t (idleAt1_2 t (fun h => h1 ((hcond1_1 t).mp h))) (noFlush1_2 t (fun h => h1 ((hcond1_1 t).mp h)))]
      rw [outsAt1_B V c t h0 h1]
      unfold stepAt1 sout1_B_0; (try dsimp only)
      rw [PhiS1_castSucc V c t, PhiS1_pos V c _ _ hz]
      iintro ⟨⟨⟨HS0, Hr⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_B_0 c _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the running sum's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

/-- After the last point the invariant gives the class's back: the running sum's named contents are forgotten. -/
theorem hout1 (c : Dev nD) : (dat1 V c).Φ (Fin.last cfg1.N) ⊢ Pipeline.ΦA spec1 c :=
  Phi_out1 V c _ (by rw [Fin.val_last]; have : cfg1.N = 64 := N_1; omega)

end Cert.Kernel.Hand

end
-- ==== Proof.K.Reg2.lean ====
/-
  The second matrix product's region, `out = x · w'ᵀ + bias` over eight blocks of 512 rows, at any contents `V` of
  the core's buffers when the region is entered. At every grid point the body loads the point's block of `x`
  (512 × 2048), the whole of the updated weight (2048 × 2048) and the bias row (1 × 2048) — the last two fetched
  once and left in place —, and stores the product plus the bias row, broadcast down the rows, over the output's
  block: one store covering the block. Nothing is carried from point to point.
-/
import proofs.«109148_j43121471652136_1_alg».proof.Proof.Gen.Kernel.Launch
import proofs.«109148_j43121471652136_1_alg».proof.Proof.Gen.Kernel.Skeleton
import proofs.«109148_j43121471652136_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The block of `x` is in its staging buffer at every point: fetched there. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The whole updated weight is in its staging buffer at every point: fetched at the first, its block index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- So is the bias row. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_x : Rect S512x2048 := Rect.unit (s := S512x2048) ![0, 0] S512x2048.size inb_S512x2048_S512x2048_0_0
abbrev r2_w : Rect S2048x2048 := Rect.unit (s := S2048x2048) ![0, 0] S2048x2048.size inb_S2048x2048_S2048x2048_0_0
abbrev r2_b : Rect S1x2048 := Rect.unit (s := S1x2048) ![0, 0] S1x2048.size inb_S1x2048_S1x2048_0_0

/-- What the body leaves in the output's staging buffer: the product of the two loaded blocks plus the bias row,
    stored over the whole block. -/
def out2_3 (x0 : Vec F S512x2048 .bf16) (x1 : Vec F S2048x2048 .bf16) (x2 : Vec F S1x2048 .f32) : Vec F S512x2048 .f32 :=
  View.canon [⟨r2_x, k2_pay1 (View.ld x0 r2_x) (View.ld x1 r2_w) (View.ld x2 r2_b)⟩]

/-- The one store covers the block. -/
theorem cover2_3 (p0 : Vec F S512x2048 .f32) (y : S512x2048.Idx) :
    ∃ pc ∈ ([⟨r2_x, p0⟩] : List (View.Piece (Elt F) S512x2048 .f32)), y ∈ pc.1.set :=
  View.cover_of_tiled [⟨r2_x, p0⟩] S512x2048.size (by rfl) y

/-! ## The body's triple -/

set_option maxHeartbeats 1000000 in
/-- On whole staging memrefs, the inputs' at contents `x0`, `x1`, `x2` and the output's at anything, the body runs to
    the continuation holding the inputs' as they were and the output's at `out2_3 x0 x1 x2`. -/
theorem sound_kernel2 (c : Dev nD) (E : Set ℕ) (i : grid2.Coords) (arg1 : Memref sig .tc .vmem S512x2048 .bf16) (harg1 : arg1.IsWhole) (arg2 : Memref sig .tc .vmem S2048x2048 .bf16) (harg2 : arg2.IsWhole) (arg3 : Memref sig .tc .vmem S1x2048 .f32) (harg3 : arg3.IsWhole) (arg4 : Memref sig .tc .vmem S512x2048 .f32) (harg4 : arg4.IsWhole)
    (x0 : Vec F S512x2048 .bf16) (x1 : Vec F S2048x2048 .bf16) (x2 : Vec F S1x2048 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__k3_kernel i arg1 harg1 arg2 harg2 arg3 harg3 arg4 harg4) K := by
  simp only [cc2__k3_kernel_eq_skeleton]; unfold cc2__k3_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The region's proof data -/

/-- The arrays as the region finds them; after the body at point `t` each input's buffer at its block and the
    output's at the product plus the bias; the invariant the scoped buffers and the register, untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the triple applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Chain.lean ====
/-
  The contents of the core's buffers at each boundary between @main's six items — two casts, the first product's
  region, the two column means, the Gram region, the weight update, the second product's region —, as a fold from
  the launch memory: a host stretch applies its operations; a region leaves its arrays at what its write-backs
  fold to and every other buffer as entered.
-/
import proofs.«109148_j43121471652136_1_alg».proof.Proof.Gen.Kernel.Launch
import proofs.«109148_j43121471652136_1_alg».proof.Proof.Gen.Kernel.Skeleton
import proofs.«109148_j43121471652136_1_alg».proof.Proof.Gen.Kernel.Points
import proofs.«109148_j43121471652136_1_alg».proof.Proof.K.Reg0
import proofs.«109148_j43121471652136_1_alg».proof.Proof.K.Reg1
import proofs.«109148_j43121471652136_1_alg».proof.Proof.K.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At launch. -/
abbrev W0 : Dev nD → Valuation τ sig (Elt F) := fun c b => (s₀ m ρ).mem ((c : Dev nD), b)
/-- After the two casts (the first product's region is entered here). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first product's region. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the two column means (the Gram region is entered here). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the Gram region. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the weight update (the second product's region is entered here). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- After the second product's region: @main returns here. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- The layer's result is what the second product's region folds its output to. -/
theorem W6_result (c : Dev nD) : W6 m ρ c (Proc.devRef .tc main_v29) = (dat2 (V5 m ρ) c).arrAt 3 cfg2.N :=
  W6_arr m ρ c 3

end Cert.Kernel.Hand

end
-- ==== Proof.K.Run.lean ====
/-
  The run of the layer's @main on a core: two casts, the first product's region, the two column means, the Gram
  region, the weight update, the second product's region — six items, each entered from every unscoped buffer
  at the contents the item before left. A host stretch carries those buffers through its operations; a region
  takes its windows' arrays out of them, runs its pipeline over them, and puts them back at what its write-backs
  fold to, every other buffer untouched. Beside the buffers ride the core's generator register, at some state,
  and the core owing nothing. At the return every unscoped buffer is read off the last boundary's contents:
  the result at what the second product's region folds its output to, each argument at what the launch held.
-/
import proofs.«109148_j43121471652136_1_alg».proof.Proof.K.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the host stretches allocate and write -/

/-- The two casts allocate no buffer. -/
theorem casts_allocate_nothing : (hostOps0 : List (HloOp τ sig (Elt F))).Forall fun op => op.fresh = ∅ := by
  simp only [List.Forall]; repeat' constructor
/-- The two column means allocate no buffer. -/
theorem means_allocate_nothing : (hostOps1 : List (HloOp τ sig (Elt F))).Forall fun op => op.fresh = ∅ := by
  simp only [List.Forall]; repeat' constructor
/-- The weight update allocates no buffer. -/
theorem update_allocates_nothing : (hostOps2 : List (HloOp τ sig (Elt F))).Forall fun op => op.fresh = ∅ := by
  simp only [List.Forall]; repeat' constructor

/-- The buffers the two casts write: the two bf16 copies. -/
abbrev castsWritten : List (Ref sig .tc) := [main_v0, main_v1]
/-- The buffers the two column means write: the sums, the counts and the quotients, with their constants. -/
abbrev meansWritten : List (Ref sig .tc) :=
  [main_cst, main_v3, main_cst_0, main_v4, main_v5, main_cst_1, main_v6, main_cst_2, main_v7, main_v8]
/-- The buffers the weight update writes: every intermediate of the update, the new weight's bf16 copy and the
    bias as a row. -/
abbrev updateWritten : List (Ref sig .tc) :=
  [main_v10, main_v11, main_v12, main_v13, main_v14, main_v15, main_v16, main_cst_3, main_v17, main_v18, main_v19,
   main_v20, main_v21, main_cst_4, main_v22, main_v23, main_cst_5, main_v24, main_v25, main_v26, main_v27, main_v28]

theorem casts_write : (hostOps0 : List (HloOp τ sig (Elt F))).Forall fun op =>
    op.writes ⊆ (castsWritten.map (Proc.devRef (τ := τ) .tc)).toFinset := by
  simp only [List.Forall, StableHlo.nullary_writes, StableHlo.unary_writes, StableHlo.binary_writes,
    StableHlo.reshape_writes, Finset.singleton_subset_iff, List.mem_toFinset]
  repeat' apply And.intro
  all_goals exact List.mem_map_of_mem (by decide)
theorem means_write : (hostOps1 : List (HloOp τ sig (Elt F))).Forall fun op =>
    op.writes ⊆ (meansWritten.map (Proc.devRef (τ := τ) .tc)).toFinset := by
  simp only [List.Forall, StableHlo.nullary_writes, StableHlo.unary_writes, StableHlo.binary_writes,
    StableHlo.reshape_writes, Finset.singleton_subset_iff, List.mem_toFinset]
  repeat' apply And.intro
  all_goals exact List.mem_map_of_mem (by decide)
theorem update_writes : (hostOps2 : List (HloOp τ sig (Elt F))).Forall fun op =>
    op.writes ⊆ (updateWritten.map (Proc.devRef (τ := τ) .tc)).toFinset := by
  simp only [List.Forall, StableHlo.nullary_writes, StableHlo.unary_writes, StableHlo.binary_writes,
    StableHlo.reshape_writes, Finset.singleton_subset_iff, List.mem_toFinset]
  repeat' apply And.intro
  all_goals exact List.mem_map_of_mem (by decide)

/-! ## A buffer no item touches ends as launched

A buffer that is no window's array of any of the three regions and that none of the three host stretches
writes holds at the return what the launch held: the fold of the boundaries walks back through it unchanged. -/

theorem W6_of_untouched (c : Dev nD) (r : Ref sig .tc)
    (h2 : ∀ w, Pipeline.arrRef spec2 w ≠ r) (hu : r ∉ updateWritten)
    (h1 : ∀ w, Pipeline.arrRef spec1 w ≠ r) (hm : r ∉ meansWritten)
    (h0 : ∀ w, Pipeline.arrRef spec0 w ≠ r) (hc : r ∉ castsWritten) :
    W6 m ρ c (Proc.devRef .tc r) = m ((c : Thread nD τ).loc r) :=
  calc W6 m ρ c (Proc.devRef .tc r)
    _ = W5 m ρ c (Proc.devRef .tc r) := W6_of_ne m ρ c r h2
    _ = W4 m ρ c (Proc.devRef .tc r) := StableHlo.after_of_writes_sub hostOps2 _ update_writes hu
    _ = W3 m ρ c (Proc.devRef .tc r) := W4_of_ne m ρ c r h1
    _ = W2 m ρ c (Proc.devRef .tc r) := StableHlo.after_of_writes_sub hostOps1 _ means_write hm
    _ = W1 m ρ c (Proc.devRef .tc r) := W2_of_ne m ρ c r h0
    _ = W0 m ρ c (Proc.devRef .tc r) := StableHlo.after_of_writes_sub hostOps0 _ casts_write hc
    _ = m ((c : Thread nD τ).loc r) := rfl

/-- The activations: read by the first cast and the first column mean, written by nothing. -/
theorem W6_main_arg0 (c : Dev nD) : W6 m ρ c (Proc.devRef .tc main_arg0) = m ((c : Thread nD τ).loc main_arg0) :=
  W6_of_untouched m ρ c main_arg0 (by decide) (by decide) (by decide) (by decide) (by decide) (by decide)
/-- The coefficient of the activations' column mean in the update: read by one product, written by nothing. -/
theorem W6_main_arg1 (c : Dev nD) : W6 m ρ c (Proc.devRef .tc main_arg1) = m ((c : Thread nD τ).loc main_arg1) :=
  W6_of_untouched m ρ c main_arg1 (by decide) (by decide) (by decide) (by decide) (by decide) (by decide)
/-- The coefficient of the first product's column mean in the update: read by one product, written by nothing. -/
theorem W6_main_arg2 (c : Dev nD) : W6 m ρ c (Proc.devRef .tc main_arg2) = m ((c : Thread nD τ).loc main_arg2) :=
  W6_of_untouched m ρ c main_arg2 (by decide) (by decide) (by decide) (by decide) (by decide) (by decide)
/-- The coefficient of the Gram term in the update: read by one quotient, written by nothing. -/
theorem W6_main_arg3 (c : Dev nD) : W6 m ρ c (Proc.devRef .tc main_arg3) = m ((c : Thread nD τ).loc main_arg3) :=
  W6_of_untouched m ρ c main_arg3 (by decide) (by decide) (by decide) (by decide) (by decide) (by decide)
/-- The update's constant term: read by one sum, written by nothing. -/
theorem W6_main_arg4 (c : Dev nD) : W6 m ρ c (Proc.devRef .tc main_arg4) = m ((c : Thread nD τ).loc main_arg4) :=
  W6_of_untouched m ρ c main_arg4 (by decide) (by decide) (by decide) (by decide) (by decide) (by decide)
/-- The weight: read by the second cast and the weight update, written by nothing. -/
theorem W6_main_arg5 (c : Dev nD) : W6 m ρ c (Proc.devRef .tc main_arg5) = m ((c : Thread nD τ).loc main_arg5) :=
  W6_of_untouched m ρ c main_arg5 (by decide) (by decide) (by decide) (by decide) (by decide) (by decide)
/-- The bias: read by the reshape to a row, written by nothing. -/
theorem W6_main_arg6 (c : Dev nD) : W6 m ρ c (Proc.devRef .tc main_arg6) = m ((c : Thread nD τ).loc main_arg6) :=
  W6_of_untouched m ρ c main_arg6 (by decide) (by decide) (by decide) (by decide) (by decide) (by decide)

/-! ## The regions' proof data and what rides beside the buffers -/

/-- No region has a prefetched table. -/
abbrev noTables : (p : Fin 3) → (pcfgs (F := F) p).Adm := fun p => (cfgs p).toPCfg_adm
/-- Each region's proof data at the contents it is entered from: the first product after the casts, the Gram
    region after the column means, the second product after the weight update. -/
def regionData : (p : Fin 3) → (c : Dev nD) → Dat τ (Elt F) Unit ℕ (UR sig nD τ) ℕ (Pipeline.pin (pcfgs (F := F)) noTables p) c
  | ⟨0, _⟩ => fun c => dat0 (V1 m ρ) c
  | ⟨1, _⟩ => fun c => dat1 (V3 m ρ) c
  | ⟨2, _⟩ => fun c => dat2 (V5 m ρ) c
abbrev plain : Variants := Variants.none
/-- No core owes another anything: no level is assigned. -/
abbrev noPairs : GSem nD τ sig → Finset Unit := fun _ => ∅
abbrev levelZero : GSem nD τ sig → Unit → ℕ := fun _ _ => 0
/-- Beside the buffers through every item: the generator register at some state, and nothing owed. -/
abbrev beside (c : Dev nD) : sProp 𝕄 := iprop((∃ r, prngReg c r) ∗ ∃ W, owes (c : Thread nD τ) (0 : CellTallies nD τ sig Unit) W)
/-- A host stretch over every unscoped buffer from the contents W: it leaves them at what its operations make
    of W, one after the other. -/
abbrev hostStretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ plain noPairs levelZero :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside

/-- An unscoped buffer of the core is among those carried from item to item. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- At the return, without what is owed: every unscoped buffer at the last boundary's contents, the generator
    register at some state. -/
abbrev atReturn (c : Dev nD) : sProp 𝕄 := iprop(StableHlo.held (c : Thread nD τ) (Pipeline.ucRefs τ sig) (W6 m ρ c) ∗ ∃ r, prngReg c r)

/-! ## The three regions as items -/

set_option backward.isDefEq.respectTransparency.types false in
/-- The first product's region: entered after the casts, left with its output array at what the eight blocks'
    write-backs fold to. Its arrays come out of the unscoped buffers and go back at the exit contents; the generator
    register goes into the region's invariant and comes out; nothing is owed. -/
def firstProduct : Pipeline.RegionSeg (pcfgs (F := F)) noTables (regionData m ρ) () defs₀ plain noPairs levelZero 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ noPairs levelZero 0 fun _ _ => rfl
  pre c := iprop(StableHlo.held (c : Thread nD τ) (Pipeline.ucRefs τ sig) (W1 m ρ c) ∗ beside c)
  post c := iprop(StableHlo.held (c : Thread nD τ) (Pipeline.ucRefs τ sig) (W2 m ρ c) ∗ beside c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) noTables (regionData m ρ) launch0.win launch0.arr_whole c
      ((regionData m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionData m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (regionData m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (regionData m ρ) ((regionData m ρ 0 c).share_full fun _ => rfl)
      (V1 m ρ c) (V2 m ρ c) ((regionData m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The Gram region: entered after the column means, left with its output array at what the write-backs of its
    sixty-four points fold to. Its invariant tracks the running sum from point to point; before the first point it is
    the scoped buffers at some contents beside the generator register, which is what the entry hands it, and after the
    last point it gives that back, the running sum's contents forgotten. -/
def gram : Pipeline.RegionSeg (pcfgs (F := F)) noTables (regionData m ρ) () defs₀ plain noPairs levelZero 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ noPairs levelZero 1 fun _ _ => rfl
  pre c := iprop(StableHlo.held (c : Thread nD τ) (Pipeline.ucRefs τ sig) (W3 m ρ c) ∗ beside c)
  post c := iprop(StableHlo.held (c : Thread nD τ) (Pipeline.ucRefs τ sig) (W4 m ρ c) ∗ beside c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) noTables (regionData m ρ) launch1.win launch1.arr_whole c
      ((regionData m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionData m ρ 1 c).Φ 0 = (dat1 (V3 m ρ) c).Φ 0 from rfl]
    refine BIBase.Entails.trans ?_ (hin1 (V3 m ρ) c)
    unfold Pipeline.ΦA
    iintro ⟨Hp, -, Hr⟩
    isplitl [Hr]; · iexact Hr
    iexact Hp
  hout c := by
    rw [Pipeline.ownSems0_none, show (regionData m ρ 1 c).Φ (Fin.last _) = (dat1 (V3 m ρ) c).Φ (Fin.last cfg1.N) from rfl]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (regionData m ρ) ((regionData m ρ 1 c).share_full fun _ => rfl)
      (V3 m ρ c) (V4 m ρ c) ((regionData m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second product's region: entered after the weight update, left with the layer's result at what the eight
    blocks' write-backs fold to; @main returns from here, so what it leaves is the state at the return beside
    nothing owed. -/
def secondProduct : Pipeline.RegionSeg (pcfgs (F := F)) noTables (regionData m ρ) () defs₀ plain noPairs levelZero 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ noPairs levelZero 2 fun _ _ => rfl
  pre c := iprop(StableHlo.held (c : Thread nD τ) (Pipeline.ucRefs τ sig) (W5 m ρ c) ∗ beside c)
  post c := iprop(atReturn m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) noTables (regionData m ρ) launch2.win launch2.arr_whole c
      ((regionData m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionData m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (regionData m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) noTables (Ix := Unit) (Name := ℕ) (U := UR sig nD τ) (Lvl := ℕ)
      launch2.win launch2.arr_whole c (regionData m ρ) ((regionData m ρ 2 c).share_full fun _ => rfl)
      (V5 m ρ c) (V6 m ρ c) ((regionData m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its six items, and the launch -/

/-- @main's items in order: each host stretch from its boundary's contents, each region over its pipeline. -/
abbrev items : List (Pipeline.Seg (pcfgs (F := F)) noTables (regionData m ρ) () defs₀ plain noPairs levelZero) :=
  [ .host (hostStretch hostOps0 hostOps0_sub casts_allocate_nothing (W0 m ρ)),
    .region (firstProduct m ρ),
    .host (hostStretch hostOps1 hostOps1_sub means_allocate_nothing (W2 m ρ)),
    .region (gram m ρ),
    .host (hostStretch hostOps2 hostOps2_sub update_allocates_nothing (W4 m ρ)),
    .region (secondProduct m ρ) ]
/-- @main is the run of its items. -/
theorem main_is_items (c : Dev nD) : main (F := F) c = Pipeline.Seg.run (items m ρ) := (main_chain c).trans (by chain_rfl)

set_option backward.isDefEq.respectTransparency.types false in
/-- From any memory with zero counters every weakly fair execution of @main on the core terminates, nothing
    faulting, and in every final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) noTables (regionData m ρ) () cellOf_inj emb₁ defs₀ plain noPairs levelZero m ρ main (items m ρ)
    (fun c Q => by rw [main_is_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ beside c)) (Tₙ := atReturn m ρ)
    (hch := ⟨fun _ => .rfl, fun _ => .rfl, fun _ => .rfl, fun _ => .rfl, fun _ => .rfl, fun _ => .rfl, fun _ => .rfl⟩)
    (hinit := by
      refine Pipeline.initEach noPairs levelZero fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The same run with the buffers the layer is about named: the result at what the second product's region folds
    its output to, each argument at what the launch held. -/
theorem run_named : θ_run defs (onTc (τ := τ) (main (F := F))) ⟨m, fun _ => 0, ρ⟩ (fun r => ∀ c : Dev nD,
      r.2.mem ((c.tc : Thread nD τ).loc main_v29) = (dat2 (V5 m ρ) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v29 (by decide))).trans (W6_result m ρ c),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c)⟩) (run_all m ρ)

/-- The frame: @main terminates from any memory with zero counters, nothing faulting, and every argument array
    ends holding what the launch held. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => (h c).2) (run_named m ρ)

end Cert.Kernel.Hand

end
-- ==== Proof.KI.Reg0.lean ====
/-
  The first matrix product's region, `y₀ = x · wᵀ` over eight blocks of 512 rows, at any contents `V` of the
  core's buffers when the region is entered. At every grid point the body loads the point's block of `x`
  (512 × 2048) and the whole of `w` (2048 × 2048, fetched once and left in place), and stores their product
  over the output's block: one store covering the block, so what the body leaves there is that product, whatever
  the block held before. Nothing is carried from point to point; the region's invariant is the scoped buffers at
  some contents beside the generator register.
-/
import proofs.«109148_j43121471652136_1_alg».proof.Proof.Gen.KernelIdeal.Launch
import proofs.«109148_j43121471652136_1_alg».proof.Proof.Gen.KernelIdeal.Skeleton
import proofs.«109148_j43121471652136_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of `x` is in its staging buffer at every point: fetched there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole of `w` is in its staging buffer at every point: fetched at the first, and its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_x : Rect S512x2048 := Rect.unit (s := S512x2048) ![0, 0] S512x2048.size inb_S512x2048_S512x2048_0_0
abbrev r0_w : Rect S2048x2048 := Rect.unit (s := S2048x2048) ![0, 0] S2048x2048.size inb_S2048x2048_S2048x2048_0_0

/-- What the body leaves in the output's staging buffer: the product of the two loaded blocks, stored over the whole block. -/
def out0_2 (x0 : Vec F S512x2048 .bf16) (x1 : Vec F S2048x2048 .bf16) : Vec F S512x2048 .f32 :=
  View.canon [⟨r0_x, k0_pay1 (View.ld x0 r0_x) (View.ld x1 r0_w)⟩]

/-- The one store covers the block. -/
theorem cover0_2 (p0 : Vec F S512x2048 .f32) (y : S512x2048.Idx) :
    ∃ pc ∈ ([⟨r0_x, p0⟩] : List (View.Piece (Elt F) S512x2048 .f32)), y ∈ pc.1.set :=
  View.cover_of_tiled [⟨r0_x, p0⟩] S512x2048.size (by rfl) y

/-! ## The body's triple -/

set_option maxHeartbeats 1000000 in
/-- On whole staging memrefs, the inputs' at contents `x0`, `x1` and the output's at anything, the body runs to the
    continuation holding the inputs' as they were and the output's at `out0_2 x0 x1`. -/
theorem sound_kernel0 (c : Dev nD) (E : Set ℕ) (i : grid0.Coords) (arg1 : Memref sig .tc .vmem S512x2048 .bf16) (harg1 : arg1.IsWhole) (arg2 : Memref sig .tc .vmem S2048x2048 .bf16) (harg2 : arg2.IsWhole) (arg3 : Memref sig .tc .vmem S512x2048 .f32) (harg3 : arg3.IsWhole)
    (x0 : Vec F S512x2048 .bf16) (x1 : Vec F S2048x2048 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__k1_kernel i arg1 harg1 arg2 harg2 arg3 harg3) K := by
  simp only [cc0__k1_kernel_eq_skeleton]; unfold cc0__k1_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- The arrays as the region finds them; after the body at point `t` each input's buffer at its block and the
    output's at the product of the two; the invariant the scoped buffers and the register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1Runs.lean ====
/-
  The Gram region, `G = y₀ᵀ · x`: a grid of 8 × 8 points, `t = 8·o + b`, the block of 256 output rows `o` outermost
  and the batch block `b` of 512 rows innermost. The body keeps a running sum in a scratch buffer (256 × 2048):
  at `b = 0` it first stores zeros there; at every point it adds the product of the point's two blocks onto it; at
  `b = 7` it copies the sum to the output's block, which the pipeline writes back only there. What this module
  holds is shared by the three cases of the body's two conditionals (`b = 0`; `0 < b < 7`; `b = 7`): the
  conditions in closed form over the grid, where the output's window is idle, the memrefs the body is called
  with, and the region's class invariant with the scratch buffer named.
-/
import proofs.«109148_j43121471652136_1_alg».proof.Proof.Gen.KernelIdeal.Launch
import proofs.«109148_j43121471652136_1_alg».proof.Proof.Gen.KernelIdeal.Skeleton
import proofs.«109148_j43121471652136_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of `y₀` (512 × 256 at block (b, o)) is in its staging buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The block of `x` (512 × 2048 at block (b, 0)) is in its staging buffer at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, in closed form over the grid -/

/-- "This is the first batch block": the body's first conditional, from the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last batch block": the body's second conditional. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Off the last batch block the body stores nothing into the output's buffer, and the pipeline does not write it back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- On the last batch block the output's window is live. -/
theorem liveAt1_2 : ∀ t : Fin cfg1.N, cond1_1 (grid1.coords t) → cfg1.idle 2 (grid1.coords t) = false := by decide +kernel

/-! ## The memrefs the body is called with -/

/-- One staging buffer of the output's window, through which its contents are stated (the choice does not matter). -/
abbrev VO1_2 : View sig .tc .vmem S256x2048 .f32 := (Memref.whole cc1_stg2_0 : Memref sig .tc .vmem S256x2048 .f32).view
abbrev ms1_0 (t : Fin cfg1.N) : Memref sig .tc .vmem S512x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x2048 .f32 := win1_2.stage (cfg1.slots t 2)
abbrev hs1_2 (t : Fin cfg1.N) : (ms1_2 t).IsWhole := hstage1_2 ((cfg1.slots t 2).cast nbuf1_2)
/-- The running sum's buffer: a whole scoped buffer of the kernel's own, passed beside the windows. -/
abbrev scM1_0 : Memref sig .tc .vmem S256x2048 .f32 := Memref.whole cc1_scratch0
abbrev VS1_0 : View sig .tc .vmem S256x2048 .f32 := scM1_0.view

end Cert.KernelIdeal.Hand

end
-- ==== Proof.KI.Reg1RunA.lean ====
/-
  The Gram region's body at a FIRST batch block (`b = 0`, not the last): zeros stored over the running sum, then the
  product of the point's two blocks added onto it. The output's buffer is not touched.
-/
import proofs.«109148_j43121471652136_1_alg».proof.Proof.Gen.KernelIdeal.Launch
import proofs.«109148_j43121471652136_1_alg».proof.Proof.Gen.KernelIdeal.Skeleton
import proofs.«109148_j43121471652136_1_alg».proof.Proof.Gen.KernelIdeal.Points
import proofs.«109148_j43121471652136_1_alg».proof.Proof.KI.Reg1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the running sum's buffer (last first; none in the output's), WITH the proof
    that on whole memrefs — the inputs' at `x0`, `x1`, the output's at `xi2` handed back untouched, the running sum's at
    anything — the body runs to the continuation holding the inputs' as they were and the running sum's with those pieces written. -/
noncomputable def kernelRun1_A (c : Dev nD) (i : grid1.Coords) (arg2 : Memref sig .tc .vmem S512x256 .f32) (harg2 : arg2.IsWhole) (arg3 : Memref sig .tc .vmem S512x2048 .bf16) (harg3 : arg3.IsWhole) (arg4 : Memref sig .tc .vmem S256x2048 .f32) (harg4 : arg4.IsWhole) (arg5 : Memref sig .tc .vmem S256x2048 .f32) (harg5 : arg5.IsWhole) (hc0 : cond1_0 i) (hc1 : ¬cond1_1 i)
    (x0 : Vec F S512x256 .f32) (x1 : Vec F S512x2048 .bf16) :
    Σ' (L2 : List (View.Piece (Elt F) S256x2048 .f32)), { LS0 : List (View.Piece (Elt F) S256x2048 .f32) //
      ∀ (xi2 : Vec F S256x2048 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__k2_kernel i arg2 harg2 arg3 harg3 arg4 harg4 arg5 harg5) K } := by
  refine ⟨[], ?_, fun xi2 E K => ?run⟩
  case run =>
    simp only [cc1__k2_kernel_eq_skeleton]; unfold cc1__k2_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.Reg1RunB.lean ====
/-
  The Gram region's body at a MIDDLE batch block (`0 < b < 7`): the product of the point's two blocks added onto the
  running sum the point before left. The output's buffer is not touched.
-/
import proofs.«109148_j43121471652136_1_alg».proof.Proof.Gen.KernelIdeal.Launch
import proofs.«109148_j43121471652136_1_alg».proof.Proof.Gen.KernelIdeal.Skeleton
import proofs.«109148_j43121471652136_1_alg».proof.Proof.Gen.KernelIdeal.Points
import proofs.«109148_j43121471652136_1_alg».proof.Proof.KI.Reg1RunA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- As the first-block run, the running sum's buffer entered at the contents `xs0` the point before left. -/
noncomputable def kernelRun1_B (c : Dev nD) (i : grid1.Coords) (arg2 : Memref sig .tc .vmem S512x256 .f32) (harg2 : arg2.IsWhole) (arg3 : Memref sig .tc .vmem S512x2048 .bf16) (harg3 : arg3.IsWhole) (arg4 : Memref sig .tc .vmem S256x2048 .f32) (harg4 : arg4.IsWhole) (arg5 : Memref sig .tc .vmem S256x2048 .f32) (harg5 : arg5.IsWhole) (hc0 : ¬cond1_0 i) (hc1 : ¬cond1_1 i)
    (x0 : Vec F S512x256 .f32) (x1 : Vec F S512x2048 .bf16) (xs0 : Vec F S256x2048 .f32) :
    Σ' (L2 : List (View.Piece (Elt F) S256x2048 .f32)), { LS0 : List (View.Piece (Elt F) S256x2048 .f32) //
      ∀ (xi2 : Vec F S256x2048 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__k2_kernel i arg2 harg2 arg3 harg3 arg4 harg4 arg5 harg5) K } := by
  refine ⟨[], ?_, fun xi2 E K => ?run⟩
  case run =>
    simp only [cc1__k2_kernel_eq_skeleton]; unfold cc1__k2_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2
    obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.Reg1RunC.lean ====
/-
  The Gram region's body at a LAST batch block (`b = 7`): the product of the point's two blocks added onto the running
  sum, and the sum then copied over the output's block.
-/
import proofs.«109148_j43121471652136_1_alg».proof.Proof.Gen.KernelIdeal.Launch
import proofs.«109148_j43121471652136_1_alg».proof.Proof.Gen.KernelIdeal.Skeleton
import proofs.«109148_j43121471652136_1_alg».proof.Proof.Gen.KernelIdeal.Points
import proofs.«109148_j43121471652136_1_alg».proof.Proof.KI.Reg1RunB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- As the middle-block run, the output's buffer entered at anything and left with the pieces `L2` written. -/
noncomputable def kernelRun1_C (c : Dev nD) (i : grid1.Coords) (arg2 : Memref sig .tc .vmem S512x256 .f32) (harg2 : arg2.IsWhole) (arg3 : Memref sig .tc .vmem S512x2048 .bf16) (harg3 : arg3.IsWhole) (arg4 : Memref sig .tc .vmem S256x2048 .f32) (harg4 : arg4.IsWhole) (arg5 : Memref sig .tc .vmem S256x2048 .f32) (harg5 : arg5.IsWhole) (hc0 : ¬cond1_0 i) (hc1 : cond1_1 i)
    (x0 : Vec F S512x256 .f32) (x1 : Vec F S512x2048 .bf16) (xs0 : Vec F S256x2048 .f32) :
    Σ' (L2 : List (View.Piece (Elt F) S256x2048 .f32)), { LS0 : List (View.Piece (Elt F) S256x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__k2_kernel i arg2 harg2 arg3 harg3 arg4 harg4 arg5 harg5) K } := by
  refine ⟨?_, ?_, fun E K => ?run⟩
  case run =>
    simp only [cc1__k2_kernel_eq_skeleton]; unfold cc1__k2_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1
    obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI.Reg1Outs.lean ====
/-
  What each case of the Gram region's body leaves in the running sum's buffer and in the output's buffer: the
  pieces its run found, read back. Every case's stores into the running sum cover it; the last-block case's one
  store into the output's buffer covers that; the other cases store nothing there (a placeholder nothing consults:
  the window is idle at those points and not written back).
-/
import proofs.«109148_j43121471652136_1_alg».proof.Proof.Gen.KernelIdeal.Launch
import proofs.«109148_j43121471652136_1_alg».proof.Proof.Gen.KernelIdeal.Skeleton
import proofs.«109148_j43121471652136_1_alg».proof.Proof.Gen.KernelIdeal.Points
import proofs.«109148_j43121471652136_1_alg».proof.Proof.KI.Reg1RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- First block: nothing stored into the output's buffer. -/
def out1_A_2 (c : Dev nD) (i : grid1.Coords) (arg2 : Memref sig .tc .vmem S512x256 .f32) (harg2 : arg2.IsWhole) (arg3 : Memref sig .tc .vmem S512x2048 .bf16) (harg3 : arg3.IsWhole) (arg4 : Memref sig .tc .vmem S256x2048 .f32) (harg4 : arg4.IsWhole) (arg5 : Memref sig .tc .vmem S256x2048 .f32) (harg5 : arg5.IsWhole) (hc0 : cond1_0 i) (hc1 : ¬cond1_1 i) (x0 : Vec F S512x256 .f32) (x1 : Vec F S512x2048 .bf16) : Vec F S256x2048 .f32 :=
  VO1_2.read (Elt F) (VO1_2.writes (Elt F) VO1_2.junk (kernelRun1_A c i arg2 harg2 arg3 harg3 arg4 harg4 arg5 harg5 hc0 hc1 x0 x1).1)
/-- First block: the stores into the running sum cover it. -/
theorem scover1_A_0 (c : Dev nD) (i : grid1.Coords) (arg2 : Memref sig .tc .vmem S512x256 .f32) (harg2 : arg2.IsWhole) (arg3 : Memref sig .tc .vmem S512x2048 .bf16) (harg3 : arg3.IsWhole) (arg4 : Memref sig .tc .vmem S256x2048 .f32) (harg4 : arg4.IsWhole) (arg5 : Memref sig .tc .vmem S256x2048 .f32) (harg5 : arg5.IsWhole) (hc0 : cond1_0 i) (hc1 : ¬cond1_1 i) (x0 : Vec F S512x256 .f32) (x1 : Vec F S512x2048 .bf16) (y : S256x2048.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S256x2048.size (by sl_kernel_rfl) y
/-- First block: what is left in the running sum. -/
def sout1_A_0 (c : Dev nD) (i : grid1.Coords) (arg2 : Memref sig .tc .vmem S512x256 .f32) (harg2 : arg2.IsWhole) (arg3 : Memref sig .tc .vmem S512x2048 .bf16) (harg3 : arg3.IsWhole) (arg4 : Memref sig .tc .vmem S256x2048 .f32) (harg4 : arg4.IsWhole) (arg5 : Memref sig .tc .vmem S256x2048 .f32) (harg5 : arg5.IsWhole) (hc0 : cond1_0 i) (hc1 : ¬cond1_1 i) (x0 : Vec F S512x256 .f32) (x1 : Vec F S512x2048 .bf16) : Vec F S256x2048 .f32 :=
  VS1_0.read (Elt F) (VS1_0.writes (Elt F) VS1_0.junk (kernelRun1_A c i arg2 harg2 arg3 harg3 arg4 harg4 arg5 harg5 hc0 hc1 x0 x1).2.1)

/-- Middle block: nothing stored into the output's buffer. -/
def out1_B_2 (c : Dev nD) (i : grid1.Coords) (arg2 : Memref sig .tc .vmem S512x256 .f32) (harg2 : arg2.IsWhole) (arg3 : Memref sig .tc .vmem S512x2048 .bf16) (harg3 : arg3.IsWhole) (arg4 : Memref sig .tc .vmem S256x2048 .f32) (harg4 : arg4.IsWhole) (arg5 : Memref sig .tc .vmem S256x2048 .f32) (harg5 : arg5.IsWhole) (hc0 : ¬cond1_0 i) (hc1 : ¬cond1_1 i) (x0 : Vec F S512x256 .f32) (x1 : Vec F S512x2048 .bf16) (xs0 : Vec F S256x2048 .f32) : Vec F S256x2048 .f32 :=
  VO1_2.read (Elt F) (VO1_2.writes (Elt F) VO1_2.junk (kernelRun1_B c i arg2 harg2 arg3 harg3 arg4 harg4 arg5 harg5 hc0 hc1 x0 x1 xs0).1)
theorem scover1_B_0 (c : Dev nD) (i : grid1.Coords) (arg2 : Memref sig .tc .vmem S512x256 .f32) (harg2 : arg2.IsWhole) (arg3 : Memref sig .tc .vmem S512x2048 .bf16) (harg3 : arg3.IsWhole) (arg4 : Memref sig .tc .vmem S256x2048 .f32) (harg4 : arg4.IsWhole) (arg5 : Memref sig .tc .vmem S256x2048 .f32) (harg5 : arg5.IsWhole) (hc0 : ¬cond1_0 i) (hc1 : ¬cond1_1 i) (x0 : Vec F S512x256 .f32) (x1 : Vec F S512x2048 .bf16) (xs0 : Vec F S256x2048 .f32) (y : S256x2048.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S256x2048.size (by sl_kernel_rfl) y
def sout1_B_0 (c : Dev nD) (i : grid1.Coords) (arg2 : Memref sig .tc .vmem S512x256 .f32) (harg2 : arg2.IsWhole) (arg3 : Memref sig .tc .vmem S512x2048 .bf16) (harg3 : arg3.IsWhole) (arg4 : Memref sig .tc .vmem S256x2048 .f32) (harg4 : arg4.IsWhole) (arg5 : Memref sig .tc .vmem S256x2048 .f32) (harg5 : arg5.IsWhole) (hc0 : ¬cond1_0 i) (hc1 : ¬cond1_1 i) (x0 : Vec F S512x256 .f32) (x1 : Vec F S512x2048 .bf16) (xs0 : Vec F S256x2048 .f32) : Vec F S256x2048 .f32 :=
  VS1_0.read (Elt F) (VS1_0.writes (Elt F) VS1_0.junk (kernelRun1_B c i arg2 harg2 arg3 harg3 arg4 harg4 arg5 harg5 hc0 hc1 x0 x1 xs0).2.1)

/-- Last block: the one store into the output's buffer covers it. -/
theorem cover1_C_2 (c : Dev nD) (i : grid1.Coords) (arg2 : Memref sig .tc .vmem S512x256 .f32) (harg2 : arg2.IsWhole) (arg3 : Memref sig .tc .vmem S512x2048 .bf16) (harg3 : arg3.IsWhole) (arg4 : Memref sig .tc .vmem S256x2048 .f32) (harg4 : arg4.IsWhole) (arg5 : Memref sig .tc .vmem S256x2048 .f32) (harg5 : arg5.IsWhole) (hc0 : ¬cond1_0 i) (hc1 : cond1_1 i) (x0 : Vec F S512x256 .f32) (x1 : Vec F S512x2048 .bf16) (xs0 : Vec F S256x2048 .f32) (y : S256x2048.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S256x2048.size (by sl_kernel_rfl) y
def out1_C_2 (c : Dev nD) (i : grid1.Coords) (arg2 : Memref sig .tc .vmem S512x256 .f32) (harg2 : arg2.IsWhole) (arg3 : Memref sig .tc .vmem S512x2048 .bf16) (harg3 : arg3.IsWhole) (arg4 : Memref sig .tc .vmem S256x2048 .f32) (harg4 : arg4.IsWhole) (arg5 : Memref sig .tc .vmem S256x2048 .f32) (harg5 : arg5.IsWhole) (hc0 : ¬cond1_0 i) (hc1 : cond1_1 i) (x0 : Vec F S512x256 .f32) (x1 : Vec F S512x2048 .bf16) (xs0 : Vec F S256x2048 .f32) : Vec F S256x2048 .f32 :=
  VO1_2.read (Elt F) (VO1_2.writes (Elt F) VO1_2.junk (kernelRun1_C c i arg2 harg2 arg3 harg3 arg4 harg4 arg5 harg5 hc0 hc1 x0 x1 xs0).1)
theorem scover1_C_0 (c : Dev nD) (i : grid1.Coords) (arg2 : Memref sig .tc .vmem S512x256 .f32) (harg2 : arg2.IsWhole) (arg3 : Memref sig .tc .vmem S512x2048 .bf16) (harg3 : arg3.IsWhole) (arg4 : Memref sig .tc .vmem S256x2048 .f32) (harg4 : arg4.IsWhole) (arg5 : Memref sig .tc .vmem S256x2048 .f32) (harg5 : arg5.IsWhole) (hc0 : ¬cond1_0 i) (hc1 : cond1_1 i) (x0 : Vec F S512x256 .f32) (x1 : Vec F S512x2048 .bf16) (xs0 : Vec F S256x2048 .f32) (y : S256x2048.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S256x2048.size (by sl_kernel_rfl) y
def sout1_C_0 (c : Dev nD) (i : grid1.Coords) (arg2 : Memref sig .tc .vmem S512x256 .f32) (harg2 : arg2.IsWhole) (arg3 : Memref sig .tc .vmem S512x2048 .bf16) (harg3 : arg3.IsWhole) (arg4 : Memref sig .tc .vmem S256x2048 .f32) (harg4 : arg4.IsWhole) (arg5 : Memref sig .tc .vmem S256x2048 .f32) (harg5 : arg5.IsWhole) (hc0 : ¬cond1_0 i) (hc1 : cond1_1 i) (x0 : Vec F S512x256 .f32) (x1 : Vec F S512x2048 .bf16) (xs0 : Vec F S256x2048 .f32) : Vec F S256x2048 .f32 :=
  VS1_0.read (Elt F) (VS1_0.writes (Elt F) VS1_0.junk (kernelRun1_C c i arg2 harg2 arg3 harg3 arg4 harg4 arg5 harg5 hc0 hc1 x0 x1 xs0).2.1)

end Cert.KernelIdeal.Hand

end
-- ==== Proof.KI.Reg1.lean ====
/-
  The Gram region's proof data and body obligation, at any contents `V` of the core's buffers when the region is
  entered: what the output's buffer and the running sum hold after each of the 64 points, the invariant that carries
  the running sum from a point to the next, and the obligation case by case.
-/
import proofs.«109148_j43121471652136_1_alg».proof.Proof.Gen.KernelIdeal.Launch
import proofs.«109148_j43121471652136_1_alg».proof.Proof.Gen.KernelIdeal.Skeleton
import proofs.«109148_j43121471652136_1_alg».proof.Proof.Gen.KernelIdeal.Points
import proofs.«109148_j43121471652136_1_alg».proof.Proof.KI.Reg1Outs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three kinds of point -/

/-- A first batch block (`b = 0`): nothing stored in the output's buffer; the running sum restarted from zeros with the
    point's product added. -/
def resetAt1 (c : Dev nD) (t : Fin cfg1.N) (h0 : t.val % 8 = 0) (h1 : ¬t.val % 8 = 7) : Vec F S256x2048 .f32 × Vec F S256x2048 .f32 :=
  (out1_A_2 c (grid1.coords t) (ms1_0 t) (hs1_0 t) (ms1_1 t) (hs1_1 t) (ms1_2 t) (hs1_2 t) scM1_0 (Memref.isWhole_whole _)
      ((hcond1_0 t).mpr h0) (fun h => h1 ((hcond1_1 t).mp h)) (iblk1 V c 0 t) (iblk1 V c 1 t),
   sout1_A_0 c (grid1.coords t) (ms1_0 t) (hs1_0 t) (ms1_1 t) (hs1_1 t) (ms1_2 t) (hs1_2 t) scM1_0 (Memref.isWhole_whole _)
      ((hcond1_0 t).mpr h0) (fun h => h1 ((hcond1_1 t).mp h)) (iblk1 V c 0 t) (iblk1 V c 1 t))

/-- A middle batch block (`0 < b < 7`): nothing stored in the output's buffer; the point's product added onto the
    running sum `xs` the point before left. -/
def stepAt1 (c : Dev nD) (t : Fin cfg1.N) (h0 : ¬t.val % 8 = 0) (h1 : ¬t.val % 8 = 7) (xs : Vec F S256x2048 .f32) :
    Vec F S256x2048 .f32 × Vec F S256x2048 .f32 :=
  (out1_B_2 c (grid1.coords t) (ms1_0 t) (hs1_0 t) (ms1_1 t) (hs1_1 t) (ms1_2 t) (hs1_2 t) scM1_0 (Memref.isWhole_whole _)
      (fun h => h0 ((hcond1_0 t).mp h)) (fun h => h1 ((hcond1_1 t).mp h)) (iblk1 V c 0 t) (iblk1 V c 1 t) xs,
   sout1_B_0 c (grid1.coords t) (ms1_0 t) (hs1_0 t) (ms1_1 t) (hs1_1 t) (ms1_2 t) (hs1_2 t) scM1_0 (Memref.isWhole_whole _)
      (fun h => h0 ((hcond1_0 t).mp h)) (fun h => h1 ((hcond1_1 t).mp h)) (iblk1 V c 0 t) (iblk1 V c 1 t) xs)

/-- A last batch block (`b = 7`): the product added onto the running sum `xs`, and the sum copied over the output's buffer. -/
def flushAt1 (c : Dev nD) (t : Fin cfg1.N) (h0 : ¬t.val % 8 = 0) (h1 : t.val % 8 = 7) (xs : Vec F S256x2048 .f32) :
    Vec F S256x2048 .f32 × Vec F S256x2048 .f32 :=
  (out1_C_2 c (grid1.coords t) (ms1_0 t) (hs1_0 t) (ms1_1 t) (hs1_1 t) (ms1_2 t) (hs1_2 t) scM1_0 (Memref.isWhole_whole _)
      (fun h => h0 ((hcond1_0 t).mp h)) ((hcond1_1 t).mpr h1) (iblk1 V c 0 t) (iblk1 V c 1 t) xs,
   sout1_C_0 c (grid1.coords t) (ms1_0 t) (hs1_0 t) (ms1_1 t) (hs1_1 t) (ms1_2 t) (hs1_2 t) scM1_0 (Memref.isWhole_whole _)
      (fun h => h0 ((hcond1_0 t).mp h)) ((hcond1_1 t).mpr h1) (iblk1 V c 0 t) (iblk1 V c 1 t) xs)

/-! ## What the buffers hold after each point -/

/-- What the output's staging buffer and the running sum hold after the body at position `n` (the pair, in that order): by
    recursion on the position, the kind of point read off `n % 8`, a later block's sum taken over what position `n - 1`
    left. No position is both a first and a last batch block. -/
def outsAt1 (c : Dev nD) : (n : ℕ) → n < cfg1.N → Vec F S256x2048 .f32 × Vec F S256x2048 .f32
  | 0, hn => resetAt1 V c ⟨0, hn⟩ (Nat.zero_mod _) (fun h => absurd h (by decide : ¬(0 % 8 = 7)))
  | n + 1, hn =>
    if h0 : (n + 1) % 8 = 0 then
      if h1 : (n + 1) % 8 = 7 then
        False.elim (by omega)
      else
        resetAt1 V c ⟨n + 1, hn⟩ h0 h1
    else
      if h1 : (n + 1) % 8 = 7 then
        flushAt1 V c ⟨n + 1, hn⟩ h0 h1 (outsAt1 c n (Nat.lt_of_succ_lt hn)).2
      else
        stepAt1 V c ⟨n + 1, hn⟩ h0 h1 (outsAt1 c n (Nat.lt_of_succ_lt hn)).2

/-- At a first batch block. -/
theorem outsAt1_A (c : Dev nD) (t : Fin cfg1.N) (h0 : t.val % 8 = 0) (h1 : ¬t.val % 8 = 7) :
    outsAt1 V c t.val t.isLt = resetAt1 V c t h0 h1 := by
  obtain ⟨n, hn⟩ := t
  cases n with
  | zero => exact rfl
  | succ n => exact (dif_pos h0).trans ((dif_neg h1).trans rfl)

/-- At a middle batch block, over what the point before left. -/
theorem outsAt1_B (c : Dev nD) (t : Fin cfg1.N) (h0 : ¬t.val % 8 = 0) (h1 : ¬t.val % 8 = 7) :
    outsAt1 V c t.val t.isLt
      = stepAt1 V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

/-- At a last batch block, over what the point before left. -/
theorem outsAt1_C (c : Dev nD) (t : Fin cfg1.N) (h0 : ¬t.val % 8 = 0) (h1 : t.val % 8 = 7) :
    outsAt1 V c t.val t.isLt
      = flushAt1 V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-! ## The invariant -/

/-- The core's scoped buffers that are neither a staging buffer of this region nor the running sum's: the other
    regions' staging buffers, each at some contents, carried unopened. -/
abbrev others1 (c : Dev nD) : sProp 𝕄 :=
  Pipeline.scopedRestBut (Ix := Unit) (Name := ℕ) (U := UR sig nD τ) (Lvl := ℕ) (Val := Elt F) spec1 c [cc1_scratch0]

/-- The class's invariant with the running sum's buffer named: that buffer owned at some contents, the other scoped
    buffers, the generator register at some state. -/
theorem PhiA1_eq (c : Dev nD) :
    (Pipeline.ΦA spec1 c : sProp 𝕄)
      = iprop(iprop((∃ d, owns (c : Thread nD τ) scM1_0 fullShare d) ∗ others1 (F := F) c) ∗ (∃ r, prngReg c r)) := by
  unfold Pipeline.ΦA
  rw [Pipeline.scopedRest_split_of_list spec1 c [cc1_scratch0] (by decide) (by decide)]
  simp only [bigSepL_singleton, scM1_0, owns_whole]; try rfl

/-- The invariant before position `n`: before the first point the class's; afterwards the running sum's buffer at what the
    point before left, the other scoped buffers at some contents, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ others1 (F := F) c) ∗ (∃ r, prngReg c r))

theorem PhiS1_zero (c : Dev nD) (n : ℕ) (h : n ≤ cfg1.N) (hz : n = 0) : PhiS1 V c n h = Pipeline.ΦA spec1 c := by
  subst hz; rfl

/-- After point `n`: the running sum at that point's contents. -/
theorem PhiS1_succ (c : Dev nD) (n : ℕ) (hn : n < cfg1.N) :
    PhiS1 V c (n + 1) hn
      = iprop(iprop(owns (c : Thread nD τ) scM1_0 fullShare ((outsAt1 V c n hn).2) ∗ others1 (F := F) c) ∗ (∃ r, prngReg c r)) := rfl

/-- Before a point that is not the first: the running sum at what the point before left. -/
theorem PhiS1_pos (c : Dev nD) (n : ℕ) (h : n ≤ cfg1.N) (hz : n ≠ 0) :
    PhiS1 V c n h
      = iprop(iprop(owns (c : Thread nD τ) scM1_0 fullShare ((outsAt1 V c (n - 1) (by omega)).2) ∗ others1 (F := F) c) ∗ (∃ r, prngReg c r)) := by
  cases n with
  | zero => exact absurd rfl hz
  | succ n => rfl

/-! ## The region's proof data -/

/-- The arrays as the region finds them; after the body at point `t` each input's buffer at its block and the output's at
    `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold their blocks. `t % 8` says which kind of point this is. At a first
    batch block the running sum's buffer is taken at anything (the class's invariant at the very first point, what the point
    before left at a later one) and the output's buffer handed back as found, its window idle; at a middle block the
    running sum is taken at what the point before left, the output's buffer again handed back; at a last block the
    output's buffer is taken at anything and left covered by the copy. In every case the stores into the running sum
    cover it, so it is left at the case's contents whatever it held; the other scoped buffers, the generator register
    and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 64 := lt_of_lt_of_eq t.isLt (show cfg1.N = 64 from N_1)
  by_cases h0 : t.val % 8 = 0
  · by_cases h1 : t.val % 8 = 7
    · exfalso; omega
    · -- a first batch block
      rw [Dat.leavesExact_idle (dat1 V c) 2 t (idleAt1_2 t (fun h => h1 ((hcond1_1 t).mp h))) (noFlush1_2 t (fun h => h1 ((hcond1_1 t).mp h)))]
      rw [outsAt1_A V c t h0 h1]
      unfold resetAt1 sout1_A_0; (try dsimp only)
      by_cases hz : t.val = 0
      · rw [PhiS1_castSucc V c t, PhiS1_zero V c _ _ hz, PhiA1_eq]
        iintro ⟨⟨⟨HS0, Hr⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_A_0 c _ _ _ _ _ _ _ _ _ _ _ _ _)
            iexact Hr
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HS0, Hr⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_A_0 c _ _ _ _ _ _ _ _ _ _ _ _ _)
            iexact Hr
          iexact Hg
        isplitl [Ho]; · iexact Ho
        isplitl [H0]; · iexact H0
        isplitl [H1]; · iexact H1
        iexists _; iexact H2
  · have hz : t.val ≠ 0 := fun hz => h0 (by rw [hz])
    by_cases h1 : t.val % 8 = 7
    · -- a last batch block
      rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold flushAt1 out1_C_2 sout1_C_0; (try dsimp only)
      rw [PhiS1_castSucc V c t, PhiS1_pos V c _ _ hz]
      iintro ⟨⟨⟨HS0, Hr⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_C_0 c _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · -- a middle batch block
      rw [Dat.leavesExact_idle (dat1 V c) 2 t (idleAt1_2 t (fun h => h1 ((hcond1_1 t).mp h))) (noFlush1_2 t (fun h => h1 ((hcond1_1 t).mp h)))]
      rw [outsAt1_B V c t h0 h1]
      unfold stepAt1 sout1_B_0; (try dsimp only)
      rw [PhiS1_castSucc V c t, PhiS1_pos V c _ _ hz]
      iintro ⟨⟨⟨HS0, Hr⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_B_0 c _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the running sum's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

/-- After the last point the invariant gives the class's back: the running sum's named contents are forgotten. -/
theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Hand

end
-- ==== Proof.KI.Reg2.lean ====
/-
  The second matrix product's region, `out = x · w'ᵀ + bias` over eight blocks of 512 rows, at any contents `V` of
  the core's buffers when the region is entered. At every grid point the body loads the point's block of `x`
  (512 × 2048), the whole of the updated weight (2048 × 2048) and the bias row (1 × 2048) — the last two fetched
  once and left in place —, and stores the product plus the bias row, broadcast down the rows, over the output's
  block: one store covering the block. Nothing is carried from point to point.
-/
import proofs.«109148_j43121471652136_1_alg».proof.Proof.Gen.KernelIdeal.Launch
import proofs.«109148_j43121471652136_1_alg».proof.Proof.Gen.KernelIdeal.Skeleton
import proofs.«109148_j43121471652136_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The block of `x` is in its staging buffer at every point: fetched there. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The whole updated weight is in its staging buffer at every point: fetched at the first, its block index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- So is the bias row. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_x : Rect S512x2048 := Rect.unit (s := S512x2048) ![0, 0] S512x2048.size inb_S512x2048_S512x2048_0_0
abbrev r2_w : Rect S2048x2048 := Rect.unit (s := S2048x2048) ![0, 0] S2048x2048.size inb_S2048x2048_S2048x2048_0_0
abbrev r2_b : Rect S1x2048 := Rect.unit (s := S1x2048) ![0, 0] S1x2048.size inb_S1x2048_S1x2048_0_0

/-- What the body leaves in the output's staging buffer: the product of the two loaded blocks plus the bias row,
    stored over the whole block. -/
def out2_3 (x0 : Vec F S512x2048 .bf16) (x1 : Vec F S2048x2048 .bf16) (x2 : Vec F S1x2048 .f32) : Vec F S512x2048 .f32 :=
  View.canon [⟨r2_x, k2_pay1 (View.ld x0 r2_x) (View.ld x1 r2_w) (View.ld x2 r2_b)⟩]

/-- The one store covers the block. -/
theorem cover2_3 (p0 : Vec F S512x2048 .f32) (y : S512x2048.Idx) :
    ∃ pc ∈ ([⟨r2_x, p0⟩] : List (View.Piece (Elt F) S512x2048 .f32)), y ∈ pc.1.set :=
  View.cover_of_tiled [⟨r2_x, p0⟩] S512x2048.size (by rfl) y

/-! ## The body's triple -/

set_option maxHeartbeats 1000000 in
/-- On whole staging memrefs, the inputs' at contents `x0`, `x1`, `x2` and the output's at anything, the body runs to
    the continuation holding the inputs' as they were and the output's at `out2_3 x0 x1 x2`. -/
theorem sound_kernel2 (c : Dev nD) (E : Set ℕ) (i : grid2.Coords) (arg1 : Memref sig .tc .vmem S512x2048 .bf16) (harg1 : arg1.IsWhole) (arg2 : Memref sig .tc .vmem S2048x2048 .bf16) (harg2 : arg2.IsWhole) (arg3 : Memref sig .tc .vmem S1x2048 .f32) (harg3 : arg3.IsWhole) (arg4 : Memref sig .tc .vmem S512x2048 .f32) (harg4 : arg4.IsWhole)
    (x0 : Vec F S512x2048 .bf16) (x1 : Vec F S2048x2048 .bf16) (x2 : Vec F S1x2048 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__k3_kernel i arg1 harg1 arg2 harg2 arg3 harg3 arg4 harg4) K := by
  simp only [cc2__k3_kernel_eq_skeleton]; unfold cc2__k3_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The region's proof data -/

/-- The arrays as the region finds them; after the body at point `t` each input's buffer at its block and the
    output's at the product plus the bias; the invariant the scoped buffers and the register, untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the triple applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Chain.lean ====
/-
  The contents of the core's buffers at each boundary between @main's six items — two casts, the first product's
  region, the two column means, the Gram region, the weight update, the second product's region —, as a fold from
  the launch memory: a host stretch applies its operations; a region leaves its arrays at what its write-backs
  fold to and every other buffer as entered.
-/
import proofs.«109148_j43121471652136_1_alg».proof.Proof.Gen.KernelIdeal.Launch
import proofs.«109148_j43121471652136_1_alg».proof.Proof.Gen.KernelIdeal.Skeleton
import proofs.«109148_j43121471652136_1_alg».proof.Proof.Gen.KernelIdeal.Points
import proofs.«109148_j43121471652136_1_alg».proof.Proof.KI.Reg0
import proofs.«109148_j43121471652136_1_alg».proof.Proof.KI.Reg1
import proofs.«109148_j43121471652136_1_alg».proof.Proof.KI.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At launch. -/
abbrev W0 : Dev nD → Valuation τ sig (Elt F) := fun c b => (s₀ m ρ).mem ((c : Dev nD), b)
/-- After the two casts (the first product's region is entered here). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first product's region. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the two column means (the Gram region is entered here). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the Gram region. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the weight update (the second product's region is entered here). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- After the second product's region: @main returns here. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- The layer's result is what the second product's region folds its output to. -/
theorem W6_result (c : Dev nD) : W6 m ρ c (Proc.devRef .tc main_v29) = (dat2 (V5 m ρ) c).arrAt 3 cfg2.N :=
  W6_arr m ρ c 3

end Cert.KernelIdeal.Hand

end
-- ==== Proof.KI.Run.lean ====
/-
  The run of the layer's @main on a core: two casts, the first product's region, the two column means, the Gram
  region, the weight update, the second product's region — six items, each entered from every unscoped buffer
  at the contents the item before left. A host stretch carries those buffers through its operations; a region
  takes its windows' arrays out of them, runs its pipeline over them, and puts them back at what its write-backs
  fold to, every other buffer untouched. Beside the buffers ride the core's generator register, at some state,
  and the core owing nothing. At the return every unscoped buffer is read off the last boundary's contents:
  the result at what the second product's region folds its output to, each argument at what the launch held.
-/
import proofs.«109148_j43121471652136_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the host stretches allocate and write -/

/-- The two casts allocate no buffer. -/
theorem casts_allocate_nothing : (hostOps0 : List (HloOp τ sig (Elt F))).Forall fun op => op.fresh = ∅ := by
  simp only [List.Forall]; repeat' constructor
/-- The two column means allocate no buffer. -/
theorem means_allocate_nothing : (hostOps1 : List (HloOp τ sig (Elt F))).Forall fun op => op.fresh = ∅ := by
  simp only [List.Forall]; repeat' constructor
/-- The weight update allocates no buffer. -/
theorem update_allocates_nothing : (hostOps2 : List (HloOp τ sig (Elt F))).Forall fun op => op.fresh = ∅ := by
  simp only [List.Forall]; repeat' constructor

/-- The buffers the two casts write: the two bf16 copies. -/
abbrev castsWritten : List (Ref sig .tc) := [main_v0, main_v1]
/-- The buffers the two column means write: the sums, the counts and the quotients, with their constants. -/
abbrev meansWritten : List (Ref sig .tc) :=
  [main_cst, main_v3, main_cst_0, main_v4, main_v5, main_cst_1, main_v6, main_cst_2, main_v7, main_v8]
/-- The buffers the weight update writes: every intermediate of the update, the new weight's bf16 copy and the
    bias as a row. -/
abbrev updateWritten : List (Ref sig .tc) :=
  [main_v10, main_v11, main_v12, main_v13, main_v14, main_v15, main_v16, main_cst_3, main_v17, main_v18, main_v19,
   main_v20, main_v21, main_cst_4, main_v22, main_v23, main_cst_5, main_v24, main_v25, main_v26, main_v27, main_v28]

theorem casts_write : (hostOps0 : List (HloOp τ sig (Elt F))).Forall fun op =>
    op.writes ⊆ (castsWritten.map (Proc.devRef (τ := τ) .tc)).toFinset := by
  simp only [List.Forall, StableHlo.nullary_writes, StableHlo.unary_writes, StableHlo.binary_writes,
    StableHlo.reshape_writes, Finset.singleton_subset_iff, List.mem_toFinset]
  repeat' apply And.intro
  all_goals exact List.mem_map_of_mem (by decide)
theorem means_write : (hostOps1 : List (HloOp τ sig (Elt F))).Forall fun op =>
    op.writes ⊆ (meansWritten.map (Proc.devRef (τ := τ) .tc)).toFinset := by
  simp only [List.Forall, StableHlo.nullary_writes, StableHlo.unary_writes, StableHlo.binary_writes,
    StableHlo.reshape_writes, Finset.singleton_subset_iff, List.mem_toFinset]
  repeat' apply And.intro
  all_goals exact List.mem_map_of_mem (by decide)
theorem update_writes : (hostOps2 : List (HloOp τ sig (Elt F))).Forall fun op =>
    op.writes ⊆ (updateWritten.map (Proc.devRef (τ := τ) .tc)).toFinset := by
  simp only [List.Forall, StableHlo.nullary_writes, StableHlo.unary_writes, StableHlo.binary_writes,
    StableHlo.reshape_writes, Finset.singleton_subset_iff, List.mem_toFinset]
  repeat' apply And.intro
  all_goals exact List.mem_map_of_mem (by decide)

/-! ## A buffer no item touches ends as launched

A buffer that is no window's array of any of the three regions and that none of the three host stretches
writes holds at the return what the launch held: the fold of the boundaries walks back through it unchanged. -/

theorem W6_of_untouched (c : Dev nD) (r : Ref sig .tc)
    (h2 : ∀ w, Pipeline.arrRef spec2 w ≠ r) (hu : r ∉ updateWritten)
    (h1 : ∀ w, Pipeline.arrRef spec1 w ≠ r) (hm : r ∉ meansWritten)
    (h0 : ∀ w, Pipeline.arrRef spec0 w ≠ r) (hc : r ∉ castsWritten) :
    W6 m ρ c (Proc.devRef .tc r) = m ((c : Thread nD τ).loc r) :=
  calc W6 m ρ c (Proc.devRef .tc r)
    _ = W5 m ρ c (Proc.devRef .tc r) := W6_of_ne m ρ c r h2
    _ = W4 m ρ c (Proc.devRef .tc r) := StableHlo.after_of_writes_sub hostOps2 _ update_writes hu
    _ = W3 m ρ c (Proc.devRef .tc r) := W4_of_ne m ρ c r h1
    _ = W2 m ρ c (Proc.devRef .tc r) := StableHlo.after_of_writes_sub hostOps1 _ means_write hm
    _ = W1 m ρ c (Proc.devRef .tc r) := W2_of_ne m ρ c r h0
    _ = W0 m ρ c (Proc.devRef .tc r) := StableHlo.after_of_writes_sub hostOps0 _ casts_write hc
    _ = m ((c : Thread nD τ).loc r) := rfl

/-- The activations: read by the first cast and the first column mean, written by nothing. -/
theorem W6_main_arg0 (c : Dev nD) : W6 m ρ c (Proc.devRef .tc main_arg0) = m ((c : Thread nD τ).loc main_arg0) :=
  W6_of_untouched m ρ c main_arg0 (by decide) (by decide) (by decide) (by decide) (by decide) (by decide)
/-- The coefficient of the activations' column mean in the update: read by one product, written by nothing. -/
theorem W6_main_arg1 (c : Dev nD) : W6 m ρ c (Proc.devRef .tc main_arg1) = m ((c : Thread nD τ).loc main_arg1) :=
  W6_of_untouched m ρ c main_arg1 (by decide) (by decide) (by decide) (by decide) (by decide) (by decide)
/-- The coefficient of the first product's column mean in the update: read by one product, written by nothing. -/
theorem W6_main_arg2 (c : Dev nD) : W6 m ρ c (Proc.devRef .tc main_arg2) = m ((c : Thread nD τ).loc main_arg2) :=
  W6_of_untouched m ρ c main_arg2 (by decide) (by decide) (by decide) (by decide) (by decide) (by decide)
/-- The coefficient of the Gram term in the update: read by one quotient, written by nothing. -/
theorem W6_main_arg3 (c : Dev nD) : W6 m ρ c (Proc.devRef .tc main_arg3) = m ((c : Thread nD τ).loc main_arg3) :=
  W6_of_untouched m ρ c main_arg3 (by decide) (by decide) (by decide) (by decide) (by decide) (by decide)
/-- The update's constant term: read by one sum, written by nothing. -/
theorem W6_main_arg4 (c : Dev nD) : W6 m ρ c (Proc.devRef .tc main_arg4) = m ((c : Thread nD τ).loc main_arg4) :=
  W6_of_untouched m ρ c main_arg4 (by decide) (by decide) (by decide) (by decide) (by decide) (by decide)
/-- The weight: read by the second cast and the weight update, written by nothing. -/
theorem W6_main_arg5 (c : Dev nD) : W6 m ρ c (Proc.devRef .tc main_arg5) = m ((c : Thread nD τ).loc main_arg5) :=
  W6_of_untouched m ρ c main_arg5 (by decide) (by decide) (by decide) (by decide) (by decide) (by decide)
/-- The bias: read by the reshape to a row, written by nothing. -/
theorem W6_main_arg6 (c : Dev nD) : W6 m ρ c (Proc.devRef .tc main_arg6) = m ((c : Thread nD τ).loc main_arg6) :=
  W6_of_untouched m ρ c main_arg6 (by decide) (by decide) (by decide) (by decide) (by decide) (by decide)

/-! ## The regions' proof data and what rides beside the buffers -/

/-- No region has a prefetched table. -/
abbrev noTables : (p : Fin 3) → (pcfgs (F := F) p).Adm := fun p => (cfgs p).toPCfg_adm
/-- Each region's proof data at the contents it is entered from: the first product after the casts, the Gram
    region after the column means, the second product after the weight update. -/
def regionData : (p : Fin 3) → (c : Dev nD) → Dat τ (Elt F) Unit ℕ (UR sig nD τ) ℕ (Pipeline.pin (pcfgs (F := F)) noTables p) c
  | ⟨0, _⟩ => fun c => dat0 (V1 m ρ) c
  | ⟨1, _⟩ => fun c => dat1 (V3 m ρ) c
  | ⟨2, _⟩ => fun c => dat2 (V5 m ρ) c
abbrev plain : Variants := Variants.none
/-- No core owes another anything: no level is assigned. -/
abbrev noPairs : GSem nD τ sig → Finset Unit := fun _ => ∅
abbrev levelZero : GSem nD τ sig → Unit → ℕ := fun _ _ => 0
/-- Beside the buffers through every item: the generator register at some state, and nothing owed. -/
abbrev beside (c : Dev nD) : sProp 𝕄 := iprop((∃ r, prngReg c r) ∗ ∃ W, owes (c : Thread nD τ) (0 : CellTallies nD τ sig Unit) W)
/-- A host stretch over every unscoped buffer from the contents W: it leaves them at what its operations make
    of W, one after the other. -/
abbrev hostStretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ plain noPairs levelZero :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside

/-- An unscoped buffer of the core is among those carried from item to item. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- At the return, without what is owed: every unscoped buffer at the last boundary's contents, the generator
    register at some state. -/
abbrev atReturn (c : Dev nD) : sProp 𝕄 := iprop(StableHlo.held (c : Thread nD τ) (Pipeline.ucRefs τ sig) (W6 m ρ c) ∗ ∃ r, prngReg c r)

/-! ## The three regions as items -/

set_option backward.isDefEq.respectTransparency.types false in
/-- The first product's region: entered after the casts, left with its output array at what the eight blocks'
    write-backs fold to. Its arrays come out of the unscoped buffers and go back at the exit contents; the generator
    register goes into the region's invariant and comes out; nothing is owed. -/
def firstProduct : Pipeline.RegionSeg (pcfgs (F := F)) noTables (regionData m ρ) () defs₀ plain noPairs levelZero 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ noPairs levelZero 0 fun _ _ => rfl
  pre c := iprop(StableHlo.held (c : Thread nD τ) (Pipeline.ucRefs τ sig) (W1 m ρ c) ∗ beside c)
  post c := iprop(StableHlo.held (c : Thread nD τ) (Pipeline.ucRefs τ sig) (W2 m ρ c) ∗ beside c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) noTables (regionData m ρ) launch0.win launch0.arr_whole c
      ((regionData m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionData m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (regionData m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (regionData m ρ) ((regionData m ρ 0 c).share_full fun _ => rfl)
      (V1 m ρ c) (V2 m ρ c) ((regionData m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The Gram region: entered after the column means, left with its output array at what the write-backs of its
    sixty-four points fold to. Its invariant tracks the running sum from point to point; before the first point it is
    the scoped buffers at some contents beside the generator register, which is what the entry hands it, and after the
    last point it gives that back, the running sum's contents forgotten. -/
def gram : Pipeline.RegionSeg (pcfgs (F := F)) noTables (regionData m ρ) () defs₀ plain noPairs levelZero 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ noPairs levelZero 1 fun _ _ => rfl
  pre c := iprop(StableHlo.held (c : Thread nD τ) (Pipeline.ucRefs τ sig) (W3 m ρ c) ∗ beside c)
  post c := iprop(StableHlo.held (c : Thread nD τ) (Pipeline.ucRefs τ sig) (W4 m ρ c) ∗ beside c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) noTables (regionData m ρ) launch1.win launch1.arr_whole c
      ((regionData m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionData m ρ 1 c).Φ 0 = (dat1 (V3 m ρ) c).Φ 0 from rfl]
    refine BIBase.Entails.trans ?_ (hin1 (V3 m ρ) c)
    unfold Pipeline.ΦA
    iintro ⟨Hp, -, Hr⟩
    isplitl [Hr]; · iexact Hr
    iexact Hp
  hout c := by
    rw [Pipeline.ownSems0_none, show (regionData m ρ 1 c).Φ (Fin.last _) = (dat1 (V3 m ρ) c).Φ (Fin.last cfg1.N) from rfl]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (regionData m ρ) ((regionData m ρ 1 c).share_full fun _ => rfl)
      (V3 m ρ c) (V4 m ρ c) ((regionData m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second product's region: entered after the weight update, left with the layer's result at what the eight
    blocks' write-backs fold to; @main returns from here, so what it leaves is the state at the return beside
    nothing owed. -/
def secondProduct : Pipeline.RegionSeg (pcfgs (F := F)) noTables (regionData m ρ) () defs₀ plain noPairs levelZero 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ noPairs levelZero 2 fun _ _ => rfl
  pre c := iprop(StableHlo.held (c : Thread nD τ) (Pipeline.ucRefs τ sig) (W5 m ρ c) ∗ beside c)
  post c := iprop(atReturn m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) noTables (regionData m ρ) launch2.win launch2.arr_whole c
      ((regionData m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionData m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (regionData m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) noTables (Ix := Unit) (Name := ℕ) (U := UR sig nD τ) (Lvl := ℕ)
      launch2.win launch2.arr_whole c (regionData m ρ) ((regionData m ρ 2 c).share_full fun _ => rfl)
      (V5 m ρ c) (V6 m ρ c) ((regionData m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its six items, and the launch -/

/-- @main's items in order: each host stretch from its boundary's contents, each region over its pipeline. -/
abbrev items : List (Pipeline.Seg (pcfgs (F := F)) noTables (regionData m ρ) () defs₀ plain noPairs levelZero) :=
  [ .host (hostStretch hostOps0 hostOps0_sub casts_allocate_nothing (W0 m ρ)),
    .region (firstProduct m ρ),
    .host (hostStretch hostOps1 hostOps1_sub means_allocate_nothing (W2 m ρ)),
    .region (gram m ρ),
    .host (hostStretch hostOps2 hostOps2_sub update_allocates_nothing (W4 m ρ)),
    .region (secondProduct m ρ) ]
/-- @main is the run of its items. -/
theorem main_is_items (c : Dev nD) : main (F := F) c = Pipeline.Seg.run (items m ρ) := (main_chain c).trans (by chain_rfl)

set_option backward.isDefEq.respectTransparency.types false in
/-- From any memory with zero counters every weakly fair execution of @main on the core terminates, nothing
    faulting, and in every final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) noTables (regionData m ρ) () cellOf_inj emb₁ defs₀ plain noPairs levelZero m ρ main (items m ρ)
    (fun c Q => by rw [main_is_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ beside c)) (Tₙ := atReturn m ρ)
    (hch := ⟨fun _ => .rfl, fun _ => .rfl, fun _ => .rfl, fun _ => .rfl, fun _ => .rfl, fun _ => .rfl, fun _ => .rfl⟩)
    (hinit := by
      refine Pipeline.initEach noPairs levelZero fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The same run with the buffers the layer is about named: the result at what the second product's region folds
    its output to, each argument at what the launch held. -/
theorem run_named : θ_run defs (onTc (τ := τ) (main (F := F))) ⟨m, fun _ => 0, ρ⟩ (fun r => ∀ c : Dev nD,
      r.2.mem ((c.tc : Thread nD τ).loc main_v29) = (dat2 (V5 m ρ) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v29 (by decide))).trans (W6_result m ρ c),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c)⟩) (run_all m ρ)

/-- The frame: @main terminates from any memory with zero counters, nothing faulting, and every argument array
    ends holding what the launch held. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => (h c).2) (run_named m ρ)

end Cert.KernelIdeal.Hand

end
-- ==== Proof.KI.Val0.lean ====
/-
  What the first matrix product's region leaves in its output array, over the extended reals: the product
  `x · wᵀ` of the two arrays it reads, entry (r, o) being row r of `x` against row o of `w`, summed over the 2048
  features. Point t of the eight stores rows 512t … 512t + 511 of that product: the body's payload at (p, o) is
  row p of the point's block of `x` against row o of `w`, and row p of that block is row 512t + p of `x`. The eight
  blocks tile the 4096 rows — row r lies in the block of point r / 512 —, so the array ends holding the product.
-/
import proofs.«109148_j43121471652136_1_alg».proof.Proof.KI.Reg0
import proofs.«109148_j43121471652136_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (V : (c : Dev nD) → (b : Ref sig .tc) → Buf (Elt Ideal) ((c : Thread nD τ).loc b))

/-! ## The product's operand indices

The block of `x` is contracted on its feature axis and keeps its row axis, which is the result's row axis; the matrix
`w` is contracted on its feature axis too and keeps its row axis, which is the result's column axis. -/

/-- The left operand's row is the result's row. -/
theorem prod_lhs_row (j : S512x2048.Idx) (q : dot_S512x2048_S2048x2048_S512x2048_1_1_0_0_n_n.contr.Idx) :
    (dot_S512x2048_S2048x2048_S512x2048_1_1_0_0_n_n.lhsIdx j q 0).val = (j 0).val := by
  unfold DotDims.lhsIdx
  rw [dif_neg (show ¬(0 : Fin S512x2048.rank) ∈ dot_S512x2048_S2048x2048_S512x2048_1_1_0_0_n_n.lhsBatch by decide), dif_pos (show (0 : Fin S512x2048.rank) ∈ dot_S512x2048_S2048x2048_S512x2048_1_1_0_0_n_n.lhsNonContracting by decide)]
  rfl
/-- The left operand's feature is the summation index. -/
theorem prod_lhs_feature (j : S512x2048.Idx) (q : dot_S512x2048_S2048x2048_S512x2048_1_1_0_0_n_n.contr.Idx) :
    (dot_S512x2048_S2048x2048_S512x2048_1_1_0_0_n_n.lhsIdx j q 1).val = (q ⟨0, by decide⟩).val :=
  dot_S512x2048_S2048x2048_S512x2048_1_1_0_0_n_n.lhsIdx_val_of_single rfl j q
/-- The right operand's row is the result's column. -/
theorem prod_rhs_row (j : S512x2048.Idx) (q : dot_S512x2048_S2048x2048_S512x2048_1_1_0_0_n_n.contr.Idx) :
    (dot_S512x2048_S2048x2048_S512x2048_1_1_0_0_n_n.rhsIdx j q 0).val = (j 1).val := by
  unfold DotDims.rhsIdx
  rw [dif_neg (show ¬(0 : Fin S2048x2048.rank) ∈ dot_S512x2048_S2048x2048_S512x2048_1_1_0_0_n_n.rhsBatch by decide), dif_pos (show (0 : Fin S2048x2048.rank) ∈ dot_S512x2048_S2048x2048_S512x2048_1_1_0_0_n_n.rhsNonContracting by decide)]
  rfl
/-- The right operand's feature is the summation index. -/
theorem prod_rhs_feature (j : S512x2048.Idx) (q : dot_S512x2048_S2048x2048_S512x2048_1_1_0_0_n_n.contr.Idx) :
    (dot_S512x2048_S2048x2048_S512x2048_1_1_0_0_n_n.rhsIdx j q 1).val = (q ⟨0, by decide⟩).val :=
  dot_S512x2048_S2048x2048_S512x2048_1_1_0_0_n_n.rhsIdx_val_of_single rfl j q

/-- The product of a 512 × 2048 block with a 2048 × 2048 matrix into the zero accumulator, at (p, o): row p of the block
    against row o of the matrix. -/
theorem prod_apply (a : FVec Ideal S512x2048 .bf16) (b : FVec Ideal S2048x2048 .bf16) (p : Fin 512) (o : Fin 2048) :
    matmul dot_S512x2048_S2048x2048_S512x2048_1_1_0_0_n_n none a b (constant (F := Ideal) S512x2048 .f32 0x00000000#32) (ix2 p o)
      = ∑ k : Fin 2048, a (ix2 p k) * b (ix2 o k) := by
  show FloatOps.matmul dot_S512x2048_S2048x2048_S512x2048_1_1_0_0_n_n none a b (constant (F := Ideal) S512x2048 .f32 0x00000000#32) (ix2 p o) = _
  rw [Ideal.matmul_constant_zero_apply, ← Equiv.sum_comp (contrEquiv1 dot_S512x2048_S2048x2048_S512x2048_1_1_0_0_n_n 2048 rfl rfl).symm]
  refine Finset.sum_congr rfl fun k _ => ?_
  have hk := contrEquiv1_symm_val dot_S512x2048_S2048x2048_S512x2048_1_1_0_0_n_n 2048 rfl rfl k
  have el : dot_S512x2048_S2048x2048_S512x2048_1_1_0_0_n_n.lhsIdx (ix2 p o) ((contrEquiv1 dot_S512x2048_S2048x2048_S512x2048_1_1_0_0_n_n 2048 rfl rfl).symm k) = ix2 p k := funext fun ax => Fin.ext (by
    match ax with
    | ⟨0, _⟩ => exact prod_lhs_row _ _
    | ⟨1, _⟩ => exact (prod_lhs_feature _ _).trans hk)
  have er : dot_S512x2048_S2048x2048_S512x2048_1_1_0_0_n_n.rhsIdx (ix2 p o) ((contrEquiv1 dot_S512x2048_S2048x2048_S512x2048_1_1_0_0_n_n 2048 rfl rfl).symm k) = ix2 o k := funext fun ax => Fin.ext (by
    match ax with
    | ⟨0, _⟩ => exact prod_rhs_row _ _
    | ⟨1, _⟩ => exact (prod_rhs_feature _ _).trans hk)
  rw [el, er]

/-! ## The body's payload at an index -/

/-- The payload of the body, from a block `x0` of `x` and the matrix `x1`, at (p, o): row p of `x0` against row o of `x1`. -/
theorem pay0_apply (x0 : Vec Ideal S512x2048 .bf16) (x1 : Vec Ideal S2048x2048 .bf16) (p : Fin 512) (o : Fin 2048) :
    k0_pay1 x0 x1 (ix2 p o) = ∑ k : Fin 2048, x0 (ix2 p k) * x1 (ix2 o k) := by
  unfold k0_pay1
  simp only [shapeCast_self]
  exact prod_apply x0 x1 p o

/-- The same at any index of the block. -/
theorem pay0_at (x0 : Vec Ideal S512x2048 .bf16) (x1 : Vec Ideal S2048x2048 .bf16) (j : S512x2048.Idx) :
    k0_pay1 x0 x1 j = ∑ k : Fin 2048, x0 (ix2 (j 0) k) * x1 (ix2 (j 1) k) := by
  obtain ⟨p, o, rfl⟩ : ∃ (p : Fin 512) (o : Fin 2048), j = ix2 p o := ⟨j 0, j 1, eq_ix2 j⟩
  exact pay0_apply x0 x1 p o

/-! ## From the blocks to the array -/

theorem zero_offsets0 : (![0, 0] : Fin 2 → Nat) = fun _ => 0 := funext fun a => by fin_cases a <;> rfl

/-- The block indices, decided over the eight points: the block of `x` moves with the output's block down the rows, the
    matrix `w` stays whole, and the output's row block is within the eight. -/
theorem blockIdx0 : ∀ t : Fin cfg0.N, win0_0.index t (0 : Fin 2) = win0_2.index t (0 : Fin 2) + 0
    ∧ win0_0.index t (1 : Fin 2) = 0
    ∧ win0_1.index t (0 : Fin 2) = 0
    ∧ win0_1.index t (1 : Fin 2) = 0
    ∧ win0_2.index t (0 : Fin 2) ≤ 7
    ∧ win0_2.index t (1 : Fin 2) = 0 :=
  (by decide +kernel : ∀ t : Fin grid0.N, _)

/-- Every one of the eight row blocks is some point's. -/
theorem blockOnto0 : ∀ (q0 : Fin 8), ∃ t : Fin cfg0.N, win0_2.index t = ![q0.val, 0] :=
  (by decide +kernel : ∀ (q0 : Fin 8), ∃ t : Fin grid0.N, win0_2.index t = ![q0.val, 0])

/-- What point `t` writes back is block `t` of the product of the two arrays as the region finds them. -/
theorem flushed0_eq (c : Dev nD) (t : Fin cfg0.N) :
    (dat0 (F := Ideal) V c).flushed 2 t = ((cfg0.win 2).blk t).view.read (Elt Ideal) (Hebb.mmT (V c main_v0) (V c main_v1)) := by
  show (cfg0.win 2).cut (grid0.coords t) ((dat0 (F := Ideal) V c).after 2 t) = _
  rw [after0_2]
  unfold out0_2
  rw [View.canon_unit_zero zero_offsets0]
  simp only [View.ld_unit_zero (S := S512x2048) zero_offsets0, View.ld_unit_zero (S := S2048x2048) zero_offsets0]
  obtain ⟨e0, e1, e2, e3, e4, e5⟩ := blockIdx0 t
  funext j
  refine (pay0_at (iblk0 V c 0 t) (iblk0 V c 1 t) j).trans ?_
  show _ = Hebb.mmT (V c main_v0) (V c main_v1) (((cfg0.win 2).blk t).view.emb j)
  simp only [Hebb.mmT]
  refine Finset.sum_congr rfl fun k _ => ?_
  have hx : iblk0 V c 0 t (ix2 (j 0) k) = (V c main_v0 : S4096x2048.Idx → EReal) (ix2 ((((cfg0.win 2).blk t).view.emb j) 0) k) := by
    show (V c main_v0 : S4096x2048.Idx → EReal) (((cfg0.win 0).blk t).view.emb (ix2 (j 0) k)) = _
    congr 1
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 2048 + 1 * k.val = k.val; omega
  have hw : iblk0 V c 1 t (ix2 (j 1) k) = (V c main_v1 : S2048x2048.Idx → EReal) (ix2 ((((cfg0.win 2).blk t).view.emb j) 1) k) := by
    show (V c main_v1 : S2048x2048.Idx → EReal) (((cfg0.win 1).blk t).view.emb (ix2 (j 1) k)) = _
    congr 1
    funext a; apply Fin.ext
    match a with
    | ⟨0, _⟩ => show win0_1.index t (0 : Fin 2) * 2048 + 1 * (j 1).val = win0_2.index t (1 : Fin 2) * 2048 + 1 * (j 1).val; omega
    | ⟨1, _⟩ => show win0_1.index t (1 : Fin 2) * 2048 + 1 * k.val = k.val; omega
  rw [hx, hw]

/-- An index of the array is in point `t`'s block iff each coordinate is in the block's range on its axis. -/
theorem mem_outBlock0 (t : Fin cfg0.N) (i : S4096x2048.Idx) :
    i ∈ ((cfg0.win 2).blk t).view.set ↔ ∀ a : Fin 2, win0_2.index t a * S512x2048.size a ≤ (i a).val ∧ (i a).val < win0_2.index t a * S512x2048.size a + S512x2048.size a := by
  show i ∈ ((View.whole main_v2).slice (win0_2.rect t)).set ↔ _
  rw [View.set_slice_whole, Rect.mem_set_unit]
  exact Iff.rfl

/-- The eight blocks tile the array: row r is in the block of the point whose row block is r / 512. -/
theorem covered0 (i : S4096x2048.Idx) :
    ∃ t : Fin cfg0.N, (cfg0.win 2).flush t = true ∧ i ∈ ((cfg0.win 2).blk t).view.set := by
  have hi0 : (i 0).val < 4096 := (i 0).isLt
  have hi1 : (i 1).val < 2048 := (i 1).isLt
  obtain ⟨t, ht⟩ := blockOnto0 ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_outBlock0]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 2048 ≤ (i 1).val ∧ (i 1).val < win0_2.index t (1 : Fin 2) * 2048 + 2048; omega

/-- The output array after the region: the product `x · wᵀ` of the two arrays as the region finds them. -/
theorem final0 (c : Dev nD) : (dat0 (F := Ideal) V c).arrAt 2 cfg0.N = Hebb.mmT (V c main_v0) (V c main_v1) :=
  (dat0 (F := Ideal) V c).arrAt_eq_of_cover 2 (Hebb.mmT (V c main_v0) (V c main_v1)) (fun t _ => flushed0_eq V c t) covered0

end Cert.KernelIdeal.Hand

end
-- ==== Proof.KI.Reg1Pieces.lean ====
/-
  The pieces the Gram region's runs found, as the body's arithmetic: at a first block the running sum is left at the
  product added onto zeros; at a later block at the product added onto what the point before left; at a last block
  the output's buffer is left at the running sum.
-/
import proofs.«109148_j43121471652136_1_alg».proof.Proof.Gen.KernelIdeal.Launch
import proofs.«109148_j43121471652136_1_alg».proof.Proof.Gen.KernelIdeal.Skeleton
import proofs.«109148_j43121471652136_1_alg».proof.Proof.Gen.KernelIdeal.Points
import proofs.«109148_j43121471652136_1_alg».proof.Proof.KI.Reg1Outs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-buffer rectangle's offsets, as the body spells them, are zero on both axes. -/
theorem zeroOffsets1 : (![0, 0] : Fin 2 → Nat) = fun _ => 0 := funext fun a => by fin_cases a <;> rfl

/-- First block: zeros, then the product added. -/
theorem sout1_A_0_eq (c : Dev nD) (i : grid1.Coords) (arg2 : Memref sig .tc .vmem S512x256 .f32) (harg2 : arg2.IsWhole) (arg3 : Memref sig .tc .vmem S512x2048 .bf16) (harg3 : arg3.IsWhole) (arg4 : Memref sig .tc .vmem S256x2048 .f32) (harg4 : arg4.IsWhole) (arg5 : Memref sig .tc .vmem S256x2048 .f32) (harg5 : arg5.IsWhole) (hc0 : cond1_0 i) (hc1 : ¬cond1_1 i) (x0 : Vec F S512x256 .f32) (x1 : Vec F S512x2048 .bf16) :
    sout1_A_0 c i arg2 harg2 arg3 harg3 arg4 harg4 arg5 harg5 hc0 hc1 x0 x1 = k1_pay2 x0 x1 (k1_pay1 (F := F)) := by
  unfold sout1_A_0
  rw [View.read_writes_eq_canon _ _ _ (scover1_A_0 c i arg2 harg2 arg3 harg3 arg4 harg4 arg5 harg5 hc0 hc1 x0 x1)]
  unfold kernelRun1_A
  dsimp only
  try sl_unfold_words
  -- two stores over the whole buffer: the later one (the update) is what is left; it read the zeros the earlier one left
  rw [View.canon_cons_unit_zero (S := S256x2048) zeroOffsets1]
  simp only [View.readAt_eq_ld, harg2.read_unread, harg3.read_unread, View.readCov_unit_zero (S := S256x2048) _ zeroOffsets1,
    View.ld_unit_zero (S := S512x256) zeroOffsets1, View.ld_unit_zero (S := S512x2048) zeroOffsets1]

/-- Middle block: the product added onto what the point before left. -/
theorem sout1_B_0_eq (c : Dev nD) (i : grid1.Coords) (arg2 : Memref sig .tc .vmem S512x256 .f32) (harg2 : arg2.IsWhole) (arg3 : Memref sig .tc .vmem S512x2048 .bf16) (harg3 : arg3.IsWhole) (arg4 : Memref sig .tc .vmem S256x2048 .f32) (harg4 : arg4.IsWhole) (arg5 : Memref sig .tc .vmem S256x2048 .f32) (harg5 : arg5.IsWhole) (hc0 : ¬cond1_0 i) (hc1 : ¬cond1_1 i) (x0 : Vec F S512x256 .f32) (x1 : Vec F S512x2048 .bf16) (xs0 : Vec F S256x2048 .f32) :
    sout1_B_0 c i arg2 harg2 arg3 harg3 arg4 harg4 arg5 harg5 hc0 hc1 x0 x1 xs0 = k1_pay2 x0 x1 xs0 := by
  unfold sout1_B_0
  rw [View.read_writes_eq_canon _ _ _ (scover1_B_0 c i arg2 harg2 arg3 harg3 arg4 harg4 arg5 harg5 hc0 hc1 x0 x1 xs0)]
  unfold kernelRun1_B
  dsimp only
  try sl_unfold_words
  -- one store over the whole buffer: its payload, over the three loads of whole buffers
  rw [View.canon_unit_zero (S := S256x2048) zeroOffsets1]
  simp only [View.readAt_eq_ld, harg2.read_unread, harg3.read_unread, harg5.read_unread,
    View.ld_unit_zero (S := S512x256) zeroOffsets1, View.ld_unit_zero (S := S512x2048) zeroOffsets1, View.ld_unit_zero (S := S256x2048) zeroOffsets1]

/-- Last block: the same sum in the running sum's buffer, -/
theorem sout1_C_0_eq (c : Dev nD) (i : grid1.Coords) (arg2 : Memref sig .tc .vmem S512x256 .f32) (harg2 : arg2.IsWhole) (arg3 : Memref sig .tc .vmem S512x2048 .bf16) (harg3 : arg3.IsWhole) (arg4 : Memref sig .tc .vmem S256x2048 .f32) (harg4 : arg4.IsWhole) (arg5 : Memref sig .tc .vmem S256x2048 .f32) (harg5 : arg5.IsWhole) (hc0 : ¬cond1_0 i) (hc1 : cond1_1 i) (x0 : Vec F S512x256 .f32) (x1 : Vec F S512x2048 .bf16) (xs0 : Vec F S256x2048 .f32) :
    sout1_C_0 c i arg2 harg2 arg3 harg3 arg4 harg4 arg5 harg5 hc0 hc1 x0 x1 xs0 = k1_pay2 x0 x1 xs0 := by
  unfold sout1_C_0
  rw [View.read_writes_eq_canon _ _ _ (scover1_C_0 c i arg2 harg2 arg3 harg3 arg4 harg4 arg5 harg5 hc0 hc1 x0 x1 xs0)]
  unfold kernelRun1_C
  dsimp only
  try sl_unfold_words
  rw [View.canon_unit_zero (S := S256x2048) zeroOffsets1]
  simp only [View.readAt_eq_ld, harg2.read_unread, harg3.read_unread, harg5.read_unread,
    View.ld_unit_zero (S := S512x256) zeroOffsets1, View.ld_unit_zero (S := S512x2048) zeroOffsets1, View.ld_unit_zero (S := S256x2048) zeroOffsets1]

/-- and copied to the output's buffer. -/
theorem out1_C_2_eq (c : Dev nD) (i : grid1.Coords) (arg2 : Memref sig .tc .vmem S512x256 .f32) (harg2 : arg2.IsWhole) (arg3 : Memref sig .tc .vmem S512x2048 .bf16) (harg3 : arg3.IsWhole) (arg4 : Memref sig .tc .vmem S256x2048 .f32) (harg4 : arg4.IsWhole) (arg5 : Memref sig .tc .vmem S256x2048 .f32) (harg5 : arg5.IsWhole) (hc0 : ¬cond1_0 i) (hc1 : cond1_1 i) (x0 : Vec F S512x256 .f32) (x1 : Vec F S512x2048 .bf16) (xs0 : Vec F S256x2048 .f32) :
    out1_C_2 c i arg2 harg2 arg3 harg3 arg4 harg4 arg5 harg5 hc0 hc1 x0 x1 xs0 = k1_pay2 x0 x1 xs0 := by
  unfold out1_C_2
  rw [View.read_writes_eq_canon _ _ _ (cover1_C_2 c i arg2 harg2 arg3 harg3 arg4 harg4 arg5 harg5 hc0 hc1 x0 x1 xs0)]
  unfold kernelRun1_C
  dsimp only
  try sl_unfold_words
  -- the one store into the output's buffer carries the load of the running sum after its one store: that store's payload
  rw [View.canon_unit_zero (S := S256x2048) zeroOffsets1, View.readCov_unit_zero (S := S256x2048) _ zeroOffsets1]
  simp only [View.readAt_eq_ld, harg2.read_unread, harg3.read_unread, harg5.read_unread,
    View.ld_unit_zero (S := S512x256) zeroOffsets1, View.ld_unit_zero (S := S512x2048) zeroOffsets1, View.ld_unit_zero (S := S256x2048) zeroOffsets1]

end Cert.KernelIdeal.Hand

end
-- ==== Proof.KI.Reg1Sum.lean ====
/-
  The running sum of the Gram region, point by point, as the body's arithmetic over the point's blocks: restarted
  from zeros at every first batch block, the product added at every point, and copied out at every last batch block.
-/
import proofs.«109148_j43121471652136_1_alg».proof.Proof.Gen.KernelIdeal.Launch
import proofs.«109148_j43121471652136_1_alg».proof.Proof.Gen.KernelIdeal.Skeleton
import proofs.«109148_j43121471652136_1_alg».proof.Proof.Gen.KernelIdeal.Points
import proofs.«109148_j43121471652136_1_alg».proof.Proof.KI.Reg1
import proofs.«109148_j43121471652136_1_alg».proof.Proof.KI.Reg1Pieces
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- At a first batch block the running sum is the point's product added onto zeros. -/
theorem sc1_reset (c : Dev nD) (t : Fin cfg1.N) (h : t.val % 8 = 0) :
    (outsAt1 V c t.val t.isLt).2 = k1_pay2 (iblk1 V c 0 t) (iblk1 V c 1 t) (k1_pay1 (F := F)) := by
  have h1 : ¬t.val % 8 = 7 := by omega
  rw [outsAt1_A V c t h h1]
  unfold resetAt1; dsimp only
  exact sout1_A_0_eq c _ _ _ _ _ _ _ _ _ _ _ _ _

/-- At any other point it is the point's product added onto what the point before left. -/
theorem sc1_step (c : Dev nD) (t : Fin cfg1.N) (h : t.val % 8 ≠ 0) :
    (outsAt1 V c t.val t.isLt).2 = k1_pay2 (iblk1 V c 0 t) (iblk1 V c 1 t)
      (outsAt1 V c (t.val - 1) (Nat.lt_of_le_of_lt (Nat.sub_le _ _) t.isLt)).2 := by
  by_cases h1 : t.val % 8 = 7
  · -- a last batch block: the sum is taken before the copy
    rw [outsAt1_C V c t h h1]
    unfold flushAt1; dsimp only
    exact sout1_C_0_eq c _ _ _ _ _ _ _ _ _ _ _ _ _ _
  · -- a middle batch block
    rw [outsAt1_B V c t h h1]
    unfold stepAt1; dsimp only
    exact sout1_B_0_eq c _ _ _ _ _ _ _ _ _ _ _ _ _ _

/-- At a last batch block the output's buffer is left at the running sum. -/
theorem out1_flush (c : Dev nD) (t : Fin cfg1.N) (h : t.val % 8 = 7) :
    (outsAt1 V c t.val t.isLt).1 = (outsAt1 V c t.val t.isLt).2 := by
  have h0 : ¬t.val % 8 = 0 := by omega
  rw [outsAt1_C V c t h0 h]
  unfold flushAt1; dsimp only
  exact (out1_C_2_eq c _ _ _ _ _ _ _ _ _ _ _ _ _ _).trans (sout1_C_0_eq c _ _ _ _ _ _ _ _ _ _ _ _ _ _).symm

end Cert.KernelIdeal.Hand

end
-- ==== Proof.KI.Val1.lean ====
/-
  The value of the Gram region at the extended reals: after the region its output array is `yᵀ·x`, entry (i, q) the sum over
  the 4096 batch rows `s` of `y (s, i) · x (s, q)`. The grid's point `8·o + b` adds, onto a running sum restarted from zeros
  at `b = 0`, the 512 batch rows of block `b` for the 256 output rows of block `o`; so after `b = 7` the running sum has
  taken the eight blocks of 512 rows, which are the whole batch, and that is what the point writes back over output rows
  `256·o … 256·o + 255`; the eight blocks written back tile the 2048 rows. Addition of extended reals is commutative and
  associative, so the sums are split and joined with no finiteness assumed.
-/
import proofs.«109148_j43121471652136_1_alg».proof.Proof.Gen.KernelIdeal.Launch
import proofs.«109148_j43121471652136_1_alg».proof.Proof.Gen.KernelIdeal.Skeleton
import proofs.«109148_j43121471652136_1_alg».proof.Proof.Gen.KernelIdeal.Points
import proofs.«109148_j43121471652136_1_alg».proof.Proof.KI.Reg1Sum
import proofs.«109148_j43121471652136_1_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Ring
import Idealize.ShloMosaic.Lib.Tactic
import Mathlib.Algebra.BigOperators.Fin
import Mathlib.Algebra.BigOperators.Intervals

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

/-! ## One point's arithmetic, entry by entry -/

/-- The Gram product's left operand is read at (contraction index, output row): its axis 0 is contracted, -/
theorem gramDot_lhs_0 (i : S256x2048.Idx) (k : dot_S512x256_S512x2048_S256x2048_0_0_1_1_n_n.contr.Idx) :
    (dot_S512x256_S512x2048_S256x2048_0_0_1_1_n_n.lhsIdx i k 0).val = (k ⟨0, by decide⟩).val :=
  dot_S512x256_S512x2048_S256x2048_0_0_1_1_n_n.lhsIdx_val_of_single rfl i k
/-- and its axis 1 is the output's axis 0. -/
theorem gramDot_lhs_1 (i : S256x2048.Idx) (k : dot_S512x256_S512x2048_S256x2048_0_0_1_1_n_n.contr.Idx) :
    (dot_S512x256_S512x2048_S256x2048_0_0_1_1_n_n.lhsIdx i k 1).val = (i 0).val := by
  unfold DotDims.lhsIdx
  rw [dif_neg (show ¬(1 : Fin S512x256.rank) ∈ dot_S512x256_S512x2048_S256x2048_0_0_1_1_n_n.lhsBatch by decide), dif_pos (show (1 : Fin S512x256.rank) ∈ dot_S512x256_S512x2048_S256x2048_0_0_1_1_n_n.lhsNonContracting by decide)]
  rfl
/-- The right operand is read at (contraction index, output column): its axis 0 is contracted, -/
theorem gramDot_rhs_0 (i : S256x2048.Idx) (k : dot_S512x256_S512x2048_S256x2048_0_0_1_1_n_n.contr.Idx) :
    (dot_S512x256_S512x2048_S256x2048_0_0_1_1_n_n.rhsIdx i k 0).val = (k ⟨0, by decide⟩).val :=
  dot_S512x256_S512x2048_S256x2048_0_0_1_1_n_n.rhsIdx_val_of_single rfl i k
/-- and its axis 1 is the output's axis 1. -/
theorem gramDot_rhs_1 (i : S256x2048.Idx) (k : dot_S512x256_S512x2048_S256x2048_0_0_1_1_n_n.contr.Idx) :
    (dot_S512x256_S512x2048_S256x2048_0_0_1_1_n_n.rhsIdx i k 1).val = (i 1).val := by
  unfold DotDims.rhsIdx
  rw [dif_neg (show ¬(1 : Fin S512x2048.rank) ∈ dot_S512x256_S512x2048_S256x2048_0_0_1_1_n_n.rhsBatch by decide), dif_pos (show (1 : Fin S512x2048.rank) ∈ dot_S512x256_S512x2048_S256x2048_0_0_1_1_n_n.rhsNonContracting by decide)]
  rfl

/-- The zeros a first batch block restarts from. -/
theorem restart_apply (i : S256x2048.Idx) : k1_pay1 (F := Ideal) i = 0 := by
  unfold k1_pay1
  rw [shapeCast_self]
  exact Ideal.ofBits_zero_f32

/-- What a point adds: onto the running sum `acc`, at entry (p, q), the 512 rows of the point's two blocks
    multiplied column `p` of the first against column `q` of the second. -/
theorem addBlock_apply (yb : Vec Ideal S512x256 .f32) (xb : Vec Ideal S512x2048 .bf16) (acc : Vec Ideal S256x2048 .f32)
    (p : Fin 256) (q : Fin 2048) :
    k1_pay2 yb xb acc (ix2 p q) = acc (ix2 p q) + ∑ r : Fin 512, yb (ix2 r p) * xb (ix2 r q) := by
  unfold k1_pay2
  simp only [shapeCast_self, matmul]
  rw [addf_apply, Ideal.matmul_constant_zero_apply,
    ← Equiv.sum_comp (contrEquiv1 dot_S512x256_S512x2048_S256x2048_0_0_1_1_n_n 512 rfl rfl).symm]
  refine congrArg (acc (ix2 p q) + ·) (Finset.sum_congr rfl fun r _ => ?_)
  have hr := contrEquiv1_symm_val dot_S512x256_S512x2048_S256x2048_0_0_1_1_n_n 512 rfl rfl r
  have el : dot_S512x256_S512x2048_S256x2048_0_0_1_1_n_n.lhsIdx (ix2 p q) ((contrEquiv1 dot_S512x256_S512x2048_S256x2048_0_0_1_1_n_n 512 rfl rfl).symm r) = ix2 r p := funext fun a => Fin.ext (by
    match a with
    | ⟨0, _⟩ => exact (gramDot_lhs_0 _ _).trans hr
    | ⟨1, _⟩ => exact gramDot_lhs_1 _ _)
  have er : dot_S512x256_S512x2048_S256x2048_0_0_1_1_n_n.rhsIdx (ix2 p q) ((contrEquiv1 dot_S512x256_S512x2048_S256x2048_0_0_1_1_n_n 512 rfl rfl).symm r) = ix2 r q := funext fun a => Fin.ext (by
    match a with
    | ⟨0, _⟩ => exact (gramDot_rhs_0 _ _).trans hr
    | ⟨1, _⟩ => exact gramDot_rhs_1 _ _)
  rw [el, er, truncf_apply]

/-! ## The point's blocks, read off the arrays -/

variable (V : (c : Dev nD) → (b : Ref sig .tc) → Buf (Elt Ideal) ((c : Thread nD τ).loc b))

/-- Where the three windows' blocks sit at point `t = 8·o + b`: the block of `y` at (b, o), the block of `x` at
    (b, 0), the output's block at (o, 0). Decided over the grid. -/
theorem gramIdx : ∀ t : Fin cfg1.N,
    win1_0.index t (0 : Fin 2) = t.val % 8 ∧ win1_0.index t (1 : Fin 2) = t.val / 8
    ∧ win1_1.index t (0 : Fin 2) = t.val % 8 ∧ win1_1.index t (1 : Fin 2) = 0
    ∧ win1_2.index t (0 : Fin 2) = t.val / 8 ∧ win1_2.index t (1 : Fin 2) = 0 :=
  (by decide +kernel : ∀ t : Fin grid1.N,
    win1_0.index t (0 : Fin 2) = t.val % 8 ∧ win1_0.index t (1 : Fin 2) = t.val / 8
    ∧ win1_1.index t (0 : Fin 2) = t.val % 8 ∧ win1_1.index t (1 : Fin 2) = 0
    ∧ win1_2.index t (0 : Fin 2) = t.val / 8 ∧ win1_2.index t (1 : Fin 2) = 0)

/-- Entry (r, p) of the point's block of `y` is `y` at batch row `512·b + r`, column `256·o + p`. -/
theorem yBlock_apply (c : Dev nD) (t : Fin cfg1.N) (r : Fin 512) (p : Fin 256)
    (hr : 512 * (t.val % 8) + r.val < 4096) (hp : 256 * (t.val / 8) + p.val < 2048) :
    iblk1 V c 0 t (ix2 r p) = V c main_v2 (ix2 ⟨512 * (t.val % 8) + r.val, hr⟩ ⟨256 * (t.val / 8) + p.val, hp⟩) := by
  obtain ⟨e0, e1, -⟩ := gramIdx t
  show V c main_v2 (((cfg1.win 0).blk t).view.emb (ix2 r p)) = _
  refine congrArg (V c main_v2) (funext fun a => Fin.ext ?_)
  match a with
  | ⟨0, _⟩ => show win1_0.index t (0 : Fin 2) * 512 + 1 * r.val = 512 * (t.val % 8) + r.val; omega
  | ⟨1, _⟩ => show win1_0.index t (1 : Fin 2) * 256 + 1 * p.val = 256 * (t.val / 8) + p.val; omega

/-- Entry (r, q) of the point's block of `x` is `x` at batch row `512·b + r`, column `q`. -/
theorem xBlock_apply (c : Dev nD) (t : Fin cfg1.N) (r : Fin 512) (q : Fin 2048)
    (hr : 512 * (t.val % 8) + r.val < 4096) (hq : q.val < 2048) :
    iblk1 V c 1 t (ix2 r q) = V c main_v0 (ix2 ⟨512 * (t.val % 8) + r.val, hr⟩ ⟨q.val, hq⟩) := by
  obtain ⟨-, -, e2, e3, -⟩ := gramIdx t
  show V c main_v0 (((cfg1.win 1).blk t).view.emb (ix2 r q)) = _
  refine congrArg (V c main_v0) (funext fun a => Fin.ext ?_)
  match a with
  | ⟨0, _⟩ => show win1_1.index t (0 : Fin 2) * 512 + 1 * r.val = 512 * (t.val % 8) + r.val; omega
  | ⟨1, _⟩ => show win1_1.index t (1 : Fin 2) * 2048 + 1 * q.val = q.val; omega

/-! ## The batch sum, row by row -/

/-- Batch row `s`'s term of entry (i, q) of `yᵀ·x`: `y (s, i) · x (s, q)`, and zero off the arrays. -/
def gramTerm (Y X : Hebb.SBI.Idx → EReal) (i q s : ℕ) : EReal :=
  if h : s < 4096 ∧ i < 2048 ∧ q < 2048 then Y (ix2 ⟨s, h.1⟩ ⟨i, h.2.1⟩) * X (ix2 ⟨s, h.1⟩ ⟨q, h.2.2⟩) else 0

/-- `yᵀ·x` at an entry is the sum of the 4096 rows' terms. -/
theorem gram_eq_range (Y X : Hebb.SBI.Idx → EReal) (i : Hebb.SOI.Idx) :
    Hebb.gram Y X i = ∑ s ∈ Finset.range 4096, gramTerm Y X (i 0).val (i 1).val s := by
  rw [← Fin.sum_univ_eq_sum_range (fun s => gramTerm Y X (i 0).val (i 1).val s) 4096]
  refine Finset.sum_congr rfl fun b _ => ?_
  unfold gramTerm
  rw [dif_pos ⟨b.isLt, (i 0).isLt, (i 1).isLt⟩]
  rfl

/-- What point `t = 8·o + b` adds onto a running sum `acc` at entry (p, q) of its block: the terms of batch rows
    `512·b … 512·b + 511` of entry (256·o + p, q). -/
theorem pointAdds (c : Dev nD) (t : Fin cfg1.N) (acc : Vec Ideal S256x2048 .f32) (p : Fin 256) (q : Fin 2048) :
    k1_pay2 (iblk1 V c 0 t) (iblk1 V c 1 t) acc (ix2 p q)
      = acc (ix2 p q) + ∑ r ∈ Finset.range 512,
          gramTerm (V c main_v2) (V c main_v0) (256 * (t.val / 8) + p.val) q.val (512 * (t.val % 8) + r) := by
  have hN : t.val < 64 := lt_of_lt_of_eq t.isLt (show cfg1.N = 64 from N_1)
  refine (addBlock_apply (iblk1 V c 0 t) (iblk1 V c 1 t) acc p q).trans ?_
  rw [← Fin.sum_univ_eq_sum_range (fun r => gramTerm (V c main_v2) (V c main_v0) (256 * (t.val / 8) + p.val) q.val (512 * (t.val % 8) + r)) 512]
  refine congrArg (acc (ix2 p q) + ·) (Finset.sum_congr rfl fun r _ => ?_)
  have hr : 512 * (t.val % 8) + r.val < 4096 := by have := r.isLt; omega
  have hp : 256 * (t.val / 8) + p.val < 2048 := by have := p.isLt; omega
  rw [yBlock_apply V c t r p hr hp, xBlock_apply V c t r q hr q.isLt]
  unfold gramTerm
  rw [dif_pos ⟨hr, hp, q.isLt⟩]

/-! ## The running sum -/

/-- After point `n = 8·o + b` the running sum holds, at entry (p, q), the terms of batch rows `0 … 512·(b + 1) − 1` of
    entry (256·o + p, q): by induction on the point, restarted from zero at `b = 0`, the point's 512 rows added after
    what the point before left otherwise. -/
theorem runningSum (c : Dev nD) (p : Fin 256) (q : Fin 2048) : ∀ (n : ℕ) (h : n < cfg1.N),
    (outsAt1 (F := Ideal) V c n h).2 (ix2 p q)
      = ∑ s ∈ Finset.range (512 * (n % 8 + 1)), gramTerm (V c main_v2) (V c main_v0) (256 * (n / 8) + p.val) q.val s
  | 0, h => by
    refine (congrFun (sc1_reset V c ⟨0, h⟩ rfl) (ix2 p q)).trans ?_
    rw [pointAdds V c ⟨0, h⟩, restart_apply, zero_add]
    show ∑ r ∈ Finset.range 512, gramTerm _ _ (256 * (0 / 8) + p.val) q.val (512 * (0 % 8) + r)
      = ∑ s ∈ Finset.range (512 * (0 % 8 + 1)), gramTerm _ _ (256 * (0 / 8) + p.val) q.val s
    rw [show 512 * (0 % 8 + 1) = 512 by omega]
    exact Finset.sum_congr rfl fun r _ => congrArg (gramTerm _ _ _ _) (by omega)
  | n + 1, h => by
    by_cases h0 : (n + 1) % 8 = 0
    · refine (congrFun (sc1_reset V c ⟨n + 1, h⟩ h0) (ix2 p q)).trans ?_
      rw [pointAdds V c ⟨n + 1, h⟩, restart_apply, zero_add]
      show ∑ r ∈ Finset.range 512, gramTerm _ _ (256 * ((n + 1) / 8) + p.val) q.val (512 * ((n + 1) % 8) + r)
        = ∑ s ∈ Finset.range (512 * ((n + 1) % 8 + 1)), gramTerm _ _ (256 * ((n + 1) / 8) + p.val) q.val s
      rw [show 512 * ((n + 1) % 8 + 1) = 512 by omega]
      exact Finset.sum_congr rfl fun r _ => congrArg (gramTerm _ _ _ _) (by omega)
    · refine (congrFun (sc1_step V c ⟨n + 1, h⟩ h0) (ix2 p q)).trans ?_
      rw [pointAdds V c ⟨n + 1, h⟩]
      show (outsAt1 V c n _).2 (ix2 p q)
        + ∑ r ∈ Finset.range 512, gramTerm _ _ (256 * ((n + 1) / 8) + p.val) q.val (512 * ((n + 1) % 8) + r) = _
      rw [runningSum c p q n (Nat.lt_of_succ_lt h)]
      have e1 : (n + 1) / 8 = n / 8 := by omega
      have e2 : (n + 1) % 8 = n % 8 + 1 := by omega
      rw [e1, e2, show 512 * (n % 8 + 1 + 1) = 512 * (n % 8 + 1) + 512 by omega, Finset.sum_range_add]

/-- The same at any entry of the block. -/
theorem runningSum_at (c : Dev nD) (n : ℕ) (h : n < cfg1.N) (k : S256x2048.Idx) :
    (outsAt1 (F := Ideal) V c n h).2 k
      = ∑ s ∈ Finset.range (512 * (n % 8 + 1)), gramTerm (V c main_v2) (V c main_v0) (256 * (n / 8) + (k 0).val) (k 1).val s :=
  (congrArg (outsAt1 (F := Ideal) V c n h).2 (eq_ix2 k)).trans (runningSum V c (k 0) (k 1) n h)

/-! ## From the blocks written back to the array -/

/-- What a last batch block writes back is its block of `yᵀ·x`: the running sum there has taken all eight blocks of 512
    batch rows, which are the whole batch. -/
theorem gramFlushed (c : Dev nD) (t : Fin cfg1.N) (hf : (cfg1.win 2).flush t = true) :
    (dat1 (F := Ideal) V c).flushed 2 t
      = ((cfg1.win 2).blk t).view.read (Elt Ideal) (Hebb.gram (V c main_v2) (V c main_v0)) := by
  have h7 : t.val % 8 = 7 := (flush1_2 t).mp hf
  show (cfg1.win 2).cut (grid1.coords t) ((dat1 V c).after 2 t) = _
  rw [after1_2, out1_flush V c t h7]
  obtain ⟨-, -, -, -, e4, e5⟩ := gramIdx t
  funext j
  show (outsAt1 V c t.val t.isLt).2 ((cfg1.win 2).xinj (grid1.coords t) j)
    = Hebb.gram (V c main_v2) (V c main_v0) (((cfg1.win 2).blk t).view.emb j)
  have a0 : ((((cfg1.win 2).blk t).view.emb j) 0).val = 256 * (t.val / 8) + (((cfg1.win 2).xinj (grid1.coords t) j) 0).val := by
    show win1_2.index t (0 : Fin 2) * 256 + 1 * (j 0).val = 256 * (t.val / 8) + (j 0).val; omega
  have a1 : ((((cfg1.win 2).blk t).view.emb j) 1).val = (((cfg1.win 2).xinj (grid1.coords t) j) 1).val := by
    show win1_2.index t (1 : Fin 2) * 2048 + 1 * (j 1).val = (j 1).val; omega
  rw [runningSum_at V c t.val t.isLt, gram_eq_range, a0, a1, h7]

/-- An entry of the output array is in point `t`'s block iff each coordinate is in the block's range on its axis. -/
theorem gramMem (t : Fin cfg1.N) (i : S2048x2048.Idx) :
    i ∈ ((cfg1.win 2).blk t).view.set ↔ ∀ a : Fin 2, win1_2.index t a * S256x2048.size a ≤ (i a).val ∧ (i a).val < win1_2.index t a * S256x2048.size a + S256x2048.size a := by
  show i ∈ ((View.whole main_v9).slice (win1_2.rect t)).set ↔ _
  rw [View.set_slice_whole, Rect.mem_set_unit]
  exact Iff.rfl

/-- The eight blocks of 256 rows written back tile the 2048 rows: row `i` is in the block written back at the last batch
    block of `o = i / 256`. -/
theorem gramCover (i : S2048x2048.Idx) :
    ∃ t : Fin cfg1.N, (cfg1.win 2).flush t = true ∧ i ∈ ((cfg1.win 2).blk t).view.set := by
  have hi0 : (i 0).val < 2048 := (i 0).isLt
  have hi1 : (i 1).val < 2048 := (i 1).isLt
  have hlt : 8 * ((i 0).val / 256) + 7 < cfg1.N := by rw [show cfg1.N = 64 from N_1]; omega
  refine ⟨⟨8 * ((i 0).val / 256) + 7, hlt⟩, (flush1_2 _).mpr (by show (8 * ((i 0).val / 256) + 7) % 8 = 7; omega), ?_⟩
  rw [gramMem]
  obtain ⟨-, -, -, -, e4, e5⟩ := gramIdx ⟨8 * ((i 0).val / 256) + 7, hlt⟩
  have e4' : win1_2.index ⟨8 * ((i 0).val / 256) + 7, hlt⟩ (0 : Fin 2) = (8 * ((i 0).val / 256) + 7) / 8 := e4
  intro a
  match a with
  | ⟨0, _⟩ =>
    show win1_2.index ⟨8 * ((i 0).val / 256) + 7, hlt⟩ (0 : Fin 2) * 256 ≤ (i 0).val
      ∧ (i 0).val < win1_2.index ⟨8 * ((i 0).val / 256) + 7, hlt⟩ (0 : Fin 2) * 256 + 256
    omega
  | ⟨1, _⟩ =>
    show win1_2.index ⟨8 * ((i 0).val / 256) + 7, hlt⟩ (1 : Fin 2) * 2048 ≤ (i 1).val
      ∧ (i 1).val < win1_2.index ⟨8 * ((i 0).val / 256) + 7, hlt⟩ (1 : Fin 2) * 2048 + 2048
    omega

/-- THE ARRAY after the region: `yᵀ·x`, the batch axis contracted. -/
theorem final1 (c : Dev nD) :
    (dat1 (F := Ideal) V c).arrAt 2 cfg1.N = Hebb.gram (V c main_v2) (V c main_v0) :=
  (dat1 V c).arrAt_eq_of_cover 2 (Hebb.gram (V c main_v2) (V c main_v0)) (fun t hf => gramFlushed V c t hf) gramCover

end Cert.KernelIdeal.Hand

end
-- ==== Proof.KI.Val2.lean ====
/-
  The value of the second matrix product's region over the extended reals: after the region the output array holds
  `out r o = Σ_k x r k · w' o k + bias o`, one function of the arrays as the region finds them.

  The body's payload at entry (p, q) of a block is the block of `x`'s row p against row q of the whole updated weight
  (the product contracts axis 1 of both operands, into a zero accumulator) plus the bias row's entry q. Point t's
  block of `x` is rows 512·t … 512·t + 511 of `x`; the weight and the bias row are fetched whole. So what point t
  writes back is block t of the function above, and the eight blocks tile the 4096 rows: row r is in the block of
  point r / 512.
-/
import proofs.«109148_j43121471652136_1_alg».proof.Proof.KI.Reg2
import proofs.«109148_j43121471652136_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (V : (c : Dev nD) → (b : Ref sig .tc) → Buf (Elt Ideal) ((c : Thread nD τ).loc b))

/-! ## The product at an index -/

/-- The left operand's index keeps the output's row, -/
theorem lhs_rowsT_0 (j : S512x2048.Idx) (q : dot_S512x2048_S2048x2048_S512x2048_1_1_0_0_n_n.contr.Idx) :
    (dot_S512x2048_S2048x2048_S512x2048_1_1_0_0_n_n.lhsIdx j q 0).val = (j 0).val := by
  unfold DotDims.lhsIdx
  rw [dif_neg (show ¬(0 : Fin S512x2048.rank) ∈ dot_S512x2048_S2048x2048_S512x2048_1_1_0_0_n_n.lhsBatch by decide), dif_pos (show (0 : Fin S512x2048.rank) ∈ dot_S512x2048_S2048x2048_S512x2048_1_1_0_0_n_n.lhsNonContracting by decide)]
  rfl
/-- and runs over the contraction on its axis 1. -/
theorem lhs_rowsT_1 (j : S512x2048.Idx) (q : dot_S512x2048_S2048x2048_S512x2048_1_1_0_0_n_n.contr.Idx) :
    (dot_S512x2048_S2048x2048_S512x2048_1_1_0_0_n_n.lhsIdx j q 1).val = (q ⟨0, by decide⟩).val :=
  dot_S512x2048_S2048x2048_S512x2048_1_1_0_0_n_n.lhsIdx_val_of_single rfl j q
/-- The right operand's row is the output's column, -/
theorem rhs_rowsT_0 (j : S512x2048.Idx) (q : dot_S512x2048_S2048x2048_S512x2048_1_1_0_0_n_n.contr.Idx) :
    (dot_S512x2048_S2048x2048_S512x2048_1_1_0_0_n_n.rhsIdx j q 0).val = (j 1).val := by
  unfold DotDims.rhsIdx
  rw [dif_neg (show ¬(0 : Fin S2048x2048.rank) ∈ dot_S512x2048_S2048x2048_S512x2048_1_1_0_0_n_n.rhsBatch by decide), dif_pos (show (0 : Fin S2048x2048.rank) ∈ dot_S512x2048_S2048x2048_S512x2048_1_1_0_0_n_n.rhsNonContracting by decide)]
  rfl
/-- and it too runs over the contraction on its axis 1. -/
theorem rhs_rowsT_1 (j : S512x2048.Idx) (q : dot_S512x2048_S2048x2048_S512x2048_1_1_0_0_n_n.contr.Idx) :
    (dot_S512x2048_S2048x2048_S512x2048_1_1_0_0_n_n.rhsIdx j q 1).val = (q ⟨0, by decide⟩).val :=
  dot_S512x2048_S2048x2048_S512x2048_1_1_0_0_n_n.rhsIdx_val_of_single rfl j q

/-- The block product into a zero accumulator, at entry (p, q): row p of the left operand against row q of the right. -/
theorem rowsT_apply (a : FVec Ideal S512x2048 .bf16) (w : FVec Ideal S2048x2048 .bf16) (p : Fin 512) (q : Fin 2048) :
    matmul dot_S512x2048_S2048x2048_S512x2048_1_1_0_0_n_n none a w (constant (F := Ideal) S512x2048 .f32 0x00000000#32) (ix2 p q)
      = ∑ k : Fin 2048, a (ix2 p k) * w (ix2 q k) := by
  simp only [matmul]
  rw [Ideal.matmul_constant_zero_apply, ← Equiv.sum_comp (contrEquiv1 dot_S512x2048_S2048x2048_S512x2048_1_1_0_0_n_n 2048 rfl rfl).symm]
  refine Finset.sum_congr rfl fun k _ => ?_
  have hk := contrEquiv1_symm_val dot_S512x2048_S2048x2048_S512x2048_1_1_0_0_n_n 2048 rfl rfl k
  have el : dot_S512x2048_S2048x2048_S512x2048_1_1_0_0_n_n.lhsIdx (ix2 p q) ((contrEquiv1 dot_S512x2048_S2048x2048_S512x2048_1_1_0_0_n_n 2048 rfl rfl).symm k) = ix2 p k := funext fun ax => Fin.ext (by
    match ax with
    | ⟨0, _⟩ => exact lhs_rowsT_0 _ _
    | ⟨1, _⟩ => exact (lhs_rowsT_1 _ _).trans hk)
  have er : dot_S512x2048_S2048x2048_S512x2048_1_1_0_0_n_n.rhsIdx (ix2 p q) ((contrEquiv1 dot_S512x2048_S2048x2048_S512x2048_1_1_0_0_n_n 2048 rfl rfl).symm k) = ix2 q k := funext fun ax => Fin.ext (by
    match ax with
    | ⟨0, _⟩ => exact rhs_rowsT_0 _ _
    | ⟨1, _⟩ => exact (rhs_rowsT_1 _ _).trans hk)
  rw [el, er]

/-! ## The payload at an index -/

/-- The body's payload at entry (p, q): the product there plus the bias row's entry q. -/
theorem k2_pay1_apply (x0 : Vec Ideal S512x2048 .bf16) (x1 : Vec Ideal S2048x2048 .bf16) (x2 : Vec Ideal S1x2048 .f32) (p : Fin 512) (q : Fin 2048) :
    k2_pay1 (F := Ideal) x0 x1 x2 (ix2 p q) = (∑ k : Fin 2048, x0 (ix2 p k) * x1 (ix2 q k)) + x2 (ix2 (0 : Fin 1) q) := by
  unfold k2_pay1
  refine (addf_apply _ _ _).trans ?_
  refine congrArg₂ (· + ·) ?_ ?_
  · refine (rowsT_apply _ _ p q).trans ?_
    rw [shapeCast_self, shapeCast_self]
  · refine (broadcastTo_1b_ab_apply _ _ p q).trans ?_
    rw [shapeCast_self]

/-- The payload at any entry of the block. -/
theorem k2_pay1_at (x0 : Vec Ideal S512x2048 .bf16) (x1 : Vec Ideal S2048x2048 .bf16) (x2 : Vec Ideal S1x2048 .f32) (j : S512x2048.Idx) :
    k2_pay1 (F := Ideal) x0 x1 x2 j = (∑ k : Fin 2048, x0 (ix2 (j 0) k) * x1 (ix2 (j 1) k)) + x2 (ix2 (0 : Fin 1) (j 1)) := by
  obtain ⟨p, q, rfl⟩ : ∃ (p : Fin 512) (q : Fin 2048), j = ix2 p q := ⟨j 0, j 1, eq_ix2 j⟩
  exact k2_pay1_apply x0 x1 x2 p q

/-! ## From the blocks to the array -/

/-- The whole-buffer rectangle's offsets, as the body spells them, are zero on both axes. -/
theorem zeroOffsets2 : (![0, 0] : Fin 2 → Nat) = fun _ => 0 := funext fun a => by fin_cases a <;> rfl

/-- The layer's output as one function of the arrays the region finds: `x · w'ᵀ` plus the bias row. -/
abbrev layerOut2 (c : Dev nD) : S4096x2048.Idx → EReal :=
  fun i => Hebb.mmT (V c main_v0) (V c main_v27) i + (V c main_v28 : S1x2048.Idx → EReal) (ix2 (0 : Fin 1) (i 1))

/-- The windows' block indices over the grid: the block of `x` moves with the output's block down the rows, the weight
    and the bias row stay whole, and the output's block index is the point. -/
theorem blockIdx2 : ∀ t : Fin cfg2.N, win2_0.index t (0 : Fin 2) = win2_3.index t (0 : Fin 2) + 0
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) ≤ 7 ∧ win2_3.index t (1 : Fin 2) = 0 :=
  (by decide +kernel : ∀ t : Fin grid2.N, _)

/-- Every block of rows is some point's. -/
theorem blockOnto2 : ∀ (q0 : Fin 8), ∃ t : Fin cfg2.N, win2_3.index t = ![q0.val, 0] :=
  (by decide +kernel : ∀ (q0 : Fin 8), ∃ t : Fin grid2.N, win2_3.index t = ![q0.val, 0])

/-- What point `t` writes back is block `t` of the layer's output. -/
theorem flushed2_eq (c : Dev nD) (t : Fin cfg2.N) :
    (dat2 (F := Ideal) V c).flushed 3 t = ((cfg2.win 3).blk t).view.read (Elt Ideal) (layerOut2 V c) := by
  show (cfg2.win 3).cut (grid2.coords t) ((dat2 (F := Ideal) V c).after 3 t) = _
  rw [after2_3]
  unfold out2_3
  rw [View.canon_unit_zero zeroOffsets2]
  simp only [View.ld_unit_zero (S := S512x2048) zeroOffsets2, View.ld_unit_zero (S := S2048x2048) zeroOffsets2, View.ld_unit_zero (S := S1x2048) zeroOffsets2]
  obtain ⟨e0, e1, e2, e3, e4, e5, e6, e7⟩ := blockIdx2 t
  funext j
  refine (k2_pay1_at (iblk2 V c 0 t) (iblk2 V c 1 t) (iblk2 V c 2 t) j).trans ?_
  show _ = Hebb.mmT (V c main_v0) (V c main_v27) (((cfg2.win 3).blk t).view.emb j)
    + (V c main_v28 : S1x2048.Idx → EReal) (ix2 (0 : Fin 1) ((((cfg2.win 3).blk t).view.emb j) 1))
  simp only [Hebb.mmT]
  -- the bias row, fetched whole: entry (0, q) of the block is entry (0, q) of the row, and q is the output's column
  have hb : iblk2 V c 2 t (ix2 (0 : Fin 1) (j 1)) = (V c main_v28 : S1x2048.Idx → EReal) (ix2 (0 : Fin 1) ((((cfg2.win 3).blk t).view.emb j) 1)) := by
    show (V c main_v28 : S1x2048.Idx → EReal) (((cfg2.win 2).blk t).view.emb (ix2 (0 : Fin 1) (j 1))) = _
    congr 1
    funext a; apply Fin.ext
    match a with
    | ⟨0, _⟩ => show win2_2.index t (0 : Fin 2) * 1 + 1 * 0 = 0; omega
    | ⟨1, _⟩ => show win2_2.index t (1 : Fin 2) * 2048 + 1 * (j 1).val = win2_3.index t (1 : Fin 2) * 2048 + 1 * (j 1).val; omega
  rw [hb]
  refine congrArg (· + _) (Finset.sum_congr rfl fun k _ => ?_)
  -- the block of `x`: row p of the block is row 512·t + p of the array
  have hx : iblk2 V c 0 t (ix2 (j 0) k) = (V c main_v0 : S4096x2048.Idx → EReal) (ix2 ((((cfg2.win 3).blk t).view.emb j) 0) k) := by
    show (V c main_v0 : S4096x2048.Idx → EReal) (((cfg2.win 0).blk t).view.emb (ix2 (j 0) k)) = _
    congr 1
    funext a; apply Fin.ext
    match a with
    | ⟨0, _⟩ => show win2_0.index t (0 : Fin 2) * 512 + 1 * (j 0).val = win2_3.index t (0 : Fin 2) * 512 + 1 * (j 0).val; omega
    | ⟨1, _⟩ => show win2_0.index t (1 : Fin 2) * 2048 + 1 * k.val = k.val; omega
  -- the weight, fetched whole: row q of the block is row q of the array, and q is the output's column
  have hw : iblk2 V c 1 t (ix2 (j 1) k) = (V c main_v27 : S2048x2048.Idx → EReal) (ix2 ((((cfg2.win 3).blk t).view.emb j) 1) k) := by
    show (V c main_v27 : S2048x2048.Idx → EReal) (((cfg2.win 1).blk t).view.emb (ix2 (j 1) k)) = _
    congr 1
    funext a; apply Fin.ext
    match a with
    | ⟨0, _⟩ => show win2_1.index t (0 : Fin 2) * 2048 + 1 * (j 1).val = win2_3.index t (1 : Fin 2) * 2048 + 1 * (j 1).val; omega
    | ⟨1, _⟩ => show win2_1.index t (1 : Fin 2) * 2048 + 1 * k.val = k.val; omega
  rw [hx, hw]

/-- An index of the array is in point `t`'s block iff each coordinate is in the block's range on its axis. -/
theorem mem_outBlock2 (t : Fin cfg2.N) (i : S4096x2048.Idx) :
    i ∈ ((cfg2.win 3).blk t).view.set ↔ ∀ a : Fin 2, win2_3.index t a * S512x2048.size a ≤ (i a).val ∧ (i a).val < win2_3.index t a * S512x2048.size a + S512x2048.size a := by
  show i ∈ ((View.whole main_v29).slice (win2_3.rect t)).set ↔ _
  rw [View.set_slice_whole, Rect.mem_set_unit]
  exact Iff.rfl

/-- The eight blocks of 512 rows tile the array: row r is in the block of point r / 512. -/
theorem covered2 (i : S4096x2048.Idx) :
    ∃ t : Fin cfg2.N, (cfg2.win 3).flush t = true ∧ i ∈ ((cfg2.win 3).blk t).view.set := by
  have hi0 : (i 0).val < 4096 := (i 0).isLt
  have hi1 : (i 1).val < 2048 := (i 1).isLt
  obtain ⟨t, ht⟩ := blockOnto2 ⟨(i 0).val / 512, by omega⟩
  have q0 : win2_3.index t (0 : Fin 2) = (i 0).val / 512 := congrFun ht 0
  have q1 : win2_3.index t (1 : Fin 2) = 0 := congrFun ht 1
  refine ⟨t, flush2_3 t, ?_⟩
  rw [mem_outBlock2]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 2048 ≤ (i 1).val ∧ (i 1).val < win2_3.index t (1 : Fin 2) * 2048 + 2048; omega

/-- The output array after the region: `x · w'ᵀ` plus the bias row, entry by entry. -/
theorem final2 (c : Dev nD) : (dat2 (F := Ideal) V c).arrAt 3 cfg2.N = fun i => Hebb.mmT (V c main_v0) (V c main_v27) i + V c main_v28 (ix2 0 (i 1)) :=
  (dat2 (F := Ideal) V c).arrAt_eq_of_cover 3 (layerOut2 V c) (fun t _ => flushed2_eq V c t) covered2

end Cert.KernelIdeal.Hand

end
-- ==== Proof.KI.HostVal.lean ====
/-
  The program's host stretches read on the extended reals, and its result composed.

  Between the three products the host computes: two casts (the identity on the extended reals); the column means
  `x̄`, `ȳ` of the batch and of the pre-activations `y₀ = x · wᵀ`; and, from the correlation `G = y₀ᵀ · x`, the updated weight
  `w' = κ · w + η · (((x̄ ⊗ · wa + ȳ ⊗ · wb) + G · (wc / 4096)) + wd)` and the bias as one row. Given what each product
  folds its output array to — `x · wᵀ`, `y₀ᵀ · x`, `x · w'ᵀ` plus the bias row —, the last product's output is the layer's
  output `x · w'ᵀ + bias` of the launch arguments.
-/
import proofs.«109148_j43121471652136_1_alg».proof.Proof.Gen.KernelIdeal.Launch
import proofs.«109148_j43121471652136_1_alg».proof.Proof.Gen.KernelIdeal.Skeleton
import proofs.«109148_j43121471652136_1_alg».proof.Proof.Gen.KernelIdeal.Points
import proofs.«109148_j43121471652136_1_alg».proof.Proof.KI.Chain
import proofs.«109148_j43121471652136_1_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

/-! ## The host operations read at an index (over any arrays) -/

/-- A column's mean as the host spells it — the sum over the batch axis from the constant zero, divided by the
    broadcast constant 4096 — is the specification's column mean. -/
theorem colMean_read (y : FVec Ideal S4096x2048 .f32) (l : S2048.Idx) :
    Host.divf (Host.reduceAdd y (constant (F := Ideal) S_ .f32 0x00000000#32) reducesTo_S4096x2048_S2048_d0 h_S_)
      (broadcastInDim S2048 ![] bcast_S_S2048 (constant (F := Ideal) S_ .f32 0x45800000#32)) l = Hebb.colMean y (l 0) := by
  show Ideal.div (Host.reduceAdd y (constant (F := Ideal) S_ .f32 0x00000000#32) reducesTo_S4096x2048_S2048_d0 h_S_ l) Hebb.cBatch = _
  simp only [Host.reduceAdd, Ideal.hostReduceAdd_def]
  rw [Ideal.hostReduceAdd_single reducesTo_S4096x2048_S2048_d0 (by decide)]
  refine congrArg (fun s => Ideal.div (Hebb.cZero + s) Hebb.cBatch) (Finset.sum_congr rfl fun b _ => ?_)
  exact congrArg y (funext fun a => Fin.ext (by match a with | ⟨0, _⟩ => rfl | ⟨1, _⟩ => rfl))

/-- A row of 2048 values broadcast down the rows of a 2048 × 2048 array: entry (o, i) is the row's value at i. -/
theorem rowBroadcast_read (v : FVec Ideal S2048 .f32) (j : S2048x2048.Idx) :
    broadcastInDim S2048x2048 ![0, 1] bcast_S1x2048_S2048x2048_0_1 (broadcastInDim S1x2048 ![1] bcast_S2048_S1x2048_1 v) j
      = v (ix1 (j 1)) := by
  rw [broadcastInDim_apply _ bcast_S1x2048_S2048x2048_0_1 _ j (ix2 0 (j 1)) (fun a => match a with
      | ⟨0, _⟩ => by show 0 = if (1 : Nat) = 1 then 0 else (j 0).val; rw [if_pos rfl]
      | ⟨1, _⟩ => by show (j 1).val = if (2048 : Nat) = 1 then 0 else (j 1).val; rw [if_neg (by decide)]),
    broadcastInDim_apply _ bcast_S2048_S1x2048_1 _ (ix2 0 (j 1)) (ix1 (j 1)) (fun a => match a with
      | ⟨0, _⟩ => by show (j 1).val = if (2048 : Nat) = 1 then 0 else (j 1).val; rw [if_neg (by decide)])]

/-- A column of 2048 values broadcast along the columns: entry (o, i) is the column's value at o. -/
theorem colBroadcast_read (v : FVec Ideal S2048 .f32) (j : S2048x2048.Idx) :
    broadcastInDim S2048x2048 ![0, 1] bcast_S2048x1_S2048x2048_0_1 (broadcastInDim S2048x1 ![0] bcast_S2048_S2048x1_0 v) j
      = v (ix1 (j 0)) := by
  rw [broadcastInDim_apply _ bcast_S2048x1_S2048x2048_0_1 _ j (ix2 (j 0) 0) (fun a => match a with
      | ⟨0, _⟩ => by show (j 0).val = if (2048 : Nat) = 1 then 0 else (j 0).val; rw [if_neg (by decide)]
      | ⟨1, _⟩ => by show 0 = if (1 : Nat) = 1 then 0 else (j 1).val; rw [if_pos rfl]),
    broadcastInDim_apply _ bcast_S2048_S2048x1_0 _ (ix2 (j 0) 0) (ix1 (j 0)) (fun a => match a with
      | ⟨0, _⟩ => by show (j 0).val = if (2048 : Nat) = 1 then 0 else (j 0).val; rw [if_neg (by decide)])]

/-- The weight update's elementwise stages at an entry: the three scalars broadcast everywhere, the input means
    down the rows, the output means along the columns, the correlation entry times `wc / 4096`; the last cast is
    the identity on the extended reals. -/
theorem update_read (mx my : FVec Ideal S2048 .f32) (g wa wb wc wd w : FVec Ideal S2048x2048 .f32) (j : S2048x2048.Idx) :
    (truncf .bf16 (addf (mulf (broadcastInDim S2048x2048 ![] bcast_S_S2048x2048 (constant (F := Ideal) S_ .f32 0x3F7FBE77#32)) w)
      (mulf (broadcastInDim S2048x2048 ![] bcast_S_S2048x2048 (constant (F := Ideal) S_ .f32 0x3A83126F#32))
        (addf (addf (addf
          (mulf (broadcastInDim S2048x2048 ![0, 1] bcast_S1x2048_S2048x2048_0_1 (broadcastInDim S1x2048 ![1] bcast_S2048_S1x2048_1 mx)) wa)
          (mulf (broadcastInDim S2048x2048 ![0, 1] bcast_S2048x1_S2048x2048_0_1 (broadcastInDim S2048x1 ![0] bcast_S2048_S2048x1_0 my)) wb))
          (mulf g (Host.divf wc (broadcastInDim S2048x2048 ![] bcast_S_S2048x2048 (constant (F := Ideal) S_ .f32 0x45800000#32)))))
          wd))) bitsLt_bf16_f32 : FVec Ideal S2048x2048 .bf16) j
      = Hebb.cKeep * w j + Hebb.cEta * (((mx (ix1 (j 1)) * wa j + my (ix1 (j 0)) * wb j) + g j * Ideal.div (wc j) Hebb.cBatch) + wd j) := by
  rw [← rowBroadcast_read mx j, ← colBroadcast_read my j]
  rfl

/-- The bias reshaped to one row: entry (0, o) of the row is the bias at o (the row-major positions agree). -/
theorem biasRow_read (b : FVec Ideal S2048 .f32) (q : Fin 2048) :
    shapeCast S1x2048 b shapeCasts_S2048_S1x2048 (ix2 0 q) = b (ix1 q) :=
  shapeCast_apply b shapeCasts_S2048_S1x2048 (ix2 0 q) (ix1 q) (by
    rw [Shape.rowMajor_val_one, Shape.rowMajor_val_two]
    show q.val = 0 * 2048 + q.val
    omega)

/-! ## The buffers at each boundary of the program, from the launch contents -/

variable (m : (ℓ : Loc nD τ sig) → Buf (Elt Ideal) ℓ) (ρ : Dev nD → PrngReg)

/-- The seven arguments as launched: the batch `x`, the weight-shaped `wa wb wc wd w`, the bias. -/
abbrev argX (c : Dev nD) : S4096x2048.Idx → EReal := m ((c : Thread nD τ).loc main_arg0)
abbrev argA (c : Dev nD) : S2048x2048.Idx → EReal := m ((c : Thread nD τ).loc main_arg1)
abbrev argB (c : Dev nD) : S2048x2048.Idx → EReal := m ((c : Thread nD τ).loc main_arg2)
abbrev argC (c : Dev nD) : S2048x2048.Idx → EReal := m ((c : Thread nD τ).loc main_arg3)
abbrev argD (c : Dev nD) : S2048x2048.Idx → EReal := m ((c : Thread nD τ).loc main_arg4)
abbrev argW (c : Dev nD) : S2048x2048.Idx → EReal := m ((c : Thread nD τ).loc main_arg5)
abbrev argBias (c : Dev nD) : S2048.Idx → EReal := m ((c : Thread nD τ).loc main_arg6)

/-! ### Entering the first product: the two casts are the identity on the extended reals -/

theorem x_enter0 (c : Dev nD) : (V1 m ρ c main_v0 : S4096x2048.Idx → EReal) = argX m c := by
  show StableHlo.after hostOps0 (W0 m ρ c) (Proc.devRef .tc main_v0) = _
  after_results
  rfl

theorem w_enter0 (c : Dev nD) : (V1 m ρ c main_v1 : S2048x2048.Idx → EReal) = argW m c := by
  show StableHlo.after hostOps0 (W0 m ρ c) (Proc.devRef .tc main_v1) = _
  after_results
  rfl

/-! ### After the first product -/

/-- Its output array is the pre-activations `x · wᵀ`. -/
theorem preact_after0
    (h0 : ∀ (V : (c : Dev nD) → (b : Ref sig .tc) → Buf (Elt Ideal) ((c : Thread nD τ).loc b)) c, (dat0 (F := Ideal) V c).arrAt 2 cfg0.N = Hebb.mmT (V c main_v0) (V c main_v1))
    (c : Dev nD) : (W2 m ρ c (Proc.devRef .tc main_v2) : S4096x2048.Idx → EReal) = Hebb.mmT (argX m c) (argW m c) :=
  (W2_arr m ρ c 2).trans ((h0 (V1 m ρ) c).trans (by rw [x_enter0, w_enter0]))

/-- An input array is as the region found it. -/
theorem x_after0 (c : Dev nD) : (W2 m ρ c (Proc.devRef .tc main_v0) : S4096x2048.Idx → EReal) = argX m c :=
  (W2_arr m ρ c 0).trans (((dat0 (V1 m ρ) c).arrAt_in 0 rfl _).trans ((A_eq0 (V1 m ρ) c 0).trans (x_enter0 m ρ c)))

/-- The f32 batch is no array of the region and no cast writes it. -/
theorem arg0_after0 (c : Dev nD) : (W2 m ρ c (Proc.devRef .tc main_arg0) : S4096x2048.Idx → EReal) = argX m c := by
  rw [W2_of_ne m ρ c main_arg0 (by decide)]
  show StableHlo.after hostOps0 (W0 m ρ c) (Proc.devRef .tc main_arg0) = _
  after_results

/-! ### Entering the correlation product: the two column means -/

theorem x_enter1 (c : Dev nD) : (V3 m ρ c main_v0 : S4096x2048.Idx → EReal) = argX m c := by
  show StableHlo.after hostOps1 (W2 m ρ c) (Proc.devRef .tc main_v0) = _
  after_results
  exact x_after0 m ρ c

theorem preact_enter1
    (h0 : ∀ (V : (c : Dev nD) → (b : Ref sig .tc) → Buf (Elt Ideal) ((c : Thread nD τ).loc b)) c, (dat0 (F := Ideal) V c).arrAt 2 cfg0.N = Hebb.mmT (V c main_v0) (V c main_v1))
    (c : Dev nD) : (V3 m ρ c main_v2 : S4096x2048.Idx → EReal) = Hebb.mmT (argX m c) (argW m c) := by
  show StableHlo.after hostOps1 (W2 m ρ c) (Proc.devRef .tc main_v2) = _
  after_results
  exact preact_after0 m ρ h0 c

/-- The input means: column j of `x`. -/
theorem meanIn_enter1 (c : Dev nD) :
    (V3 m ρ c main_v5 : S2048.Idx → EReal) = fun l => Hebb.colMean (argX m c) (l 0) := by
  show StableHlo.after hostOps1 (W2 m ρ c) (Proc.devRef .tc main_v5) = _
  after_results
  rw [arg0_after0]
  exact funext fun l => colMean_read _ l

/-- The output means: column o of the pre-activations. -/
theorem meanOut_enter1
    (h0 : ∀ (V : (c : Dev nD) → (b : Ref sig .tc) → Buf (Elt Ideal) ((c : Thread nD τ).loc b)) c, (dat0 (F := Ideal) V c).arrAt 2 cfg0.N = Hebb.mmT (V c main_v0) (V c main_v1))
    (c : Dev nD) :
    (V3 m ρ c main_v8 : S2048.Idx → EReal) = fun l => Hebb.colMean (Hebb.mmT (argX m c) (argW m c)) (l 0) := by
  show StableHlo.after hostOps1 (W2 m ρ c) (Proc.devRef .tc main_v8) = _
  after_results
  rw [preact_after0 m ρ h0]
  exact funext fun l => colMean_read _ l

/-! ### After the correlation product -/

/-- Its output array is the correlation `G = y₀ᵀ · x` of the pre-activations with the batch. -/
theorem corr_after1
    (h0 : ∀ (V : (c : Dev nD) → (b : Ref sig .tc) → Buf (Elt Ideal) ((c : Thread nD τ).loc b)) c, (dat0 (F := Ideal) V c).arrAt 2 cfg0.N = Hebb.mmT (V c main_v0) (V c main_v1))
    (h1 : ∀ (V : (c : Dev nD) → (b : Ref sig .tc) → Buf (Elt Ideal) ((c : Thread nD τ).loc b)) c, (dat1 (F := Ideal) V c).arrAt 2 cfg1.N = Hebb.gram (V c main_v2) (V c main_v0))
    (c : Dev nD) : (W4 m ρ c (Proc.devRef .tc main_v9) : S2048x2048.Idx → EReal)
      = Hebb.gram (Hebb.mmT (argX m c) (argW m c)) (argX m c) :=
  (W4_arr m ρ c 2).trans ((h1 (V3 m ρ) c).trans (by rw [preact_enter1 m ρ h0, x_enter1]))

theorem x_after1 (c : Dev nD) : (W4 m ρ c (Proc.devRef .tc main_v0) : S4096x2048.Idx → EReal) = argX m c :=
  (W4_arr m ρ c 1).trans (((dat1 (V3 m ρ) c).arrAt_in 1 rfl _).trans ((A_eq1 (V3 m ρ) c 1).trans (x_enter1 m ρ c)))

theorem meanIn_after1 (c : Dev nD) :
    (W4 m ρ c (Proc.devRef .tc main_v5) : S2048.Idx → EReal) = fun l => Hebb.colMean (argX m c) (l 0) :=
  (W4_of_ne m ρ c main_v5 (by decide)).trans (meanIn_enter1 m ρ c)

theorem meanOut_after1
    (h0 : ∀ (V : (c : Dev nD) → (b : Ref sig .tc) → Buf (Elt Ideal) ((c : Thread nD τ).loc b)) c, (dat0 (F := Ideal) V c).arrAt 2 cfg0.N = Hebb.mmT (V c main_v0) (V c main_v1))
    (c : Dev nD) :
    (W4 m ρ c (Proc.devRef .tc main_v8) : S2048.Idx → EReal) = fun l => Hebb.colMean (Hebb.mmT (argX m c) (argW m c)) (l 0) :=
  (W4_of_ne m ρ c main_v8 (by decide)).trans (meanOut_enter1 m ρ h0 c)

/-! The arguments the weight update reads are no array of either region and no earlier host operation writes them. -/

theorem arg1_after1 (c : Dev nD) : (W4 m ρ c (Proc.devRef .tc main_arg1) : S2048x2048.Idx → EReal) = argA m c := by
  rw [W4_of_ne m ρ c main_arg1 (by decide)]
  show StableHlo.after hostOps1 (W2 m ρ c) (Proc.devRef .tc main_arg1) = _
  after_results
  rw [W2_of_ne m ρ c main_arg1 (by decide)]
  show StableHlo.after hostOps0 (W0 m ρ c) (Proc.devRef .tc main_arg1) = _
  after_results

theorem arg2_after1 (c : Dev nD) : (W4 m ρ c (Proc.devRef .tc main_arg2) : S2048x2048.Idx → EReal) = argB m c := by
  rw [W4_of_ne m ρ c main_arg2 (by decide)]
  show StableHlo.after hostOps1 (W2 m ρ c) (Proc.devRef .tc main_arg2) = _
  after_results
  rw [W2_of_ne m ρ c main_arg2 (by decide)]
  show StableHlo.after hostOps0 (W0 m ρ c) (Proc.devRef .tc main_arg2) = _
  after_results

theorem arg3_after1 (c : Dev nD) : (W4 m ρ c (Proc.devRef .tc main_arg3) : S2048x2048.Idx → EReal) = argC m c := by
  rw [W4_of_ne m ρ c main_arg3 (by decide)]
  show StableHlo.after hostOps1 (W2 m ρ c) (Proc.devRef .tc main_arg3) = _
  after_results
  rw [W2_of_ne m ρ c main_arg3 (by decide)]
  show StableHlo.after hostOps0 (W0 m ρ c) (Proc.devRef .tc main_arg3) = _
  after_results

theorem arg4_after1 (c : Dev nD) : (W4 m ρ c (Proc.devRef .tc main_arg4) : S2048x2048.Idx → EReal) = argD m c := by
  rw [W4_of_ne m ρ c main_arg4 (by decide)]
  show StableHlo.after hostOps1 (W2 m ρ c) (Proc.devRef .tc main_arg4) = _
  after_results
  rw [W2_of_ne m ρ c main_arg4 (by decide)]
  show StableHlo.after hostOps0 (W0 m ρ c) (Proc.devRef .tc main_arg4) = _
  after_results

theorem arg5_after1 (c : Dev nD) : (W4 m ρ c (Proc.devRef .tc main_arg5) : S2048x2048.Idx → EReal) = argW m c := by
  rw [W4_of_ne m ρ c main_arg5 (by decide)]
  show StableHlo.after hostOps1 (W2 m ρ c) (Proc.devRef .tc main_arg5) = _
  after_results
  rw [W2_of_ne m ρ c main_arg5 (by decide)]
  show StableHlo.after hostOps0 (W0 m ρ c) (Proc.devRef .tc main_arg5) = _
  after_results

theorem arg6_after1 (c : Dev nD) : (W4 m ρ c (Proc.devRef .tc main_arg6) : S2048.Idx → EReal) = argBias m c := by
  rw [W4_of_ne m ρ c main_arg6 (by decide)]
  show StableHlo.after hostOps1 (W2 m ρ c) (Proc.devRef .tc main_arg6) = _
  after_results
  rw [W2_of_ne m ρ c main_arg6 (by decide)]
  show StableHlo.after hostOps0 (W0 m ρ c) (Proc.devRef .tc main_arg6) = _
  after_results

/-! ### Entering the second product: the weight update -/

theorem x_enter2 (c : Dev nD) : (V5 m ρ c main_v0 : S4096x2048.Idx → EReal) = argX m c := by
  show StableHlo.after hostOps2 (W4 m ρ c) (Proc.devRef .tc main_v0) = _
  after_results
  exact x_after1 m ρ c

/-- The updated weight, with the correlation term in the kernel's grouping `G · (wc / 4096)`. -/
theorem weight_enter2
    (h0 : ∀ (V : (c : Dev nD) → (b : Ref sig .tc) → Buf (Elt Ideal) ((c : Thread nD τ).loc b)) c, (dat0 (F := Ideal) V c).arrAt 2 cfg0.N = Hebb.mmT (V c main_v0) (V c main_v1))
    (h1 : ∀ (V : (c : Dev nD) → (b : Ref sig .tc) → Buf (Elt Ideal) ((c : Thread nD τ).loc b)) c, (dat1 (F := Ideal) V c).arrAt 2 cfg1.N = Hebb.gram (V c main_v2) (V c main_v0))
    (c : Dev nD) : (V5 m ρ c main_v27 : S2048x2048.Idx → EReal)
      = Hebb.newWeightL (argX m c) (argA m c) (argB m c) (argC m c) (argD m c) (argW m c) := by
  show StableHlo.after hostOps2 (W4 m ρ c) (Proc.devRef .tc main_v27) = _
  after_results_simp
  rw [meanIn_after1, meanOut_after1 m ρ h0, corr_after1 m ρ h0 h1, arg1_after1, arg2_after1, arg3_after1, arg4_after1, arg5_after1]
  funext j
  rw [update_read]
  rfl

/-- The bias as one row. -/
theorem bias_enter2 (c : Dev nD) :
    (V5 m ρ c main_v28 : S1x2048.Idx → EReal) = shapeCast S1x2048 (argBias m c) shapeCasts_S2048_S1x2048 := by
  show StableHlo.after hostOps2 (W4 m ρ c) (Proc.devRef .tc main_v28) = _
  after_results
  rw [arg6_after1]
  rfl

/-! ## The program's result -/

/-- What the second product folds its output to is the layer's output from the updated weight, the correlation term in
    the kernel's grouping. -/
theorem result_spec
    (h0 : ∀ (V : (c : Dev nD) → (b : Ref sig .tc) → Buf (Elt Ideal) ((c : Thread nD τ).loc b)) c, (dat0 (F := Ideal) V c).arrAt 2 cfg0.N = Hebb.mmT (V c main_v0) (V c main_v1))
    (h1 : ∀ (V : (c : Dev nD) → (b : Ref sig .tc) → Buf (Elt Ideal) ((c : Thread nD τ).loc b)) c, (dat1 (F := Ideal) V c).arrAt 2 cfg1.N = Hebb.gram (V c main_v2) (V c main_v0))
    (h2 : ∀ (V : (c : Dev nD) → (b : Ref sig .tc) → Buf (Elt Ideal) ((c : Thread nD τ).loc b)) c, (dat2 (F := Ideal) V c).arrAt 3 cfg2.N = fun i => Hebb.mmT (V c main_v0) (V c main_v27) i + V c main_v28 (ix2 0 (i 1)))
    (c : Dev nD) :
    (dat2 (F := Ideal) (V5 m ρ) c).arrAt 3 cfg2.N
      = Hebb.outOf (m ((c : Thread nD τ).loc main_arg0)) (Hebb.newWeightL (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) := by
  rw [h2 (V5 m ρ) c, x_enter2, weight_enter2 m ρ h0 h1, bias_enter2]
  funext i
  exact congrArg (Hebb.mmT (argX m c) (Hebb.newWeightL (argX m c) (argA m c) (argB m c) (argC m c) (argD m c) (argW m c)) i + ·)
    (biasRow_read (argBias m c) (i 1))

end Cert.KernelIdeal.Hand

end
-- ==== Proof.lean ====
/-
  The Hebbian linear layer: a Pallas program of three kernels — `y₀ = x · wᵀ` in row blocks; the Gram matrix
  `G = y₀ᵀ · x` accumulated over the batch in a scratch buffer; `out = x · w'ᵀ + bias` in row blocks — with the two
  column means and the weight update `w' = κ·w + η·(((x̄·wa + ȳ·wb) + G·(wc/4096)) + wd)` as host operations between
  them, against the jnp reference, which spells the correlation term `(G·wc)/4096`.

  The frames: each kernel region runs under the pipeline with its own proof data (the two products store their
  block whole at every point; the Gram region carries its running sum from point to point in its invariant), the
  host stretches between them by the operations' own rule, and no item writes an argument. The word-level program
  and its idealization are one text, so one proof serves both instances.

  The value, at the extended reals: the first region leaves `x · wᵀ`, the Gram region the sum over all 4096 batch
  rows (eight partial sums of 512 rows per output block), the host operations between them the means and the updated
  weight, the last region `x · w'ᵀ + bias`; the reference's composed term is the same function with the correlation
  term regrouped, and `g · (c / 4096) = (g · c) / 4096` on every extended real (division by a nonzero real is
  multiplication by its reciprocal; multiplication is associative) — no finiteness is used.
-/
import proofs.«109148_j43121471652136_1_alg».proof.Defs
import proofs.«109148_j43121471652136_1_alg».proof.Proof.Gen.Kernel
import proofs.«109148_j43121471652136_1_alg».proof.Proof.Gen.KernelIdeal
import proofs.«109148_j43121471652136_1_alg».proof.Proof.Gen.ReferenceIdeal
import proofs.«109148_j43121471652136_1_alg».proof.Proof.Gen.Pre_finite_inputs
import proofs.«109148_j43121471652136_1_alg».proof.Proof.Gen.ReferenceIdeal.Run
import proofs.«109148_j43121471652136_1_alg».proof.Proof.Spec
import proofs.«109148_j43121471652136_1_alg».proof.Proof.RefValue
import proofs.«109148_j43121471652136_1_alg».proof.Proof.K.Run
import proofs.«109148_j43121471652136_1_alg».proof.Proof.KI.Run
import proofs.«109148_j43121471652136_1_alg».proof.Proof.KI.Val0
import proofs.«109148_j43121471652136_1_alg».proof.Proof.KI.Val1
import proofs.«109148_j43121471652136_1_alg».proof.Proof.KI.Val2
import proofs.«109148_j43121471652136_1_alg».proof.Proof.KI.HostVal
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end at the layer's output: the kernel program with the correlation term spelt `G·(wc/4096)`, the
    reference with `(G·wc)/4096`; the two spellings are one function. -/
theorem algebraic : Cert.algebraic_KernelIdeal_ReferenceIdeal := by
  intro m ρ m' ρ' _ hagree
  refine ⟨fun c => Hebb.outOf (m ((c.tc : Thread Cert.KernelIdeal.nD Cert.KernelIdeal.τ).loc Cert.KernelIdeal.main_arg0))
      (Hebb.newWeightL (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
        (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Hand.result_spec m ρ
          (fun V c => Cert.KernelIdeal.Hand.final0 V c) (fun V c => Cert.KernelIdeal.Hand.final1 V c)
          (fun V c => Cert.KernelIdeal.Hand.final2 V c) c), (h c).2⟩)
      (Cert.KernelIdeal.Hand.run_named (F := Ideal) m ρ)
  · refine (θ_run Cert.ReferenceIdeal.defs _ _).mono (fun _ h c => ⟨(h c).1.trans ?_, (h c).2⟩)
      (Cert.ReferenceIdeal.RefValue.run_spec m' ρ')
    rw [(hagree c).1, (hagree c).2.1, (hagree c).2.2.1, (hagree c).2.2.2.1, (hagree c).2.2.2.2.1,
      (hagree c).2.2.2.2.2.1, (hagree c).2.2.2.2.2.2]
    dsimp only
    rw [Hebb.newWeightL_eq_R]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
